-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4088 : Shape := ⟨2, ![16384, 4088]⟩
abbrev S16384x511 : Shape := ⟨2, ![16384, 511]⟩
abbrev S16384x16 : Shape := ⟨2, ![16384, 16]⟩
abbrev S16 : Shape := ⟨1, ![16]⟩
abbrev S4088 : Shape := ⟨1, ![4088]⟩
abbrev S_ : Shape := ⟨0, ![]⟩

class Facts : Prop where
  bcast_S_S16384x4088 : S_.BroadcastsInDim S16384x4088 (![] : Fin 0 → Fin S16384x4088.rank)
  reducesTo_S16384x4088_S_d0_1 : S16384x4088.ReducesTo [0, 1] S_
  h_S_ : 0 < S_.numel
  bcast_S_S16384x511 : S_.BroadcastsInDim S16384x511 (![] : Fin 0 → Fin S16384x511.rank)
  reducesTo_S16384x511_S_d0_1 : S16384x511.ReducesTo [0, 1] S_
  bcast_S_S16384x16 : S_.BroadcastsInDim S16384x16 (![] : Fin 0 → Fin S16384x16.rank)
  reducesTo_S16384x16_S_d0_1 : S16384x16.ReducesTo [0, 1] S_
  bcast_S_S16 : S_.BroadcastsInDim S16 (![] : Fin 0 → Fin S16.rank)
  reducesTo_S16_S_d0 : S16.ReducesTo [0] S_
  bcast_S_S4088 : S_.BroadcastsInDim S4088 (![] : Fin 0 → Fin S4088.rank)
  reducesTo_S4088_S_d0 : S4088.ReducesTo [0] S_

variable [Facts]

def fn_part1 {F : FTy → Type} [FloatOps F] (main_arg4 : IVec S4088 32) (main_arg5 : IVec S4088 32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_c_6 : IVec S_ 32 := constantI S_ 32 0#32
  let main_v19 : IVec S4088 32 := broadcastInDim S4088 ![] bcast_S_S4088 main_c_6
  let main_v20 : IVec S4088 1 := cmpi .sge main_arg5 main_v19
  let main_c_7 : IVec S_ 32 := constantI S_ 32 511#32
  let main_v21 : IVec S4088 32 := broadcastInDim S4088 ![] bcast_S_S4088 main_c_7
  let main_v22 : IVec S4088 1 := cmpi .slt main_arg5 main_v21
  let main_v23 : IVec S4088 1 := andi main_v20 main_v22
  let main_c_8 : IVec S_ 1 := constantI S_ 1 1#1
  let main_v24 : IVec S_ 1 := (fun x v => Host.reduce IntOp.andi x v reducesTo_S4088_S_d0 h_S_) main_v23 main_c_8
  let main_v25 : IVec S_ 1 := andi main_v18 main_v24
  let main_c_9 : IVec S_ 32 := constantI S_ 32 0#32
  let main_v26 : IVec S4088 32 := broadcastInDim S4088 ![] bcast_S_S4088 main_c_9
  let main_v27 : IVec S4088 1 := cmpi .sge main_arg4 main_v26
  let main_c_10 : IVec S_ 32 := constantI S_ 32 16#32
  let main_v28 : IVec S4088 32 := broadcastInDim S4088 ![] bcast_S_S4088 main_c_10
  let main_v29 : IVec S4088 1 := cmpi .slt main_arg4 main_v28
  let main_v30 : IVec S4088 1 := andi main_v27 main_v29
  let main_c_11 : IVec S_ 1 := constantI S_ 1 1#1
  let main_v31 : IVec S_ 1 := (fun x v => Host.reduce IntOp.andi x v reducesTo_S4088_S_d0 h_S_) main_v30 main_c_11
  let main_v32 : IVec S_ 1 := andi main_v25 main_v31
  main_v32

def fn {F : FTy → Type} [FloatOps F] (main_arg0 : FVec F S16384x4088 .f32) (main_arg1 : FVec F S16384x511 .f32) (main_arg2 : FVec F S16384x16 .f32) (main_arg3 : FVec F S16 .f32) (main_arg4 : IVec S4088 32) (main_arg5 : IVec S4088 32) : IVec S_ 1 :=
  let main_v0 : FVec F S16384x4088 .f32 := Host.absf main_arg0
  let main_cst : FVec F S_ .f32 := constant S_ .f32 0x7F800000#32
  let main_v1 : FVec F S16384x4088 .f32 := broadcastInDim S16384x4088 ![] bcast_S_S16384x4088 main_cst
  let main_v2 : IVec S16384x4088 1 := cmpf .olt main_v0 main_v1
  let main_c : IVec S_ 1 := constantI S_ 1 1#1
  let main_v3 : IVec S_ 1 := (fun x v => Host.reduce IntOp.andi x v reducesTo_S16384x4088_S_d0_1 h_S_) main_v2 main_c
  let main_v4 : FVec F S16384x511 .f32 := Host.absf main_arg1
  let main_cst_0 : FVec F S_ .f32 := constant S_ .f32 0x7F800000#32
  let main_v5 : FVec F S16384x511 .f32 := broadcastInDim S16384x511 ![] bcast_S_S16384x511 main_cst_0
  let main_v6 : IVec S16384x511 1 := cmpf .olt main_v4 main_v5
  let main_c_1 : IVec S_ 1 := constantI S_ 1 1#1
  let main_v7 : IVec S_ 1 := (fun x v => Host.reduce IntOp.andi x v reducesTo_S16384x511_S_d0_1 h_S_) main_v6 main_c_1
  let main_v8 : IVec S_ 1 := andi main_v3 main_v7
  let main_v9 : FVec F S16384x16 .f32 := Host.absf main_arg2
  let main_cst_2 : FVec F S_ .f32 := constant S_ .f32 0x7F800000#32
  let main_v10 : FVec F S16384x16 .f32 := broadcastInDim S16384x16 ![] bcast_S_S16384x16 main_cst_2
  let main_v11 : IVec S16384x16 1 := cmpf .olt main_v9 main_v10
  let main_c_3 : IVec S_ 1 := constantI S_ 1 1#1
  let main_v12 : IVec S_ 1 := (fun x v => Host.reduce IntOp.andi x v reducesTo_S16384x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S16384x4088 : Shape := ⟨2, ![16384, 4088]⟩
abbrev S16384x511 : Shape := ⟨2, ![16384, 511]⟩
abbrev S16384x16 : Shape := ⟨2, ![16384, 16]⟩
abbrev S16 : Shape := ⟨1, ![16]⟩
abbrev S4088 : Shape := ⟨1, ![4088]⟩
abbrev S511 : Shape := ⟨1, ![511]⟩
abbrev S511x1 : Shape := ⟨2, ![511, 1]⟩
abbrev S1x4088 : Shape := ⟨2, ![1, 4088]⟩
abbrev S511x4088 : Shape := ⟨2, ![511, 4088]⟩
abbrev S1x16 : Shape := ⟨2, ![1, 16]⟩
abbrev S4088x1 : Shape := ⟨2, ![4088, 1]⟩
abbrev S4088x16 : Shape := ⟨2, ![4088, 16]⟩
abbrev S2x1x128 : Shape := ⟨3, ![2, 1, 128]⟩
abbrev S256x4088 : Shape := ⟨2, ![256, 4088]⟩
abbrev S256x511 : Shape := ⟨2, ![256, 511]⟩
abbrev S256x16 : Shape := ⟨2, ![256, 16]⟩
abbrev S1x1x128 : Shape := ⟨3, ![1, 1, 128]⟩
abbrev S1x1 : Shape := ⟨2, ![1, 1]⟩
abbrev S256 : Shape := ⟨1, ![256]⟩
abbrev S256x1 : Shape := ⟨2, ![256, 1]⟩
abbrev S1 : Shape := ⟨1, ![1]⟩
abbrev S1x128 : Shape := ⟨2, ![1, 128]⟩
abbrev S2x1x3 : Shape := ⟨3, ![2, 1, 3]⟩
abbrev S2x3 : Shape := ⟨2, ![2, 3]⟩
abbrev S_ : Shape := ⟨0, ![]⟩
abbrev S3 : Shape := ⟨1, ![3]⟩

abbrev nBuf : Space → Nat
  | .hbm => 44
  | .vmem => 14
  | .smem => 0
  | _ => 0

abbrev bufTy : (tb : Table) → Fin (tcTables nBuf tb) → BufTy
  | .hbm, ⟨0, _⟩ => ⟨S16384x4088, .f32⟩
  | .hbm, ⟨1, _⟩ => ⟨S16384x511, .f32⟩
  | .hbm, ⟨2, _⟩ => ⟨S16384x16, .f32⟩
  | .hbm, ⟨3, _⟩ => ⟨S16, .f32⟩
  | .hbm, ⟨4, _⟩ => ⟨S4088, .i32⟩
  | .hbm, ⟨5, _⟩ => ⟨S4088, .i32⟩
  | .hbm, ⟨6, _⟩ => ⟨S511, .i32⟩
  | .hbm, ⟨7, _⟩ => ⟨S511x1, .i32⟩
  | .hbm, ⟨8, _⟩ => ⟨S1x4088, .i32⟩
  | .hbm, ⟨9, _⟩ => ⟨S511x4088, .i32⟩
  | .hbm, ⟨10, _⟩ => ⟨S511x4088, .i32⟩
  | .hbm, ⟨11, _⟩ => ⟨S511x4088, .i1⟩
  | .hbm, ⟨12, _⟩ => ⟨S511x4088, .bf16⟩
  | .hbm, ⟨13, _⟩ => ⟨S16, .i32⟩
  | .hbm, ⟨14, _⟩ => ⟨S1x16, .i32⟩
  | .hbm, ⟨15, _⟩ => ⟨S4088x1, .i32⟩
  | .hbm, ⟨16, _⟩ => ⟨S4088x16, .i32⟩
  | .hbm, ⟨17, _⟩ => ⟨S4088x16, .i32⟩
  | .hbm, ⟨18, _⟩ => ⟨S4088x16, .i1⟩
  | .hbm, ⟨19, _⟩ => ⟨S4088x16, .f32⟩
  | .hbm, ⟨20, _⟩ => ⟨S1x16, .f32⟩
  | .hbm, ⟨21, _⟩ => ⟨S2x1x128, .f32⟩
  | .hbm, ⟨22, _⟩ => ⟨S2x1x3, .f32⟩
  | .hbm, ⟨23, _⟩ => ⟨S2x3, .f32⟩
  | .hbm, ⟨24, _⟩ => ⟨S_, .f32⟩
  | .hbm, ⟨25, _⟩ => ⟨S3, .f32⟩
  | .hbm, ⟨26, _⟩ => ⟨S1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S256x4088, .f32⟩
  | .local _ .vmem, ⟨1, _⟩ => ⟨S256x4088, .f32⟩
  | .local _ .vmem, ⟨2, _⟩ => ⟨S256x511, .f32⟩
  | .local _ .vmem, ⟨3, _⟩ => ⟨S256x511, .f32⟩
  | .local _ .vmem, ⟨4, _⟩ => ⟨S256x16, .f32⟩
  | .local _ .vmem, ⟨5, _⟩ => ⟨S256x16, .f32⟩
  | .local _ .vmem, ⟨6, _⟩ => ⟨S1x16, .f32⟩
  | .local _ .vmem, ⟨7, _⟩ => ⟨S511x4088, .bf16⟩
  | .local _ .vmem, ⟨8, _⟩ => ⟨S4088x16, .f32⟩
  | .local _ .vmem, ⟨9, _⟩ => ⟨S1x1x128, .f32⟩
  | .local _ .vmem, ⟨10, _⟩ => ⟨S1x1x128, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | _, _ => ⟨S16384x4088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v69 : BitVec 1 := Scalar.cmpi .eq arg1 c31_i32
  let v70 : BitVec 32 := Scalar.extui v69
  let c0_i32_39 : BitVec 32 := 0#32
  let v71 : BitVec 1 := Scalar.cmpi .ne v70 c0_i32_39
  v71

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x511 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S511x4088 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4088x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S511_S511x1_0 : S511.BroadcastsInDim S511x1 (![0] : Fin 1 → Fin S511x1.rank)
  bcast_S4088_S1x4088_1 : S4088.BroadcastsInDim S1x4088 (![1] : Fin 1 → Fin S1x4088.rank)
  bcast_S511x1_S511x4088_0_1 : S511x1.BroadcastsInDim S511x4088 (![0, 1] : Fin 2 → Fin S511x4088.rank)
  bcast_S1x4088_S511x4088_0_1 : S1x4088.BroadcastsInDim S511x4088 (![0, 1] : Fin 2 → Fin S511x4088.rank)
  bcast_S16_S1x16_1 : S16.BroadcastsInDim S1x16 (![1] : Fin 1 → Fin S1x16.rank)
  bcast_S4088_S4088x1_0 : S4088.BroadcastsInDim S4088x1 (![0] : Fin 1 → Fin S4088x1.rank)
  bcast_S1x16_S4088x16_0_1 : S1x16.BroadcastsInDim S4088x16 (![0, 1] : Fin 2 → Fin S4088x16.rank)
  bcast_S4088x1_S4088x16_0_1 : S4088x1.BroadcastsInDim S4088x16 (![0, 1] : Fin 2 → Fin S4088x16.rank)
  shapeCasts_S16_S1x16 : S16.ShapeCasts S1x16
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x511_S256x511_0_0 : ∀ a, (![0, 0] : Fin 2 → Nat) a + S256x511.size a ≤ S256x511.size a
  h_S256x511 : 0 < S256x511.numel
  bitsLt_bf16_f32 : FTy.bits .bf16 < FTy.bits .f32
  inb_S511x4088_S511x4088_0_0 : ∀ a, (![0, 0] : Fin 2 → Nat) a + S511x4088.size a ≤ S511x4088.size a
  h_S511x4088 : 0 < S511x4088.numel
  shapeCasts_S511x4088_S511x4088 : S511x4088.ShapeCasts S511x4088
  inb_S256x4088_S256x4088_0_0 : ∀ a, (![0, 0] : Fin 2 → Nat) a + S256x4088.size a ≤ S256x4088.size a
  h_S256x4088 : 0 < S256x4088.numel
  inb_S4088x16_S4088x16_0_0 : ∀ a, (![0, 0] : Fin 2 → Nat) a + S4088x16.size a ≤ S4088x16.size a
  h_S4088x16 : 0 < S4088x16.numel
  shapeCasts_S4088x16_S4088x16 : S4088x16.ShapeCasts S4088x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S256x16_S256x16_0_0 : ∀ a, (![0, 0] : Fin 2 → Nat) a + S256x16.size a ≤ S256x16.size a
  h_S256x16 : 0 < S256x16.numel
  broadcasts_S1x16_S256x16 : S1x16.Broadcasts S256x16
  reduces_S256x16_S256 : S256x16.Reduces [1] S256
  shapeCasts_S256_S256x1 : S256.ShapeCasts S256x1
  broadcasts_S256x1_S256x16 : S256x1.Broadcasts S256x16
  reduces_S256x1_S1 : S256x1.Reduces [0] S1
  shapeCasts_S1_S1x1 : S1.ShapeCasts S1x1
  iota_S1x128_d1_w32 : S1x128.Iotas .tc 32 [1]
  inpos_S1x1_p0_0 : ∀ a, (![0, 0] : Fin 2 → Nat) a < S1x1.size a
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  slices_S2x1x128_S2x1x3_0_0_0 : S2x1x128.Slices ![0, 0, 0] S2x1x3
  shapeCasts_S2x1x3_S2x3 : S2x1x3.ShapeCasts S2x3
  reducesTo_S2x3_S3_d0 : S2x3.ReducesTo [0] S3
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  dot_S256x511_S511x4088_S256x4088_1_0_0_1_n_n_wf : DotDims.WF S256x511 S511x4088 S256x4088 [1] [0] [0] [1] [] []
  dot_S256x4088_S4088x16_S256x16_1_0_0_1_n_n_wf : DotDims.WF S256x4088 S4088x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4088.size a ≤ S16384x4088.size a
  hwx0_0 : ∀ i : grid0.Coords, EltTy.bits .f32 = 32 ∨ (Rect.block (s := S16384x4088) S256x4088.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x511.size a ≤ S16384x511.size a
  hwx0_1 : ∀ i : grid0.Coords, EltTy.bits .f32 = 32 ∨ (Rect.block (s := S16384x511) S256x511.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S16384x16.size a
  hwx0_2 : ∀ i : grid0.Coords, EltTy.bits .f32 = 32 ∨ (Rect.block (s := S16384x16) S256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S511x4088.size a ≤ S511x4088.size a
  hwx0_4 : ∀ i : grid0.Coords, EltTy.bits .bf16 = 32 ∨ (Rect.block (s := S511x4088) S511x4088.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4088x16.size a ≤ S4088x16.size a
  hwx0_5 : ∀ i : grid0.Coords, EltTy.bits .f32 = 32 ∨ (Rect.block (s := S4088x16) S4088x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)

variable [Facts₀]

def dot_S256x511_S511x4088_S256x4088_1_0_0_1_n_n : DotDims S256x511 S511x4088 S256x4088 where
  lhsContracting := [1]
  rhsContracting := [0]
  lhsNonContracting := [0]
  rhsNonContracting := [1]
  lhsBatch := []
  rhsBatch := []
  wf := dot_S256x511_S511x4088_S256x4088_1_0_0_1_n_n_wf
def dot_S256x4088_S4088x16_S256x16_1_0_0_1_n_n : DotDims S256x4088 S4088x16 S256x16 where
  lhsContracting := [1]
  rhsContracting := [0]
  lhsNonContracting := [0]
  rhsNonContracting := [1]
  lhsBatch := []
  rhsBatch := []
  wf := dot_S256x4088_S4088x16_S256x16_1_0_0_1_n_n_wf

abbrev win0_0 : Pipeline.Window sig grid0 :=
  Pipeline.Window.ofSpec (Memref.whole main_arg0) S256x4088.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x511.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S511x4088.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S4088x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384x4088 : Shape := ⟨2, ![16384, 4088]⟩
abbrev S16384x511 : Shape := ⟨2, ![16384, 511]⟩
abbrev S16384x16 : Shape := ⟨2, ![16384, 16]⟩
abbrev S16 : Shape := ⟨1, ![16]⟩
abbrev S4088 : Shape := ⟨1, ![4088]⟩
abbrev S_ : Shape := ⟨0, ![]⟩
abbrev S4088x1 : Shape := ⟨2, ![4088, 1]⟩
abbrev S1x16 : Shape := ⟨2, ![1, 16]⟩
abbrev S16384 : Shape := ⟨1, ![16384]⟩
abbrev S16384x1 : Shape := ⟨2, ![16384, 1]⟩

abbrev nBuf : Space → Nat
  | .hbm => 95
  | .vmem => 0
  | .smem => 0
  | _ => 0

abbrev bufTy : (tb : Table) → Fin (tcTables nBuf tb) → BufTy
  | .hbm, ⟨0, _⟩ => ⟨S16384x4088, .f32⟩
  | .hbm, ⟨1, _⟩ => ⟨S16384x511, .f32⟩
  | .hbm, ⟨2, _⟩ => ⟨S16384x16, .f32⟩
  | .hbm, ⟨3, _⟩ => ⟨S16, .f32⟩
  | .hbm, ⟨4, _⟩ => ⟨S4088, .i32⟩
  | .hbm, ⟨5, _⟩ => ⟨S4088, .i32⟩
  | .hbm, ⟨6, _⟩ => ⟨S_, .i32⟩
  | .hbm, ⟨7, _⟩ => ⟨S4088, .i32⟩
  | .hbm, ⟨8, _⟩ => ⟨S4088, .i1⟩
  | .hbm, ⟨9, _⟩ => ⟨S_, .i32⟩
  | .hbm, ⟨10, _⟩ => ⟨S4088, .i32⟩
  | .hbm, ⟨11, _⟩ => ⟨S4088, .i32⟩
  | .hbm, ⟨12, _⟩ => ⟨S4088, .i32⟩
  | .hbm, ⟨13, _⟩ => ⟨S4088x1, .i32⟩
  | .hbm, ⟨14, _⟩ => ⟨S16384x4088, .f32⟩
  | .hbm, ⟨15, _⟩ => ⟨S16384x4088, .f32⟩
  | .hbm, ⟨16, _⟩ => ⟨S_, .f32⟩
  | .hbm, ⟨17, _⟩ => ⟨S16384x16, .f32⟩
  | .hbm, ⟨18, _⟩ => ⟨S_, .i32⟩
  | .hbm, ⟨19, _⟩ => ⟨S4088, .i32⟩
  | .hbm, ⟨20, _⟩ => ⟨S4088, .i1⟩
  | .hbm, ⟨21, _⟩ => ⟨S_, .i32⟩
  | .hbm, ⟨22, _⟩ => ⟨S4088, .i32⟩
  | .hbm, ⟨23, _⟩ => ⟨S4088, .i32⟩
  | .hbm, ⟨24, _⟩ => ⟨S4088, .i32⟩
  | .hbm, ⟨25, _⟩ => ⟨S4088x1, .i32⟩
  | .hbm, ⟨26, _⟩ => ⟨S16384x16, .f32⟩
  | .hbm, ⟨27, _⟩ => ⟨S1x16, .f32⟩
  | .hbm, ⟨28, _⟩ => ⟨S_, .f32⟩
  | .hbm, ⟨29, _⟩ => ⟨S1x16, .f32⟩
  | .hbm, ⟨30, _⟩ => ⟨S1x16, .f32⟩
  | .hbm, ⟨31, _⟩ => ⟨S16384x16, .f32⟩
  | .hbm, ⟨32, _⟩ => ⟨S16384x16, .f32⟩
  | .hbm, ⟨33, _⟩ => ⟨S_, .i32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x16, .f32⟩
  | .hbm, ⟨41, _⟩ => ⟨S16384x16, .f32⟩
  | .hbm, ⟨42, _⟩ => ⟨S16384x16, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S16384, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S16384, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x16, .f32⟩
  | .hbm, ⟨73, _⟩ => ⟨S16384x16, .f32⟩
  | .hbm, ⟨74, _⟩ => ⟨S_, .f32⟩
  | .hbm, ⟨75, _⟩ => ⟨S16384, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S16384x16, .f32⟩
  | .hbm, ⟨81, _⟩ => ⟨S16384x16, .f32⟩
  | .hbm, ⟨82, _⟩ => ⟨S16384x16, .f32⟩
  | .hbm, ⟨83, _⟩ => ⟨S_, .f32⟩
  | .hbm, ⟨84, _⟩ => ⟨S16384, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S16384x4088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_cst_3 : Ref sig .tc := ⟨.hbm, 50, rfl⟩
abbrev main_call0_v12 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v21 : Ref sig .tc := ⟨.hbm, 55, rfl⟩
abbrev main_cst_5 : Ref sig .tc := ⟨.hbm, 56, rfl⟩
abbrev main_v22 : Ref sig .tc := ⟨.hbm, 57, rfl⟩
abbrev main_cst_6 : Ref sig .tc := ⟨.hbm, 58, rfl⟩
abbrev main_v23 : Ref sig .tc := ⟨.hbm, 59, rfl⟩
abbrev main_cst_7 : Ref sig .tc := ⟨.hbm, 60, rfl⟩
abbrev main_v24 : Ref sig .tc := ⟨.hbm, 61, rfl⟩
abbrev main_cst_8 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_cst_10 : Ref sig .tc := ⟨.hbm, 66, rfl⟩
abbrev main_v27 : Ref sig .tc := ⟨.hbm, 67, rfl⟩
abbrev main_v28 : Ref sig .tc := ⟨.hbm, 68, rfl⟩
abbrev main_cst_11 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_12 : Ref sig .tc := ⟨.hbm, 74, rfl⟩
abbrev main_v33 : Ref sig .tc := ⟨.hbm, 75, rfl⟩
abbrev main_v34 : Ref sig .tc := ⟨.hbm, 76, rfl⟩
abbrev main_cst_13 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_cst_15 : Ref sig .tc := ⟨.hbm, 85, rfl⟩
abbrev main_v41 : Ref sig .tc := ⟨.hbm, 86, rfl⟩
abbrev main_cst_16 : Ref sig .tc := ⟨.hbm, 87, rfl⟩
abbrev main_v42 : Ref sig .tc := ⟨.hbm, 88, rfl⟩
abbrev main_cst_17 : Ref sig .tc := ⟨.hbm, 89, rfl⟩
abbrev main_v43 : Ref sig .tc := ⟨.hbm, 90, rfl⟩
abbrev main_v44 : Ref sig .tc := ⟨.hbm, 91, rfl⟩
abbrev main_cst_18 : Ref sig .tc := ⟨.hbm, 92, rfl⟩
abbrev main_v45 : Ref sig .tc := ⟨.hbm, 93, rfl⟩
abbrev main_v46 : Ref sig .tc := ⟨.hbm, 94, rfl⟩

abbrev nD : Nat := 1
abbrev τ : Topo := Topo.v7x

variable {F : FTy → Type} [FloatOps F]

class Facts₀ : Prop where
  bcast_S_S4088 : S_.BroadcastsInDim S4088 (![] : Fin 0 → Fin S4088.rank)
  bcast_S4088_S4088x1_0 : S4088.BroadcastsInDim S4088x1 (![0] : Fin 1 → Fin S4088x1.rank)
  bcast_S_S16384x16 : S_.BroadcastsInDim S16384x16 (![] : Fin 0 → Fin S16384x16.rank)
  bcast_S16_S1x16_1 : S16.BroadcastsInDim S1x16 (![1] : Fin 1 → Fin S1x16.rank)
  bcast_S_S1x16 : S_.BroadcastsInDim S1x16 (![] : Fin 0 → Fin S1x16.rank)
  bcast_S1x16_S16384x16_0_1 : S1x16.BroadcastsInDim S16384x16 (![0, 1] : Fin 2 → Fin S16384x16.rank)
  reducesTo_S16384x16_S16384_d1 : S16384x16.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x16_0_1 : S16384x1.BroadcastsInDim S16384x16 (![0, 1] : Fin 2 → Fin S16384x16.rank)
  bcast_S_S16384 : S_.BroadcastsInDim S16384 (![] : Fin 0 → Fin S16384.rank)
  reducesTo_S16384_S_d0 : S16384.ReducesTo [0] S_
  gather_S16384x511_S4088x1_S16384x4088_0_1_n_n_1_1_163841_wf : GatherDims.WF S16384x511 S4088x1 S16384x4088 [0] [1] [] [1] [] 1 ![16384, 1]
  scatter_S16384x16_S4088x1_S16384x4088_0_1_1_1_wf : ScatterDims.WF S16384x16 S4088x1 S16384x4088 [0] [1] [1] 1

variable [Facts₀]

def gather_S16384x511_S4088x1_S16384x4088_0_1_n_n_1_1_163841 : GatherDims S16384x511 S4088x1 S16384x4088 where
  offsetDims := [0]
  collapsedSliceDims := [1]
  operandBatchingDims := []
  startIndicesBatchingDims := []
  startIndexMap := [1]
  indexVectorDim := 1
  sliceSizes := ![16384, 1]
  wf := gather_S16384x511_S4088x1_S16384x4088_0_1_n_n_1_1_163841_wf
def scatter_S16384x16_S4088x1_S16384x4088_0_1_1_1 : ScatterDims S16384x16 S4088x1 S16384x4088 where
  updateWindowDims := [0]
  insertedWindowDims := [1]
  scatterDimsToOperandDims := [1]
  indexVectorDim := 1
  wf := scatter_S16384x16_S4088x1_S16384x4088_0_1_1_1_wf

class Facts : Prop extends Facts₀ where

variable [Facts]
-- ==== Proof.Spec.lean ====
/-
  The common value of the two programs, over the extended reals.

  A batch of B = 16384 snapshots; T = 4088 tunnels, tunnel τ carrying the demand of destination `dst τ`
  (one of D = 511) scaled by its split ratio, and routed onto link `lnk τ` (one of L = 16).
  Row r's traffic on link l is  t r l = ∑ τ with lnk τ = l, pred r τ · dem r (dst τ);
  its utilisation  u r l = t r l / (cap l + ε).  Per row: the unbiased variance of u r over the
  16 links, the maximum of u r, and the congestion overlap
  ∑ l (t r l / (∑ t r + ε)) · (n r l / (∑ n r + ε)) with the neighbours' loads n.
  The result is  mean_r var + ½ · mean_r max + f32(0.3) · mean_r cong,  each mean a sum over the
  batch divided by 16384.  Float literals stay the words both programs print.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The literals the two programs share, as printed. -/
abbrev eps : EReal := Ideal.ofBits .f32 0x322BCC77#32
abbrev c16 : EReal := Ideal.ofBits .f32 0x41800000#32
abbrev c15 : EReal := Ideal.ofBits .f32 0x41700000#32
abbrev cB : EReal := Ideal.ofBits .f32 0x46800000#32
abbrev cHalf : EReal := Ideal.ofBits .f32 0x3F000000#32
abbrev c03 : EReal := Ideal.ofBits .f32 0x3E99999A#32
abbrev negInf : EReal := Ideal.ofBits .f32 0xFF800000#32

/-- Utilisation of a row of link traffic against the link capacities. -/
def util (t cap : Fin 16 → EReal) : Fin 16 → EReal := fun l => Ideal.div (t l) (cap l + eps)

/-- Unbiased variance of a row over its 16 links: squared deviations from the mean, summed, over 15. -/
def rowVar (u : Fin 16 → EReal) : EReal :=
  Ideal.div (∑ l : Fin 16, (u l - Ideal.div (∑ k : Fin 16, u k) c16) * (u l - Ideal.div (∑ k : Fin 16, u k) c16)) c15

/-- Maximum of a row over its 16 links, from −∞. -/
def rowMax (u : Fin 16 → EReal) : EReal := (Finset.univ : Finset (Fin 16)).fold max negInf u

/-- Overlap of a row's normalised traffic with its normalised neighbour loads. -/
def rowCong (t n : Fin 16 → EReal) : EReal :=
  ∑ l : Fin 16, Ideal.div (t l) ((∑ k : Fin 16, t k) + eps) * Ideal.div (n l) ((∑ k : Fin 16, n k) + eps)

/-- The final combination of the three batch totals. -/
def combine (sVar sMax sCong : EReal) : EReal :=
  Ideal.div sVar cB + cHalf * Ideal.div sMax cB + c03 * Ideal.div sCong cB

section Arrays

variable (pred : (⟨2, ![16384, 4088]⟩ : Shape).Idx → EReal) (dem : (⟨2, ![16384, 511]⟩ : Shape).Idx → EReal)
  (nl : (⟨2, ![16384, 16]⟩ : Shape).Idx → EReal) (cap : (⟨1, ![16]⟩ : Shape).Idx → EReal)
  (dst : Fin 4088 → Fin 511) (lnk : Fin 4088 → Fin 16)

/-- Row r's traffic on link l. -/
def traffic (r : Fin 16384) (l : Fin 16) : EReal :=
  ∑ τ : Fin 4088, if lnk τ = l then pred (ix2 r τ) * dem (ix2 r (dst τ)) else 0

def capRow : Fin 16 → EReal := fun l => cap (ix1 l)
def nlRow (r : Fin 16384) : Fin 16 → EReal := fun l => nl (ix2 r l)

def varAt (r : Fin 16384) : EReal := rowVar (util (traffic pred dem dst lnk r) (capRow cap))
def maxAt (r : Fin 16384) : EReal := rowMax (util (traffic pred dem dst lnk r) (capRow cap))
def congAt (r : Fin 16384) : EReal := rowCong (traffic pred dem dst lnk r) (nlRow nl r)

/-- The value both programs compute. -/
def G : EReal :=
  combine (∑ r : Fin 16384, varAt pred dem cap dst lnk r) (∑ r : Fin 16384, maxAt pred dem cap dst lnk r)
    (∑ r : Fin 16384, congAt pred dem nl dst lnk r)

end Arrays

/-- The batch, tiled as the kernel walks it: core q, tile s, row p of the tile ↦ row (32 q + s) · 256 + p. -/
def rowOf (q : Fin 2) (s : Fin 32) (p : Fin 256) : Fin 16384 :=
  ⟨(32 * q.val + s.val) * 256 + p.val, by have := q.isLt; have := s.isLt; have := p.isLt; omega⟩

end Cert.Spec

end
-- ==== Proof.KDefs.lean ====
/-
  The kernel side's vocabulary, at the ideal instance: the blocks a grid point stages, a block row's link traffic,
  the three per-point addends (the sums over the block's 256 rows of the row statistics), a core's three totals over
  its 32 points, the array of partial results the region leaves, and the scalar the host tail makes of it.
-/
import proofs.«409053_j76347338654269_3_alg».proof.Proof.Gen.KernelIdeal.Frame
import proofs.«409053_j76347338654269_3_alg».proof.Proof.Spec
import Idealize.ShloMosaic.Lib.Pipeline.Value
import Idealize.ShloMosaic.Lib.ValueIdx
import Idealize.ShloMosaic.PureOps.Ideal.Laws

noncomputable section

namespace Cert.KernelIdeal.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The blocks point `t` stages, at their literal types. -/
abbrev predBlk (c : Dev nD) (t : Fin cfg0.N) : Vec Ideal S256x4088 .f32 := iblk m c 0 t
abbrev demBlk (c : Dev nD) (t : Fin cfg0.N) : Vec Ideal S256x511 .f32 := iblk m c 1 t
abbrev nlBlk (c : Dev nD) (t : Fin cfg0.N) : Vec Ideal S256x16 .f32 := iblk m c 2 t
abbrev capBlk (c : Dev nD) (t : Fin cfg0.N) : Vec Ideal S1x16 .f32 := iblk m c 3 t
abbrev selBlk (c : Dev nD) (t : Fin cfg0.N) : Vec Ideal S511x4088 .bf16 := iblk m c 4 t
abbrev hotBlk (c : Dev nD) (t : Fin cfg0.N) : Vec Ideal S4088x16 .f32 := iblk m c 5 t

/-- Row `p` of a tile: its traffic on link `l`, as the two products compute it: the demands expanded through the
    selection matrix, scaled by the split ratios, contracted with the link one-hot. -/
def ltK (x0 : Vec Ideal S256x4088 .f32) (x1 : Vec Ideal S256x511 .f32) (x4 : Vec Ideal S511x4088 .bf16)
    (x5 : Vec Ideal S4088x16 .f32) (p : Fin 256) : Fin 16 → EReal :=
  fun l => ∑ τ : Fin 4088, (x0 (ix2 p τ) * ∑ d : Fin 511, x1 (ix2 p d) * x4 (ix2 d τ)) * x5 (ix2 τ l)

def capK (x3 : Vec Ideal S1x16 .f32) : Fin 16 → EReal := fun l => x3 (ix2 0 l)
def nlK (x2 : Vec Ideal S256x16 .f32) (p : Fin 256) : Fin 16 → EReal := fun l => x2 (ix2 p l)

/-- What one point adds to each of the three accumulators: the tile's 256 row statistics, summed. -/
def addVarB (x0 : Vec Ideal S256x4088 .f32) (x1 : Vec Ideal S256x511 .f32) (x3 : Vec Ideal S1x16 .f32)
    (x4 : Vec Ideal S511x4088 .bf16) (x5 : Vec Ideal S4088x16 .f32) : EReal :=
  ∑ p : Fin 256, Cert.Spec.rowVar (Cert.Spec.util (ltK x0 x1 x4 x5 p) (capK x3))
def addMaxB (x0 : Vec Ideal S256x4088 .f32) (x1 : Vec Ideal S256x511 .f32) (x3 : Vec Ideal S1x16 .f32)
    (x4 : Vec Ideal S511x4088 .bf16) (x5 : Vec Ideal S4088x16 .f32) : EReal :=
  ∑ p : Fin 256, Cert.Spec.rowMax (Cert.Spec.util (ltK x0 x1 x4 x5 p) (capK x3))
def addCongB (x0 : Vec Ideal S256x4088 .f32) (x1 : Vec Ideal S256x511 .f32) (x2 : Vec Ideal S256x16 .f32)
    (x4 : Vec Ideal S511x4088 .bf16) (x5 : Vec Ideal S4088x16 .f32) : EReal :=
  ∑ p : Fin 256, Cert.Spec.rowCong (ltK x0 x1 x4 x5 p) (nlK x2 p)

/-- The same at grid position `n` (zero past the grid: never used there). -/
def addVar (c : Dev nD) (n : ℕ) : EReal :=
  if h : n < cfg0.N then addVarB (predBlk m c ⟨n, h⟩) (demBlk m c ⟨n, h⟩) (capBlk m c ⟨n, h⟩) (selBlk m c ⟨n, h⟩) (hotBlk m c ⟨n, h⟩) else 0
def addMax (c : Dev nD) (n : ℕ) : EReal :=
  if h : n < cfg0.N then addMaxB (predBlk m c ⟨n, h⟩) (demBlk m c ⟨n, h⟩) (capBlk m c ⟨n, h⟩) (selBlk m c ⟨n, h⟩) (hotBlk m c ⟨n, h⟩) else 0
def addCong (c : Dev nD) (n : ℕ) : EReal :=
  if h : n < cfg0.N then addCongB (predBlk m c ⟨n, h⟩) (demBlk m c ⟨n, h⟩) (nlBlk m c ⟨n, h⟩) (selBlk m c ⟨n, h⟩) (hotBlk m c ⟨n, h⟩) else 0

/-- Core `q`'s totals: its 32 points' addends. -/
def totVar (c : Dev nD) (q : Fin 2) : EReal := ∑ s ∈ Finset.range 32, addVar m c (32 * q.val + s)
def totMax (c : Dev nD) (q : Fin 2) : EReal := ∑ s ∈ Finset.range 32, addMax m c (32 * q.val + s)
def totCong (c : Dev nD) (q : Fin 2) : EReal := ∑ s ∈ Finset.range 32, addCong m c (32 * q.val + s)

/-- The [2, 1, 128] array the region leaves: core `q`'s totals in lanes 0, 1, 2 of row `q`, zero elsewhere. -/
def outFn (c : Dev nD) : S2x1x128.Idx → EReal := fun i =>
  if (i 2).val = 0 then totVar m c (i 0) else if (i 2).val = 1 then totMax m c (i 0)
  else if (i 2).val = 2 then totCong m c (i 0) else 0
def outArr (c : Dev nD) : Buf (Elt Ideal) ((c : Thread nD τ).loc main_v15) := outFn m c

/-- The scalar the host tail makes of it. -/
def kresFn (c : Dev nD) : S_.Idx → EReal := fun _ =>
  Cert.Spec.combine (totVar m c 0 + totVar m c 1) (totMax m c 0 + totMax m c 1) (totCong m c 0 + totCong m c 1)
def kres (c : Dev nD) : Buf (Elt Ideal) ((c : Thread nD τ).loc main_v31) := kresFn m c

end Cert.KernelIdeal.KValue

end
-- ==== Proof.KRow.lean ====
/-
  The kernel's row arithmetic read at an index, over the extended reals. The two products of a tile are the sums
  t p l = ∑ τ, (ratio p τ · ∑ d, demand p d · sel d τ) · hot τ l; the utilisation is t p l / (cap l + ε); a row's variance,
  maximum and congestion-overlap payloads are the common value's rowVar, rowMax and rowCong of that row, and the
  congestion accumulator's store is its old content plus the sum of the tile's 256 overlaps.
-/
import proofs.«409053_j76347338654269_3_alg».proof.Proof.KDefs
import Idealize.ShloMosaic.Lib.ValueLayout

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

/-! ## The keepdims column forms read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two products read at an index -/

theorem lhs_dotA_0 (i : S256x4088.Idx) (q : dot_S256x511_S511x4088_S256x4088_1_0_0_1_n_n.contr.Idx) :
    (dot_S256x511_S511x4088_S256x4088_1_0_0_1_n_n.lhsIdx i q 0).val = (i 0).val := by
  unfold DotDims.lhsIdx
  rw [dif_neg (show ¬(0 : Fin S256x511.rank) ∈ dot_S256x511_S511x4088_S256x4088_1_0_0_1_n_n.lhsBatch by decide), dif_pos (show (0 : Fin S256x511.rank) ∈ dot_S256x511_S511x4088_S256x4088_1_0_0_1_n_n.lhsNonContracting by decide)]
  rfl
theorem lhs_dotA_1 (i : S256x4088.Idx) (q : dot_S256x511_S511x4088_S256x4088_1_0_0_1_n_n.contr.Idx) :
    (dot_S256x511_S511x4088_S256x4088_1_0_0_1_n_n.lhsIdx i q 1).val = (q ⟨0, by decide⟩).val :=
  dot_S256x511_S511x4088_S256x4088_1_0_0_1_n_n.lhsIdx_val_of_single rfl i q
theorem rhs_dotA_0 (i : S256x4088.Idx) (q : dot_S256x511_S511x4088_S256x4088_1_0_0_1_n_n.contr.Idx) :
    (dot_S256x511_S511x4088_S256x4088_1_0_0_1_n_n.rhsIdx i q 0).val = (q ⟨0, by decide⟩).val :=
  dot_S256x511_S511x4088_S256x4088_1_0_0_1_n_n.rhsIdx_val_of_single rfl i q
theorem rhs_dotA_1 (i : S256x4088.Idx) (q : dot_S256x511_S511x4088_S256x4088_1_0_0_1_n_n.contr.Idx) :
    (dot_S256x511_S511x4088_S256x4088_1_0_0_1_n_n.rhsIdx i q 1).val = (i 1).val := by
  unfold DotDims.rhsIdx
  rw [dif_neg (show ¬(1 : Fin S511x4088.rank) ∈ dot_S256x511_S511x4088_S256x4088_1_0_0_1_n_n.rhsBatch by decide), dif_pos (show (1 : Fin S511x4088.rank) ∈ dot_S256x511_S511x4088_S256x4088_1_0_0_1_n_n.rhsNonContracting by decide)]
  rfl

/-- The first product at row `p`, tunnel `τ`: the sum over the 511 destinations. -/
theorem matmulA_apply (l : FVec Ideal S256x511 .bf16) (r : FVec Ideal S511x4088 .bf16) (p : Fin 256) (τ : Fin 4088) :
    matmul dot_S256x511_S511x4088_S256x4088_1_0_0_1_n_n none l r (constant (F := Ideal) S256x4088 .f32 0x00000000#32) (ix2 p τ)
      = ∑ d : Fin 511, l (ix2 p d) * r (ix2 d τ) := by
  simp only [matmul]
  rw [Ideal.matmul_constant_zero_apply, ← Equiv.sum_comp (contrEquiv1 dot_S256x511_S511x4088_S256x4088_1_0_0_1_n_n 511 rfl rfl).symm]
  refine Finset.sum_congr rfl fun k _ => ?_
  have hk := contrEquiv1_symm_val dot_S256x511_S511x4088_S256x4088_1_0_0_1_n_n 511 rfl rfl k
  have el : dot_S256x511_S511x4088_S256x4088_1_0_0_1_n_n.lhsIdx (ix2 p τ) ((contrEquiv1 dot_S256x511_S511x4088_S256x4088_1_0_0_1_n_n 511 rfl rfl).symm k) = ix2 p k := funext fun a => Fin.ext (by
    match a with
    | ⟨0, _⟩ => exact lhs_dotA_0 _ _
    | ⟨1, _⟩ => exact (lhs_dotA_1 _ _).trans hk)
  have er : dot_S256x511_S511x4088_S256x4088_1_0_0_1_n_n.rhsIdx (ix2 p τ) ((contrEquiv1 dot_S256x511_S511x4088_S256x4088_1_0_0_1_n_n 511 rfl rfl).symm k) = ix2 k τ := funext fun a => Fin.ext (by
    match a with
    | ⟨0, _⟩ => exact (rhs_dotA_0 _ _).trans hk
    | ⟨1, _⟩ => exact rhs_dotA_1 _ _)
  rw [el, er]

theorem lhs_dotB_0 (i : S256x16.Idx) (q : dot_S256x4088_S4088x16_S256x16_1_0_0_1_n_n.contr.Idx) :
    (dot_S256x4088_S4088x16_S256x16_1_0_0_1_n_n.lhsIdx i q 0).val = (i 0).val := by
  unfold DotDims.lhsIdx
  rw [dif_neg (show ¬(0 : Fin S256x4088.rank) ∈ dot_S256x4088_S4088x16_S256x16_1_0_0_1_n_n.lhsBatch by decide), dif_pos (show (0 : Fin S256x4088.rank) ∈ dot_S256x4088_S4088x16_S256x16_1_0_0_1_n_n.lhsNonContracting by decide)]
  rfl
theorem lhs_dotB_1 (i : S256x16.Idx) (q : dot_S256x4088_S4088x16_S256x16_1_0_0_1_n_n.contr.Idx) :
    (dot_S256x4088_S4088x16_S256x16_1_0_0_1_n_n.lhsIdx i q 1).val = (q ⟨0, by decide⟩).val :=
  dot_S256x4088_S4088x16_S256x16_1_0_0_1_n_n.lhsIdx_val_of_single rfl i q
theorem rhs_dotB_0 (i : S256x16.Idx) (q : dot_S256x4088_S4088x16_S256x16_1_0_0_1_n_n.contr.Idx) :
    (dot_S256x4088_S4088x16_S256x16_1_0_0_1_n_n.rhsIdx i q 0).val = (q ⟨0, by decide⟩).val :=
  dot_S256x4088_S4088x16_S256x16_1_0_0_1_n_n.rhsIdx_val_of_single rfl i q
theorem rhs_dotB_1 (i : S256x16.Idx) (q : dot_S256x4088_S4088x16_S256x16_1_0_0_1_n_n.contr.Idx) :
    (dot_S256x4088_S4088x16_S256x16_1_0_0_1_n_n.rhsIdx i q 1).val = (i 1).val := by
  unfold DotDims.rhsIdx
  rw [dif_neg (show ¬(1 : Fin S4088x16.rank) ∈ dot_S256x4088_S4088x16_S256x16_1_0_0_1_n_n.rhsBatch by decide), dif_pos (show (1 : Fin S4088x16.rank) ∈ dot_S256x4088_S4088x16_S256x16_1_0_0_1_n_n.rhsNonContracting by decide)]
  rfl

/-- The second product at row `p`, link `l`: the sum over the 4088 tunnels. -/
theorem matmulB_apply (a : FVec Ideal S256x4088 .f32) (b : FVec Ideal S4088x16 .f32) (p : Fin 256) (l : Fin 16) :
    matmul dot_S256x4088_S4088x16_S256x16_1_0_0_1_n_n none a b (constant (F := Ideal) S256x16 .f32 0x00000000#32) (ix2 p l)
      = ∑ τ : Fin 4088, a (ix2 p τ) * b (ix2 τ l) := by
  simp only [matmul]
  rw [Ideal.matmul_constant_zero_apply, ← Equiv.sum_comp (contrEquiv1 dot_S256x4088_S4088x16_S256x16_1_0_0_1_n_n 4088 rfl rfl).symm]
  refine Finset.sum_congr rfl fun k _ => ?_
  have hk := contrEquiv1_symm_val dot_S256x4088_S4088x16_S256x16_1_0_0_1_n_n 4088 rfl rfl k
  have el : dot_S256x4088_S4088x16_S256x16_1_0_0_1_n_n.lhsIdx (ix2 p l) ((contrEquiv1 dot_S256x4088_S4088x16_S256x16_1_0_0_1_n_n 4088 rfl rfl).symm k) = ix2 p k := funext fun a => Fin.ext (by
    match a with
    | ⟨0, _⟩ => exact lhs_dotB_0 _ _
    | ⟨1, _⟩ => exact (lhs_dotB_1 _ _).trans hk)
  have er : dot_S256x4088_S4088x16_S256x16_1_0_0_1_n_n.rhsIdx (ix2 p l) ((contrEquiv1 dot_S256x4088_S4088x16_S256x16_1_0_0_1_n_n 4088 rfl rfl).symm k) = ix2 k l := funext fun a => Fin.ext (by
    match a with
    | ⟨0, _⟩ => exact (rhs_dotB_0 _ _).trans hk
    | ⟨1, _⟩ => exact rhs_dotB_1 _ _)
  rw [el, er]

/-- The second product at row p, link l: the row's traffic. -/
theorem pay5_apply (x1 : Vec Ideal S256x511 .f32) (x4 : Vec Ideal S511x4088 .bf16) (x0 : Vec Ideal S256x4088 .f32) (x5 : Vec Ideal S4088x16 .f32) (p : Fin 256) (l : Fin 16) :
    k0_pay5 (F := Ideal) x1 x4 x0 x5 (ix2 p l) = ltK x0 x1 x4 x5 p l := by
  unfold k0_pay5 ltK
  refine (matmulB_apply _ _ p l).trans ?_
  refine Finset.sum_congr rfl fun τ _ => ?_
  rw [shapeCast_self, shapeCast_self, mulf_apply]
  refine congrArg (fun z => x0 (ix2 p τ) * z * x5 (ix2 τ l)) ?_
  exact matmulA_apply _ _ p τ

/-- The utilisation at row p, link l. -/
theorem pay6_apply (x1 : Vec Ideal S256x511 .f32) (x4 : Vec Ideal S511x4088 .bf16) (x0 : Vec Ideal S256x4088 .f32) (x5 : Vec Ideal S4088x16 .f32) (x3 : Vec Ideal S1x16 .f32) (p : Fin 256) (l : Fin 16) :
    k0_pay6 (F := Ideal) x1 x4 x0 x5 x3 (ix2 p l) = Cert.Spec.util (ltK x0 x1 x4 x5 p) (capK x3) l := by
  unfold k0_pay6 Cert.Spec.util capK
  rw [divf_apply, pay5_apply, broadcastTo_1b_ab_apply, addf_apply, shapeCast_self]
  rfl

/-! ## The reductions read at an index -/

/-- Over row `p` of a `[256, 16]` block, the index with lane `l` inserted is `(p, l)`. -/
theorem lift_row (h : S256x16.Reduces [1] S256) (p : Fin 256) (l : Fin 16) : h.lift (ix1 p) l = ix2 p l :=
  funext fun c => Fin.ext (by match c with | ⟨0, _⟩ => rfl | ⟨1, _⟩ => rfl)

/-- Over the one column `u` of a `[256, 1]` block, the index with row `p` inserted is `(p, u)`. -/
theorem lift_col (h : S256x1.Reduces [0] S1) (u : Fin 1) (p : Fin 256) : h.lift (ix1 u) p = ix2 p u :=
  funext fun c => Fin.ext (by match c with | ⟨0, _⟩ => rfl | ⟨1, _⟩ => rfl)

/-- A lane sum of a `[256, 16]` block at row `p`: the sum over the 16 lanes. -/
theorem laneSum_apply (src : FVec Ideal S256x16 .f32) (h : S256x16.Reduces [1] S256) (hφ : FKind.Formats .f32)
    (hacc : (0x00000000#32 : BitVec 32) = FKind.add.neutral .f32 hφ) (p : Fin 256) :
    multiReduction (F := Ideal) .add [1] S256 src 0x00000000#32 h hφ hacc (ix1 p) = ∑ l : Fin 16, src (ix2 p l) :=
  (Ideal.multiReduction_add_single src _ h hφ hacc (ix1 p)).trans
    (Finset.sum_congr rfl fun l _ => congrArg src (lift_row h p l))

/-- A lane maximum of a `[256, 16]` block at row `p`: the fold of `max` from −∞ over the 16 lanes. -/
theorem laneMax_apply (src : FVec Ideal S256x16 .f32) (h : S256x16.Reduces [1] S256) (hφ : FKind.Formats .f32)
    (hacc : (0xFF800000#32 : BitVec 32) = FKind.maximumf.neutral .f32 hφ) (p : Fin 256) :
    multiReduction (F := Ideal) .maximumf [1] S256 src 0xFF800000#32 h hφ hacc (ix1 p)
      = (Finset.univ : Finset (Fin 16)).fold max Cert.Spec.negInf (fun l => src (ix2 p l)) :=
  (Ideal.multiReduction_maximumf_single src _ h hφ hacc (ix1 p)).trans
    (congrArg (fun f => (Finset.univ : Finset (Fin 16)).fold max Cert.Spec.negInf f) (funext fun l => congrArg src (lift_row h p l)))

/-- A column sum of a `[256, 1]` block: the sum over the 256 rows. -/
theorem colSum_apply (src : FVec Ideal S256x1 .f32) (h : S256x1.Reduces [0] S1) (hφ : FKind.Formats .f32)
    (hacc : (0x00000000#32 : BitVec 32) = FKind.add.neutral .f32 hφ) (u : Fin 1) :
    multiReduction (F := Ideal) .add [0] S1 src 0x00000000#32 h hφ hacc (ix1 u) = ∑ p : Fin 256, src (ix2 p u) :=
  (Ideal.multiReduction_add_single src _ h hφ hacc (ix1 u)).trans
    (Finset.sum_congr rfl fun p _ => congrArg src (lift_col h u p))

/-- Row p's variance payload. -/
theorem pay7_apply (x1 : Vec Ideal S256x511 .f32) (x4 : Vec Ideal S511x4088 .bf16) (x0 : Vec Ideal S256x4088 .f32) (x5 : Vec Ideal S4088x16 .f32) (x3 : Vec Ideal S1x16 .f32) (p : Fin 256) :
    k0_pay7 (F := Ideal) x1 x4 x0 x5 x3 (ix2 p 0) = Cert.Spec.rowVar (Cert.Spec.util (ltK x0 x1 x4 x5 p) (capK x3)) := by
  have hs : ∀ (h : S256x16.Reduces [1] S256) (hφ : FKind.Formats .f32) (hacc : (0x00000000#32 : BitVec 32) = 0x00000000#32),
      multiReduction (F := Ideal) .add [1] S256 (k0_pay6 (F := Ideal) x1 x4 x0 x5 x3) 0x00000000#32 h hφ hacc (ix1 p)
        = ∑ k : Fin 16, Cert.Spec.util (ltK x0 x1 x4 x5 p) (capK x3) k := fun h hφ hacc =>
    (laneSum_apply _ h hφ hacc p).trans (Finset.sum_congr rfl fun k _ => pay6_apply x1 x4 x0 x5 x3 p k)
  unfold k0_pay7 Cert.Spec.rowVar
  rw [divf_apply, shapeCast_a_a1_apply]
  refine congrArg (fun z => Ideal.div z Cert.Spec.c15) ?_
  refine (laneSum_apply _ _ _ _ p).trans ?_
  refine Finset.sum_congr rfl fun l _ => ?_
  rw [mulf_apply, subf_apply, pay6_apply, broadcastTo_a1_ab_apply, divf_apply, shapeCast_a_a1_apply, hs]
  rfl

/-- Row p's maximum payload. -/
theorem pay8_apply (x1 : Vec Ideal S256x511 .f32) (x4 : Vec Ideal S511x4088 .bf16) (x0 : Vec Ideal S256x4088 .f32) (x5 : Vec Ideal S4088x16 .f32) (x3 : Vec Ideal S1x16 .f32) (p : Fin 256) :
    k0_pay8 (F := Ideal) x1 x4 x0 x5 x3 (ix2 p 0) = Cert.Spec.rowMax (Cert.Spec.util (ltK x0 x1 x4 x5 p) (capK x3)) := by
  unfold k0_pay8 Cert.Spec.rowMax
  rw [shapeCast_a_a1_apply]
  refine (laneMax_apply _ _ _ _ p).trans ?_
  exact congrArg (fun f => (Finset.univ : Finset (Fin 16)).fold max Cert.Spec.negInf f) (funext fun l => pay6_apply x1 x4 x0 x5 x3 p l)

/-- The row sums of the traffic: the lane sum of the second product at row p. -/
theorem pay9_apply (x1 : Vec Ideal S256x511 .f32) (x4 : Vec Ideal S511x4088 .bf16) (x0 : Vec Ideal S256x4088 .f32) (x5 : Vec Ideal S4088x16 .f32) (p : Fin 256) :
    k0_pay9 (F := Ideal) x1 x4 x0 x5 (ix1 p) = ∑ l : Fin 16, ltK x0 x1 x4 x5 p l := by
  unfold k0_pay9
  exact (laneSum_apply _ _ _ _ p).trans (Finset.sum_congr rfl fun l _ => pay5_apply x1 x4 x0 x5 p l)

/-- The congestion accumulator's store: what was there plus the tile's 256 overlaps. -/
theorem pay12_apply (x1 : Vec Ideal S256x511 .f32) (x4 : Vec Ideal S511x4088 .bf16) (x0 : Vec Ideal S256x4088 .f32) (x5 : Vec Ideal S4088x16 .f32) (x2 : Vec Ideal S256x16 .f32) (v62 : Vec Ideal S1x1 .f32) :
    k0_pay12 (F := Ideal) (k0_pay5 x1 x4 x0 x5) x2 (k0_pay9 x1 x4 x0 x5) v62 (ix2 0 0)
      = v62 (ix2 0 0) + addCongB x0 x1 x2 x4 x5 := by
  have hn : ∀ (p : Fin 256) (h : S256x16.Reduces [1] S256) (hφ : FKind.Formats .f32) (hacc : (0x00000000#32 : BitVec 32) = 0x00000000#32),
      multiReduction (F := Ideal) .add [1] S256 x2 0x00000000#32 h hφ hacc (ix1 p) = ∑ k : Fin 16, nlK x2 p k :=
    fun p h hφ hacc => laneSum_apply x2 h hφ hacc p
  unfold k0_pay12 addCongB
  rw [shapeCast_self, addf_apply, shapeCast_a_1a_apply]
  refine congrArg (fun z => v62 (ix2 0 0) + z) ?_
  refine (colSum_apply _ _ _ _ 0).trans ?_
  refine Finset.sum_congr rfl fun p _ => ?_
  rw [shapeCast_a_a1_apply]
  unfold Cert.Spec.rowCong
  refine (laneSum_apply _ _ _ _ p).trans ?_
  refine Finset.sum_congr rfl fun l _ => ?_
  rw [mulf_apply, divf_apply, divf_apply, broadcastTo_a1_ab_apply, broadcastTo_a1_ab_apply, addf_apply, addf_apply,
    shapeCast_a_a1_apply, shapeCast_a_a1_apply, pay5_apply, pay9_apply, hn]
  rfl

end Cert.KernelIdeal.KValue

end
-- ==== Proof.KAcc.lean ====
/-
  The accumulator stores and the output row of the kernel body, read at an index over the extended reals.
  The three reset stores spread the zero word, which denotes 0; an accumulating store holds the old entry plus the
  sum of a 256-entry column; the output row holds the three accumulators in lanes 0, 1, 2 and 0 in every other lane.
-/
import proofs.«409053_j76347338654269_3_alg».proof.Proof.KDefs

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

/-- The zero word spread over a [1,1] block through an identity cast reads 0. -/
theorem pay2_apply : k0_pay2 (F := Ideal) (ix2 0 0) = 0 := by
  unfold k0_pay2
  simp only [shapeCast_self, broadcast_apply]
  exact Ideal.ofBits_zero_f32
theorem pay3_apply : k0_pay3 (F := Ideal) (ix2 0 0) = 0 := by
  unfold k0_pay3
  simp only [shapeCast_self, broadcast_apply]
  exact Ideal.ofBits_zero_f32
theorem pay4_apply : k0_pay4 (F := Ideal) (ix2 0 0) = 0 := by
  unfold k0_pay4
  simp only [shapeCast_self, broadcast_apply]
  exact Ideal.ofBits_zero_f32

/-- The sum over the rows of a [256,1] column, viewed as a [1,1] block, is the sum of the column's 256 entries:
    the one-entry result keeps its row-major position under the cast, and the row inserted at position p is (p, 0). -/
private theorem colSum_apply (v : FVec Ideal S256x1 .f32) (hφ : FKind.Formats .f32)
    (hacc : (0x00000000#32 : BitVec 32) = FKind.add.neutral .f32 hφ) :
    shapeCast S1x1 (multiReduction (F := Ideal) .add [0] S1 v 0x00000000#32 reduces_S256x1_S1 hφ hacc)
      shapeCasts_S1_S1x1 (ix2 0 0) = ∑ p : Fin 256, v (ix2 p 0) := by
  refine (shapeCast_apply _ _ (ix2 0 0) (ix1 0) rfl).trans ?_
  refine (Ideal.multiReduction_add_single v _ _ _ _ (ix1 0)).trans ?_
  refine Finset.sum_congr rfl fun p _ => congrArg v ?_
  funext a
  match a with
  | ⟨0, _⟩ => exact Fin.ext rfl
  | ⟨1, _⟩ => exact Fin.ext rfl

/-- An accumulator's store: what was there plus the sum of the column's 256 entries. -/
theorem pay10_apply (v30 : FVec Ideal S256x1 .f32) (v48 : Vec Ideal S1x1 .f32) :
    k0_pay10 (F := Ideal) v30 v48 (ix2 0 0) = v48 (ix2 0 0) + ∑ p : Fin 256, v30 (ix2 p 0) := by
  unfold k0_pay10
  simp only [shapeCast_self, addf_apply]
  exact congrArg (v48 (ix2 0 0) + ·) (colSum_apply v30 _ _)
theorem pay11_apply (v32 : FVec Ideal S256x1 .f32) (v55 : Vec Ideal S1x1 .f32) :
    k0_pay11 (F := Ideal) v32 v55 (ix2 0 0) = v55 (ix2 0 0) + ∑ p : Fin 256, v32 (ix2 p 0) := by
  unfold k0_pay11
  simp only [shapeCast_self, addf_apply]
  exact congrArg (v55 (ix2 0 0) + ·) (colSum_apply v32 _ _)

/-- Comparing two 32-bit words of small naturals for equality compares the naturals. -/
private theorem cmpi_eq_ofNat (n c : Nat) (hn : n < 2 ^ 32) (hc : c < 2 ^ 32) :
    IntOp.cmpi .eq (BitVec.ofNat 32 n) (BitVec.ofNat 32 c) = if n = c then 1#1 else 0#1 := by
  by_cases h : n = c
  · subst h; rw [if_pos rfl]; simp [IntOp.cmpi]
  · rw [if_neg h]
    have hne : BitVec.ofNat 32 n ≠ BitVec.ofNat 32 c := by
      intro he
      have := congrArg BitVec.toNat he
      rw [BitVec.toNat_ofNat, BitVec.toNat_ofNat, Nat.mod_eq_of_lt hn, Nat.mod_eq_of_lt hc] at this
      exact h this
    have hb : (BitVec.ofNat 32 n == BitVec.ofNat 32 c) = false := beq_eq_false_iff_ne.mpr hne
    show BitVec.ofBool (BitVec.ofNat 32 n == BitVec.ofNat 32 c) = 0#1
    rw [hb]; rfl

/-- A select on a decided bit is the `if`. -/
private theorem select_ite {α : Type} (p : Prop) [Decidable p] (a b : α) :
    Scalar.select (if p then 1#1 else 0#1) a b = if p then a else b := by
  by_cases h : p
  · rw [if_pos h, if_pos h]; exact select_one a b
  · rw [if_neg h, if_neg h]; exact select_zero a b

/-- The one entry of a [1,1] block, extracted at position (0, 0). -/
private theorem extract00 (v : Vec Ideal S1x1 .f32) (h : ∀ a, (![0, 0] : Fin S1x1.rank → Nat) a < S1x1.size a) :
    extractAt ![0, 0] v h = v (ix2 0 0) := by
  unfold extractAt
  refine congrArg v ?_
  funext a
  match a with
  | ⟨0, _⟩ => exact Fin.ext rfl
  | ⟨1, _⟩ => exact Fin.ext rfl

/-- A [1,128] row viewed as a [1,1,128] block reads lane k of the row at (0, 0, k). -/
private theorem laneCast_apply {α : Type} (v : S1x128.Idx → α) (h : S1x128.ShapeCasts S1x1x128) (k : Fin 128) :
    shapeCast S1x1x128 v h (ix3 0 0 k) = v (ix2 0 k) := by
  refine (shapeCast_addUnit_apply ![1, 128] v h (ix3 0 0 k)).trans (congrArg v ?_)
  funext a
  match a with
  | ⟨0, _⟩ => rfl
  | ⟨1, _⟩ => rfl

/-- The output row: the three accumulators in lanes 0, 1, 2, zero elsewhere. -/
theorem pay1_apply (v75 v82 v88 : Vec Ideal S1x1 .f32) (k : Fin 128) :
    k0_pay1 (F := Ideal) v75 v82 v88 (ix3 0 0 k)
      = if k.val = 0 then v75 (ix2 0 0) else if k.val = 1 then v82 (ix2 0 0) else if k.val = 2 then v88 (ix2 0 0) else 0 := by
  have hk := k.isLt
  have hi : iota .tc S1x128 32 [1] iota_S1x128_d1_w32 (ix2 0 k) = BitVec.ofNat 32 k.val :=
    iota_single_apply .tc S1x128 32 1 _ (ix2 0 k)
  have h0 := cmpi_eq_ofNat k.val 0 (by omega) (by norm_num)
  have h1 := cmpi_eq_ofNat k.val 1 (by omega) (by norm_num)
  have h2 := cmpi_eq_ofNat k.val 2 (by omega) (by norm_num)
  unfold k0_pay1
  refine (laneCast_apply _ _ k).trans ?_
  show Scalar.select (IntOp.cmpi .eq (iota .tc S1x128 32 [1] iota_S1x128_d1_w32 (ix2 0 k)) (BitVec.ofNat 32 2))
        (extractAt ![0, 0] v88 inpos_S1x1_p0_0)
        (Scalar.select (IntOp.cmpi .eq (iota .tc S1x128 32 [1] iota_S1x128_d1_w32 (ix2 0 k)) (BitVec.ofNat 32 1))
          (extractAt ![0, 0] v82 inpos_S1x1_p0_0)
          (Scalar.select (IntOp.cmpi .eq (iota .tc S1x128 32 [1] iota_S1x128_d1_w32 (ix2 0 k)) (BitVec.ofNat 32 0))
            (extractAt ![0, 0] v75 inpos_S1x1_p0_0) (Ideal.ofBits .f32 0x00000000#32))) = _
  rw [hi, h0, h1, h2, select_ite, select_ite, select_ite, extract00, extract00, extract00, Ideal.ofBits_zero_f32]
  split_ifs <;> first | rfl | omega

end Cert.KernelIdeal.KValue

end
-- ==== Proof.KFold.lean ====
/-
  What each control case of the grid body leaves in the three carried accumulators and in the output row, and the fold
  over a core's 32 points: after point 32 q + s accumulator j holds the sum of the addends of points 32 q … 32 q + s,
  and at a core's last point the output row holds the core's three totals in lanes 0, 1, 2 and zero elsewhere.
-/
import proofs.«409053_j76347338654269_3_alg».proof.Proof.KDefs
import proofs.«409053_j76347338654269_3_alg».proof.Proof.KRow
import proofs.«409053_j76347338654269_3_alg».proof.Proof.KAcc

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

namespace Fold

/-! ## The pieces the three cases leave, at any float values

At a middle point (case B) and at a core's last point (case C) each accumulator ends with one covering store: what the
point before left plus the tile's sum. At a core's first point (case A) the reset store comes first and the same update
reads the reset value back. Case C's output row is the three accumulators as that point has just stored them. -/

section Pieces
variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

theorem sout_B_0 (c : Dev nD) (i : grid0.Coords) (arg2 : Memref sig .tc .vmem S256x4088 .f32) (harg2 : arg2.IsWhole) (arg3 : Memref sig .tc .vmem S256x511 .f32) (harg3 : arg3.IsWhole) (arg4 : Memref sig .tc .vmem S256x16 .f32) (harg4 : arg4.IsWhole) (arg5 : Memref sig .tc .vmem S1x16 .f32) (harg5 : arg5.IsWhole) (arg6 : Memref sig .tc .vmem S511x4088 .bf16) (harg6 : arg6.IsWhole) (arg7 : Memref sig .tc .vmem S4088x16 .f32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S256x4088 .f32) (x1 : Vec F S256x511 .f32) (x2 : Vec F S256x16 .f32) (x3 : Vec F S1x16 .f32) (x4 : Vec F S511x4088 .bf16) (x5 : Vec F S4088x16 .f32) (xs0 : Vec F S1x1 .f32) (xs1 : Vec F S1x1 .f32) (xs2 : Vec F S1x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay10 (k0_pay7 x1 x4 x0 x5 x3) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz, View.ld_unit_zero (S := S256x4088) hz, View.ld_unit_zero (S := S256x511) hz, View.ld_unit_zero (S := S256x16) hz, View.ld_unit_zero (S := S1x16) hz, View.ld_unit_zero (S := S511x4088) hz, View.ld_unit_zero (S := S4088x16) hz, shapeCast_self]

theorem sout_B_1 (c : Dev nD) (i : grid0.Coords) (arg2 : Memref sig .tc .vmem S256x4088 .f32) (harg2 : arg2.IsWhole) (arg3 : Memref sig .tc .vmem S256x511 .f32) (harg3 : arg3.IsWhole) (arg4 : Memref sig .tc .vmem S256x16 .f32) (harg4 : arg4.IsWhole) (arg5 : Memref sig .tc .vmem S1x16 .f32) (harg5 : arg5.IsWhole) (arg6 : Memref sig .tc .vmem S511x4088 .bf16) (harg6 : arg6.IsWhole) (arg7 : Memref sig .tc .vmem S4088x16 .f32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S256x4088 .f32) (x1 : Vec F S256x511 .f32) (x2 : Vec F S256x16 .f32) (x3 : Vec F S1x16 .f32) (x4 : Vec F S511x4088 .bf16) (x5 : Vec F S4088x16 .f32) (xs0 : Vec F S1x1 .f32) (xs1 : Vec F S1x1 .f32) (xs2 : Vec F S1x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay11 (k0_pay8 x1 x4 x0 x5 x3) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz, View.ld_unit_zero (S := S256x4088) hz, View.ld_unit_zero (S := S256x511) hz, View.ld_unit_zero (S := S256x16) hz, View.ld_unit_zero (S := S1x16) hz, View.ld_unit_zero (S := S511x4088) hz, View.ld_unit_zero (S := S4088x16) hz, shapeCast_self]

theorem sout_B_2 (c : Dev nD) (i : grid0.Coords) (arg2 : Memref sig .tc .vmem S256x4088 .f32) (harg2 : arg2.IsWhole) (arg3 : Memref sig .tc .vmem S256x511 .f32) (harg3 : arg3.IsWhole) (arg4 : Memref sig .tc .vmem S256x16 .f32) (harg4 : arg4.IsWhole) (arg5 : Memref sig .tc .vmem S1x16 .f32) (harg5 : arg5.IsWhole) (arg6 : Memref sig .tc .vmem S511x4088 .bf16) (harg6 : arg6.IsWhole) (arg7 : Memref sig .tc .vmem S4088x16 .f32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S256x4088 .f32) (x1 : Vec F S256x511 .f32) (x2 : Vec F S256x16 .f32) (x3 : Vec F S1x16 .f32) (x4 : Vec F S511x4088 .bf16) (x5 : Vec F S4088x16 .f32) (xs0 : Vec F S1x1 .f32) (xs1 : Vec F S1x1 .f32) (xs2 : Vec F S1x1 .f32) :
    sout0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay12 (k0_pay5 x1 x4 x0 x5) x2 (k0_pay9 x1 x4 x0 x5) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz, View.ld_unit_zero (S := S256x4088) hz, View.ld_unit_zero (S := S256x511) hz, View.ld_unit_zero (S := S256x16) hz, View.ld_unit_zero (S := S1x16) hz, View.ld_unit_zero (S := S511x4088) hz, View.ld_unit_zero (S := S4088x16) hz, shapeCast_self]

theorem sout_C_0 (c : Dev nD) (i : grid0.Coords) (arg2 : Memref sig .tc .vmem S256x4088 .f32) (harg2 : arg2.IsWhole) (arg3 : Memref sig .tc .vmem S256x511 .f32) (harg3 : arg3.IsWhole) (arg4 : Memref sig .tc .vmem S256x16 .f32) (harg4 : arg4.IsWhole) (arg5 : Memref sig .tc .vmem S1x16 .f32) (harg5 : arg5.IsWhole) (arg6 : Memref sig .tc .vmem S511x4088 .bf16) (harg6 : arg6.IsWhole) (arg7 : Memref sig .tc .vmem S4088x16 .f32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S256x4088 .f32) (x1 : Vec F S256x511 .f32) (x2 : Vec F S256x16 .f32) (x3 : Vec F S1x16 .f32) (x4 : Vec F S511x4088 .bf16) (x5 : Vec F S4088x16 .f32) (xs0 : Vec F S1x1 .f32) (xs1 : Vec F S1x1 .f32) (xs2 : Vec F S1x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay10 (k0_pay7 x1 x4 x0 x5 x3) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz, View.ld_unit_zero (S := S256x4088) hz, View.ld_unit_zero (S := S256x511) hz, View.ld_unit_zero (S := S256x16) hz, View.ld_unit_zero (S := S1x16) hz, View.ld_unit_zero (S := S511x4088) hz, View.ld_unit_zero (S := S4088x16) hz, shapeCast_self]

theorem sout_C_1 (c : Dev nD) (i : grid0.Coords) (arg2 : Memref sig .tc .vmem S256x4088 .f32) (harg2 : arg2.IsWhole) (arg3 : Memref sig .tc .vmem S256x511 .f32) (harg3 : arg3.IsWhole) (arg4 : Memref sig .tc .vmem S256x16 .f32) (harg4 : arg4.IsWhole) (arg5 : Memref sig .tc .vmem S1x16 .f32) (harg5 : arg5.IsWhole) (arg6 : Memref sig .tc .vmem S511x4088 .bf16) (harg6 : arg6.IsWhole) (arg7 : Memref sig .tc .vmem S4088x16 .f32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S256x4088 .f32) (x1 : Vec F S256x511 .f32) (x2 : Vec F S256x16 .f32) (x3 : Vec F S1x16 .f32) (x4 : Vec F S511x4088 .bf16) (x5 : Vec F S4088x16 .f32) (xs0 : Vec F S1x1 .f32) (xs1 : Vec F S1x1 .f32) (xs2 : Vec F S1x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay11 (k0_pay8 x1 x4 x0 x5 x3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz, View.ld_unit_zero (S := S256x4088) hz, View.ld_unit_zero (S := S256x511) hz, View.ld_unit_zero (S := S256x16) hz, View.ld_unit_zero (S := S1x16) hz, View.ld_unit_zero (S := S511x4088) hz, View.ld_unit_zero (S := S4088x16) hz, shapeCast_self]

theorem sout_C_2 (c : Dev nD) (i : grid0.Coords) (arg2 : Memref sig .tc .vmem S256x4088 .f32) (harg2 : arg2.IsWhole) (arg3 : Memref sig .tc .vmem S256x511 .f32) (harg3 : arg3.IsWhole) (arg4 : Memref sig .tc .vmem S256x16 .f32) (harg4 : arg4.IsWhole) (arg5 : Memref sig .tc .vmem S1x16 .f32) (harg5 : arg5.IsWhole) (arg6 : Memref sig .tc .vmem S511x4088 .bf16) (harg6 : arg6.IsWhole) (arg7 : Memref sig .tc .vmem S4088x16 .f32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S256x4088 .f32) (x1 : Vec F S256x511 .f32) (x2 : Vec F S256x16 .f32) (x3 : Vec F S1x16 .f32) (x4 : Vec F S511x4088 .bf16) (x5 : Vec F S4088x16 .f32) (xs0 : Vec F S1x1 .f32) (xs1 : Vec F S1x1 .f32) (xs2 : Vec F S1x1 .f32) :
    sout0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay12 (k0_pay5 x1 x4 x0 x5) x2 (k0_pay9 x1 x4 x0 x5) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz, View.ld_unit_zero (S := S256x4088) hz, View.ld_unit_zero (S := S256x511) hz, View.ld_unit_zero (S := S256x16) hz, View.ld_unit_zero (S := S1x16) hz, View.ld_unit_zero (S := S511x4088) hz, View.ld_unit_zero (S := S4088x16) hz, shapeCast_self]

theorem sout_A_0 (c : Dev nD) (i : grid0.Coords) (arg2 : Memref sig .tc .vmem S256x4088 .f32) (harg2 : arg2.IsWhole) (arg3 : Memref sig .tc .vmem S256x511 .f32) (harg3 : arg3.IsWhole) (arg4 : Memref sig .tc .vmem S256x16 .f32) (harg4 : arg4.IsWhole) (arg5 : Memref sig .tc .vmem S1x16 .f32) (harg5 : arg5.IsWhole) (arg6 : Memref sig .tc .vmem S511x4088 .bf16) (harg6 : arg6.IsWhole) (arg7 : Memref sig .tc .vmem S4088x16 .f32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S256x4088 .f32) (x1 : Vec F S256x511 .f32) (x2 : Vec F S256x16 .f32) (x3 : Vec F S1x16 .f32) (x4 : Vec F S511x4088 .bf16) (x5 : Vec F S4088x16 .f32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay10 (k0_pay7 x1 x4 x0 x5 x3) k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz, View.ld_unit_zero (S := S256x4088) hz, View.ld_unit_zero (S := S256x511) hz, View.ld_unit_zero (S := S256x16) hz, View.ld_unit_zero (S := S1x16) hz, View.ld_unit_zero (S := S511x4088) hz, View.ld_unit_zero (S := S4088x16) hz, shapeCast_self]

theorem sout_A_1 (c : Dev nD) (i : grid0.Coords) (arg2 : Memref sig .tc .vmem S256x4088 .f32) (harg2 : arg2.IsWhole) (arg3 : Memref sig .tc .vmem S256x511 .f32) (harg3 : arg3.IsWhole) (arg4 : Memref sig .tc .vmem S256x16 .f32) (harg4 : arg4.IsWhole) (arg5 : Memref sig .tc .vmem S1x16 .f32) (harg5 : arg5.IsWhole) (arg6 : Memref sig .tc .vmem S511x4088 .bf16) (harg6 : arg6.IsWhole) (arg7 : Memref sig .tc .vmem S4088x16 .f32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S256x4088 .f32) (x1 : Vec F S256x511 .f32) (x2 : Vec F S256x16 .f32) (x3 : Vec F S1x16 .f32) (x4 : Vec F S511x4088 .bf16) (x5 : Vec F S4088x16 .f32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay11 (k0_pay8 x1 x4 x0 x5 x3) k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz, View.ld_unit_zero (S := S256x4088) hz, View.ld_unit_zero (S := S256x511) hz, View.ld_unit_zero (S := S256x16) hz, View.ld_unit_zero (S := S1x16) hz, View.ld_unit_zero (S := S511x4088) hz, View.ld_unit_zero (S := S4088x16) hz, shapeCast_self]

theorem sout_A_2 (c : Dev nD) (i : grid0.Coords) (arg2 : Memref sig .tc .vmem S256x4088 .f32) (harg2 : arg2.IsWhole) (arg3 : Memref sig .tc .vmem S256x511 .f32) (harg3 : arg3.IsWhole) (arg4 : Memref sig .tc .vmem S256x16 .f32) (harg4 : arg4.IsWhole) (arg5 : Memref sig .tc .vmem S1x16 .f32) (harg5 : arg5.IsWhole) (arg6 : Memref sig .tc .vmem S511x4088 .bf16) (harg6 : arg6.IsWhole) (arg7 : Memref sig .tc .vmem S4088x16 .f32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S256x4088 .f32) (x1 : Vec F S256x511 .f32) (x2 : Vec F S256x16 .f32) (x3 : Vec F S1x16 .f32) (x4 : Vec F S511x4088 .bf16) (x5 : Vec F S4088x16 .f32) :
    sout0_A_2 c i arg2 harg2 arg3 harg3 arg4 harg4 arg5 harg5 arg6 harg6 arg7 harg7 arg8 harg8 arg9 harg9 arg10 harg10 arg11 harg11 hc0 hc1 x0 x1 x2 x3 x4 x5 = k0_pay12 (k0_pay5 x1 x4 x0 x5) x2 (k0_pay9 x1 x4 x0 x5) k0_pay4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz, View.ld_unit_zero (S := S256x4088) hz, View.ld_unit_zero (S := S256x511) hz, View.ld_unit_zero (S := S256x16) hz, View.ld_unit_zero (S := S1x16) hz, View.ld_unit_zero (S := S511x4088) hz, View.ld_unit_zero (S := S4088x16) hz, shapeCast_self]

theorem out_C_6 (c : Dev nD) (i : grid0.Coords) (arg2 : Memref sig .tc .vmem S256x4088 .f32) (harg2 : arg2.IsWhole) (arg3 : Memref sig .tc .vmem S256x511 .f32) (harg3 : arg3.IsWhole) (arg4 : Memref sig .tc .vmem S256x16 .f32) (harg4 : arg4.IsWhole) (arg5 : Memref sig .tc .vmem S1x16 .f32) (harg5 : arg5.IsWhole) (arg6 : Memref sig .tc .vmem S511x4088 .bf16) (harg6 : arg6.IsWhole) (arg7 : Memref sig .tc .vmem S4088x16 .f32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S256x4088 .f32) (x1 : Vec F S256x511 .f32) (x2 : Vec F S256x16 .f32) (x3 : Vec F S1x16 .f32) (x4 : Vec F S511x4088 .bf16) (x5 : Vec F S4088x16 .f32) (xs0 : Vec F S1x1 .f32) (xs1 : Vec F S1x1 .f32) (xs2 : Vec F S1x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay1 (k0_pay10 (k0_pay7 x1 x4 x0 x5 x3) xs0) (k0_pay11 (k0_pay8 x1 x4 x0 x5 x3) xs1) (k0_pay12 (k0_pay5 x1 x4 x0 x5) x2 (k0_pay9 x1 x4 x0 x5) xs2) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz, View.ld_unit_zero (S := S256x4088) hz, View.ld_unit_zero (S := S256x511) hz, View.ld_unit_zero (S := S256x16) hz, View.ld_unit_zero (S := S1x16) hz, View.ld_unit_zero (S := S511x4088) hz, View.ld_unit_zero (S := S4088x16) hz, shapeCast_self, View.readCov_unit_zero (S := S1x1) _ hz]

end Pieces

/-! ## The stores' values over the extended reals -/

section Values

/-- The variance accumulator's store holds what was there plus the tile's 256 row variances. -/
theorem var_store (x0 : Vec Ideal S256x4088 .f32) (x1 : Vec Ideal S256x511 .f32) (x3 : Vec Ideal S1x16 .f32) (x4 : Vec Ideal S511x4088 .bf16) (x5 : Vec Ideal S4088x16 .f32) (v : Vec Ideal S1x1 .f32) :
    k0_pay10 (F := Ideal) (k0_pay7 x1 x4 x0 x5 x3) v (ix2 0 0) = v (ix2 0 0) + addVarB x0 x1 x3 x4 x5 := by
  refine (pay10_apply (k0_pay7 x1 x4 x0 x5 x3) v).trans ?_
  unfold addVarB
  exact congrArg (fun z => v (ix2 0 0) + z) (Finset.sum_congr rfl fun p _ => pay7_apply x1 x4 x0 x5 x3 p)

/-- The maximum accumulator's store holds what was there plus the tile's 256 row maxima. -/
theorem max_store (x0 : Vec Ideal S256x4088 .f32) (x1 : Vec Ideal S256x511 .f32) (x3 : Vec Ideal S1x16 .f32) (x4 : Vec Ideal S511x4088 .bf16) (x5 : Vec Ideal S4088x16 .f32) (v : Vec Ideal S1x1 .f32) :
    k0_pay11 (F := Ideal) (k0_pay8 x1 x4 x0 x5 x3) v (ix2 0 0) = v (ix2 0 0) + addMaxB x0 x1 x3 x4 x5 := by
  refine (pay11_apply (k0_pay8 x1 x4 x0 x5 x3) v).trans ?_
  unfold addMaxB
  exact congrArg (fun z => v (ix2 0 0) + z) (Finset.sum_congr rfl fun p _ => pay8_apply x1 x4 x0 x5 x3 p)

/-- The congestion accumulator's store holds what was there plus the tile's 256 overlaps. -/
theorem cong_store (x0 : Vec Ideal S256x4088 .f32) (x1 : Vec Ideal S256x511 .f32) (x2 : Vec Ideal S256x16 .f32) (x4 : Vec Ideal S511x4088 .bf16) (x5 : Vec Ideal S4088x16 .f32) (v : Vec Ideal S1x1 .f32) :
    k0_pay12 (F := Ideal) (k0_pay5 x1 x4 x0 x5) x2 (k0_pay9 x1 x4 x0 x5) v (ix2 0 0) = v (ix2 0 0) + addCongB x0 x1 x2 x4 x5 :=
  pay12_apply x1 x4 x0 x5 x2 v

end Values

/-! ## The accumulators point by point -/

section Points

variable (m : (ℓ : Loc nD τ sig) → Buf (Elt Ideal) ℓ)

/-- The run's contents depend on the position only. -/
theorem outsAt0_congr (c : Dev nD) {n n' : ℕ} (e : n = n') (h : n < cfg0.N) (h' : n' < cfg0.N) :
    outsAt0 m c n h = outsAt0 m c n' h' := by
  subst e; rfl

theorem addVar_eq (c : Dev nD) (t : Fin cfg0.N) : addVar m c t.val = addVarB (predBlk m c t) (demBlk m c t) (capBlk m c t) (selBlk m c t) (hotBlk m c t) := by
  unfold addVar; exact dif_pos t.isLt
theorem addMax_eq (c : Dev nD) (t : Fin cfg0.N) : addMax m c t.val = addMaxB (predBlk m c t) (demBlk m c t) (capBlk m c t) (selBlk m c t) (hotBlk m c t) := by
  unfold addMax; exact dif_pos t.isLt
theorem addCong_eq (c : Dev nD) (t : Fin cfg0.N) : addCong m c t.val = addCongB (predBlk m c t) (demBlk m c t) (nlBlk m c t) (selBlk m c t) (hotBlk m c t) := by
  unfold addCong; exact dif_pos t.isLt

/-- A quantity that restarts at the multiples of 32 with that point's addend, and elsewhere adds the point's addend to
    what the point before left, is at point 32 q + s the sum of the addends of points 32 q … 32 q + s. -/
theorem fold_sum {N : ℕ} (f : (n : ℕ) → n < N → EReal) (M : ℕ → EReal)
    (h0 : ∀ (n : ℕ) (h : n < N), n % 32 = 0 → f n h = M n)
    (hstep : ∀ (n : ℕ) (h : n + 1 < N), ¬(n + 1) % 32 = 0 → f (n + 1) h = f n (Nat.lt_of_succ_lt h) + M (n + 1))
    (q : ℕ) : ∀ (s : ℕ) (_ : s < 32) (h : 32 * q + s < N), f (32 * q + s) h = ∑ j ∈ Finset.range (s + 1), M (32 * q + j)
  | 0, _, h => by
    rw [Finset.sum_range_one]
    exact h0 _ h (by rw [Nat.add_zero, Nat.mul_mod_right])
  | s + 1, hs, h => by
    have hne : ¬(32 * q + s + 1) % 32 = 0 := by omega
    rw [Finset.sum_range_succ _ (s + 1), ← fold_sum f M h0 hstep q s (Nat.lt_of_succ_lt hs) (Nat.lt_of_succ_lt h)]
    exact hstep (32 * q + s) h hne

/-- At a core's first point accumulator 0 is reset and then holds that point's addend. -/
theorem scr0_reset (c : Dev nD) (t : Fin cfg0.N) (h0 : t.val % 32 = 0) :
    (outsAt0 m c t.val t.isLt).2.1 (ix2 0 0) = addVar m c t.val := by
  have h1 : ¬t.val % 32 = 31 := by omega
  rw [outsAt0_A m c t h0 h1]
  dsimp only
  refine (congrFun (sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (predBlk m c t) (demBlk m c t) (nlBlk m c t) (capBlk m c t) (selBlk m c t) (hotBlk m c t)) (ix2 0 0)).trans ?_
  refine (var_store (predBlk m c t) (demBlk m c t) (capBlk m c t) (selBlk m c t) (hotBlk m c t) (k0_pay2 (F := Ideal))).trans ?_
  rw [pay2_apply, zero_add, addVar_eq m c t]

/-- At every other point it adds the point's addend to what the point before left. -/
theorem scr0_step (c : Dev nD) (t : Fin cfg0.N) (h0 : ¬t.val % 32 = 0) (hp : t.val - 1 < cfg0.N) :
    (outsAt0 m c t.val t.isLt).2.1 (ix2 0 0) = (outsAt0 m c (t.val - 1) hp).2.1 (ix2 0 0) + addVar m c t.val := by
  rw [addVar_eq m c t]
  by_cases h1 : t.val % 32 = 31
  · rw [outsAt0_C m c t h0 h1]
    dsimp only
    refine (congrFun (sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (predBlk m c t) (demBlk m c t) (nlBlk m c t) (capBlk m c t) (selBlk m c t) (hotBlk m c t) (outsAt0 m c (t.val - 1) hp).2.1 (outsAt0 m c (t.val - 1) hp).2.2.1 (outsAt0 m c (t.val - 1) hp).2.2.2) (ix2 0 0)).trans ?_
    exact var_store (predBlk m c t) (demBlk m c t) (capBlk m c t) (selBlk m c t) (hotBlk m c t) (outsAt0 m c (t.val - 1) hp).2.1
  · rw [outsAt0_B m c t h0 h1]
    dsimp only
    refine (congrFun (sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (predBlk m c t) (demBlk m c t) (nlBlk m c t) (capBlk m c t) (selBlk m c t) (hotBlk m c t) (outsAt0 m c (t.val - 1) hp).2.1 (outsAt0 m c (t.val - 1) hp).2.2.1 (outsAt0 m c (t.val - 1) hp).2.2.2) (ix2 0 0)).trans ?_
    exact var_store (predBlk m c t) (demBlk m c t) (capBlk m c t) (selBlk m c t) (hotBlk m c t) (outsAt0 m c (t.val - 1) hp).2.1

/-- At a core's first point accumulator 1 is reset and then holds that point's addend. -/
theorem scr1_reset (c : Dev nD) (t : Fin cfg0.N) (h0 : t.val % 32 = 0) :
    (outsAt0 m c t.val t.isLt).2.2.1 (ix2 0 0) = addMax m c t.val := by
  have h1 : ¬t.val % 32 = 31 := by omega
  rw [outsAt0_A m c t h0 h1]
  dsimp only
  refine (congrFun (sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (predBlk m c t) (demBlk m c t) (nlBlk m c t) (capBlk m c t) (selBlk m c t) (hotBlk m c t)) (ix2 0 0)).trans ?_
  refine (max_store (predBlk m c t) (demBlk m c t) (capBlk m c t) (selBlk m c t) (hotBlk m c t) (k0_pay3 (F := Ideal))).trans ?_
  rw [pay3_apply, zero_add, addMax_eq m c t]

/-- At every other point it adds the point's addend to what the point before left. -/
theorem scr1_step (c : Dev nD) (t : Fin cfg0.N) (h0 : ¬t.val % 32 = 0) (hp : t.val - 1 < cfg0.N) :
    (outsAt0 m c t.val t.isLt).2.2.1 (ix2 0 0) = (outsAt0 m c (t.val - 1) hp).2.2.1 (ix2 0 0) + addMax m c t.val := by
  rw [addMax_eq m c t]
  by_cases h1 : t.val % 32 = 31
  · rw [outsAt0_C m c t h0 h1]
    dsimp only
    refine (congrFun (sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (predBlk m c t) (demBlk m c t) (nlBlk m c t) (capBlk m c t) (selBlk m c t) (hotBlk m c t) (outsAt0 m c (t.val - 1) hp).2.1 (outsAt0 m c (t.val - 1) hp).2.2.1 (outsAt0 m c (t.val - 1) hp).2.2.2) (ix2 0 0)).trans ?_
    exact max_store (predBlk m c t) (demBlk m c t) (capBlk m c t) (selBlk m c t) (hotBlk m c t) (outsAt0 m c (t.val - 1) hp).2.2.1
  · rw [outsAt0_B m c t h0 h1]
    dsimp only
    refine (congrFun (sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (predBlk m c t) (demBlk m c t) (nlBlk m c t) (capBlk m c t) (selBlk m c t) (hotBlk m c t) (outsAt0 m c (t.val - 1) hp).2.1 (outsAt0 m c (t.val - 1) hp).2.2.1 (outsAt0 m c (t.val - 1) hp).2.2.2) (ix2 0 0)).trans ?_
    exact max_store (predBlk m c t) (demBlk m c t) (capBlk m c t) (selBlk m c t) (hotBlk m c t) (outsAt0 m c (t.val - 1) hp).2.2.1

/-- At a core's first point accumulator 2 is reset and then holds that point's addend. -/
theorem scr2_reset (c : Dev nD) (t : Fin cfg0.N) (h0 : t.val % 32 = 0) :
    (outsAt0 m c t.val t.isLt).2.2.2 (ix2 0 0) = addCong m c t.val := by
  have h1 : ¬t.val % 32 = 31 := by omega
  rw [outsAt0_A m c t h0 h1]
  dsimp only
  refine (congrFun (sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (predBlk m c t) (demBlk m c t) (nlBlk m c t) (capBlk m c t) (selBlk m c t) (hotBlk m c t)) (ix2 0 0)).trans ?_
  refine (cong_store (predBlk m c t) (demBlk m c t) (nlBlk m c t) (selBlk m c t) (hotBlk m c t) (k0_pay4 (F := Ideal))).trans ?_
  rw [pay4_apply, zero_add, addCong_eq m c t]

/-- At every other point it adds the point's addend to what the point before left. -/
theorem scr2_step (c : Dev nD) (t : Fin cfg0.N) (h0 : ¬t.val % 32 = 0) (hp : t.val - 1 < cfg0.N) :
    (outsAt0 m c t.val t.isLt).2.2.2 (ix2 0 0) = (outsAt0 m c (t.val - 1) hp).2.2.2 (ix2 0 0) + addCong m c t.val := by
  rw [addCong_eq m c t]
  by_cases h1 : t.val % 32 = 31
  · rw [outsAt0_C m c t h0 h1]
    dsimp only
    refine (congrFun (sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (predBlk m c t) (demBlk m c t) (nlBlk m c t) (capBlk m c t) (selBlk m c t) (hotBlk m c t) (outsAt0 m c (t.val - 1) hp).2.1 (outsAt0 m c (t.val - 1) hp).2.2.1 (outsAt0 m c (t.val - 1) hp).2.2.2) (ix2 0 0)).trans ?_
    exact cong_store (predBlk m c t) (demBlk m c t) (nlBlk m c t) (selBlk m c t) (hotBlk m c t) (outsAt0 m c (t.val - 1) hp).2.2.2
  · rw [outsAt0_B m c t h0 h1]
    dsimp only
    refine (congrFun (sout_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (predBlk m c t) (demBlk m c t) (nlBlk m c t) (capBlk m c t) (selBlk m c t) (hotBlk m c t) (outsAt0 m c (t.val - 1) hp).2.1 (outsAt0 m c (t.val - 1) hp).2.2.1 (outsAt0 m c (t.val - 1) hp).2.2.2) (ix2 0 0)).trans ?_
    exact cong_store (predBlk m c t) (demBlk m c t) (nlBlk m c t) (selBlk m c t) (hotBlk m c t) (outsAt0 m c (t.val - 1) hp).2.2.2

/-- At a core's last point the output row holds the three accumulators, as that point leaves them, in lanes 0, 1, 2. -/
theorem out_last (c : Dev nD) (t : Fin cfg0.N) (h0 : ¬t.val % 32 = 0) (h1 : t.val % 32 = 31) (k : Fin 128) :
    (outsAt0 m c t.val t.isLt).1 (ix3 0 0 k)
      = if k.val = 0 then (outsAt0 m c t.val t.isLt).2.1 (ix2 0 0) else if k.val = 1 then (outsAt0 m c t.val t.isLt).2.2.1 (ix2 0 0)
        else if k.val = 2 then (outsAt0 m c t.val t.isLt).2.2.2 (ix2 0 0) else 0 := by
  have hp : t.val - 1 < cfg0.N := Nat.lt_of_le_of_lt (Nat.sub_le _ _) t.isLt
  rw [outsAt0_C m c t h0 h1]
  dsimp only
  rw [sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (predBlk m c t) (demBlk m c t) (nlBlk m c t) (capBlk m c t) (selBlk m c t) (hotBlk m c t) (outsAt0 m c (t.val - 1) hp).2.1 (outsAt0 m c (t.val - 1) hp).2.2.1 (outsAt0 m c (t.val - 1) hp).2.2.2, sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (predBlk m c t) (demBlk m c t) (nlBlk m c t) (capBlk m c t) (selBlk m c t) (hotBlk m c t) (outsAt0 m c (t.val - 1) hp).2.1 (outsAt0 m c (t.val - 1) hp).2.2.1 (outsAt0 m c (t.val - 1) hp).2.2.2, sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (predBlk m c t) (demBlk m c t) (nlBlk m c t) (capBlk m c t) (selBlk m c t) (hotBlk m c t) (outsAt0 m c (t.val - 1) hp).2.1 (outsAt0 m c (t.val - 1) hp).2.2.1 (outsAt0 m c (t.val - 1) hp).2.2.2]
  refine (congrFun (out_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (predBlk m c t) (demBlk m c t) (nlBlk m c t) (capBlk m c t) (selBlk m c t) (hotBlk m c t) (outsAt0 m c (t.val - 1) hp).2.1 (outsAt0 m c (t.val - 1) hp).2.2.1 (outsAt0 m c (t.val - 1) hp).2.2.2) (ix3 0 0 k)).trans ?_
  exact pay1_apply _ _ _ k

end Points

end Fold

open Fold

variable (m : (ℓ : Loc nD τ sig) → Buf (Elt Ideal) ℓ)

/-- After point 32 q + s of core q the variance accumulator holds the sum of the addends of points 32 q … 32 q + s. -/
theorem scr0_at (c : Dev nD) (q : Fin 2) (s : ℕ) (hs : s < 32) (h : 32 * q.val + s < cfg0.N) :
    (outsAt0 m c (32 * q.val + s) h).2.1 (ix2 0 0) = ∑ j ∈ Finset.range (s + 1), addVar m c (32 * q.val + j) :=
  fold_sum (fun n h => (outsAt0 m c n h).2.1 (ix2 0 0)) (fun n => addVar m c n)
    (fun n h hn => scr0_reset m c ⟨n, h⟩ hn)
    (fun n h hn => (scr0_step m c ⟨n + 1, h⟩ hn (Nat.lt_of_succ_lt h)))
    q.val s hs h

theorem scr1_at (c : Dev nD) (q : Fin 2) (s : ℕ) (hs : s < 32) (h : 32 * q.val + s < cfg0.N) :
    (outsAt0 m c (32 * q.val + s) h).2.2.1 (ix2 0 0) = ∑ j ∈ Finset.range (s + 1), addMax m c (32 * q.val + j) :=
  fold_sum (fun n h => (outsAt0 m c n h).2.2.1 (ix2 0 0)) (fun n => addMax m c n)
    (fun n h hn => scr1_reset m c ⟨n, h⟩ hn)
    (fun n h hn => (scr1_step m c ⟨n + 1, h⟩ hn (Nat.lt_of_succ_lt h)))
    q.val s hs h

theorem scr2_at (c : Dev nD) (q : Fin 2) (s : ℕ) (hs : s < 32) (h : 32 * q.val + s < cfg0.N) :
    (outsAt0 m c (32 * q.val + s) h).2.2.2 (ix2 0 0) = ∑ j ∈ Finset.range (s + 1), addCong m c (32 * q.val + j) :=
  fold_sum (fun n h => (outsAt0 m c n h).2.2.2 (ix2 0 0)) (fun n => addCong m c n)
    (fun n h hn => scr2_reset m c ⟨n, h⟩ hn)
    (fun n h hn => (scr2_step m c ⟨n + 1, h⟩ hn (Nat.lt_of_succ_lt h)))
    q.val s hs h

/-- At a core's last point the output row holds the core's three totals in lanes 0, 1, 2 and zero elsewhere. -/
theorem out_at_last (c : Dev nD) (q : Fin 2) (h : 32 * q.val + 31 < cfg0.N) (k : Fin 128) :
    (outsAt0 m c (32 * q.val + 31) h).1 (ix3 0 0 k)
      = if k.val = 0 then totVar m c q else if k.val = 1 then totMax m c q else if k.val = 2 then totCong m c q else 0 := by
  have h0 : ¬(32 * q.val + 31) % 32 = 0 := by omega
  have h1 : (32 * q.val + 31) % 32 = 31 := by omega
  refine (out_last m c ⟨32 * q.val + 31, h⟩ h0 h1 k).trans ?_
  dsimp only
  rw [scr0_at m c q 31 (by omega) h, scr1_at m c q 31 (by omega) h, scr2_at m c q 31 (by omega) h]
  rfl

end Cert.KernelIdeal.KValue

end
-- ==== Proof.KFinal.lean ====
/-
  The array of partial results after the region. The output window is written back only at the last point of each
  core (points 31 and 63); the block written at point 32 q + 31 is row q of the [2, 1, 128] array and holds core q's
  three totals in lanes 0, 1, 2 and 0 elsewhere. The two rows cover the array, so it ends holding exactly that.
-/
import proofs.«409053_j76347338654269_3_alg».proof.Proof.KDefs
import proofs.«409053_j76347338654269_3_alg».proof.Proof.KFold

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The output window's block indices, decided over the 64 grid points: the row is the point's core, the other two are 0. -/
private theorem idx_facts6 : ∀ t : Fin cfg0.N, win0_6.index t (0 : Fin 3) = t.val / 32 ∧ win0_6.index t (1 : Fin 3) = 0
    ∧ win0_6.index t (2 : Fin 3) = 0 :=
  (by decide +kernel : ∀ t : Fin grid0.N, _)

/-- The array of totals read at an index whose row is q and whose lane is kv. -/
private theorem outFn_at (c : Dev nD) (i : S2x1x128.Idx) (q : Fin 2) (kv : ℕ) (h0 : (i 0).val = q.val) (h2 : (i 2).val = kv) :
    outFn m c i = if kv = 0 then totVar m c q else if kv = 1 then totMax m c q else if kv = 2 then totCong m c q else 0 := by
  have e : i 0 = q := Fin.ext h0
  unfold outFn
  rw [h2, e]

/-- What the last point of core q leaves in the output row, at any index of the [1, 1, 128] block. -/
private theorem out_at_flush (c : Dev nD) (t : Fin cfg0.N) (q : Fin 2) (hq : t.val = 32 * q.val + 31) (y : S1x1x128.Idx) :
    (outsAt0 m c t.val t.isLt).1 y
      = if (y 2).val = 0 then totVar m c q else if (y 2).val = 1 then totMax m c q
        else if (y 2).val = 2 then totCong m c q else 0 := by
  obtain ⟨a, b, k, rfl⟩ : ∃ (a b : Fin 1) (k : Fin 128), y = ix3 a b k := ⟨y 0, y 1, y 2, eq_ix3 y⟩
  obtain rfl : a = 0 := Subsingleton.elim _ _
  obtain rfl : b = 0 := Subsingleton.elim _ _
  have key : ∀ (n : ℕ) (hn : n < cfg0.N), n = 32 * q.val + 31 →
      (outsAt0 m c n hn).1 (ix3 0 0 k) = if k.val = 0 then totVar m c q else if k.val = 1 then totMax m c q
        else if k.val = 2 then totCong m c q else 0 := by
    intro n hn e
    subst e
    exact out_at_last m c q hn k
  exact key t.val t.isLt hq

/-- A write-back happens at the last point of a core, and writes that core's row of the array of totals. -/
private theorem flushed_eq (c : Dev nD) (t : Fin cfg0.N) (hf : (cfg0.win 6).flush t = true) :
    (dats m 0 c).flushed 6 t = ((cfg0.win 6).blk t).view.read (Elt Ideal) (outArr m c) := by
  have ht : t.val % 32 = 31 := (flush0_6 t).mp hf
  have hN : t.val < 64 := lt_of_lt_of_eq t.isLt (show cfg0.N = 64 from N_0)
  obtain ⟨i0, i1, i2⟩ := idx_facts6 t
  show (cfg0.win 6).cut (grid0.coords t) ((dats m 0 c).after 6 t) = _
  rw [after0_6]
  funext y
  rw [View.read_apply]
  show (outsAt0 m c t.val t.isLt).1 y = outFn m c (((cfg0.win 6).blk t).view.emb y)
  have e0 : ((((cfg0.win 6).blk t).view.emb y) 0).val = win0_6.index t (0 : Fin 3) * 1 + 1 * (y 0).val := rfl
  have e2 : ((((cfg0.win 6).blk t).view.emb y) 2).val = win0_6.index t (2 : Fin 3) * 128 + 1 * (y 2).val := rfl
  have y0 : (y 0).val < 1 := (y 0).isLt
  refine (out_at_flush m c t ⟨t.val / 32, by omega⟩ (by show t.val = 32 * (t.val / 32) + 31; omega) y).trans ?_
  refine (outFn_at m c _ ⟨t.val / 32, by omega⟩ (y 2).val ?_ ?_).symm
  · rw [e0, i0]; show t.val / 32 * 1 + 1 * (y 0).val = t.val / 32; omega
  · rw [e2, i2]; omega

/-- The two write-backs (points 31 and 63) tile the [2, 1, 128] array: it ends holding the cores' totals. -/
theorem final6 (c : Dev nD) : (dats m 0 c).arrAt 6 cfg0.N = outArr m c := by
  refine (dats m 0 c).arrAt_eq_of_cover 6 (outArr m c) (flushed_eq m c) fun i => ?_
  have h0 : (i 0 : Nat) < 2 := (i 0).isLt
  have h1 : (i 1 : Nat) < 1 := (i 1).isLt
  have h2 : (i 2 : Nat) < 128 := (i 2).isLt
  have hN : 32 * (i 0 : Nat) + 31 < cfg0.N := lt_of_lt_of_eq (by omega : 32 * (i 0 : Nat) + 31 < 64) (show cfg0.N = 64 from N_0).symm
  obtain ⟨j0, j1, j2⟩ := idx_facts6 ⟨32 * (i 0 : Nat) + 31, hN⟩
  refine ⟨⟨32 * (i 0 : Nat) + 31, hN⟩, (flush0_6 _).mpr (by show (32 * (i 0 : Nat) + 31) % 32 = 31; omega), ?_⟩
  show i ∈ ((View.whole main_v15).slice (win0_6.rect ⟨32 * (i 0 : Nat) + 31, hN⟩)).set
  rw [View.set_slice_whole, Rect.mem_set_unit]
  intro a
  match a with
  | ⟨0, _⟩ =>
    show win0_6.index ⟨32 * (i 0 : Nat) + 31, hN⟩ 0 * 1 ≤ (i 0 : Nat) ∧ (i 0 : Nat) < win0_6.index ⟨32 * (i 0 : Nat) + 31, hN⟩ 0 * 1 + 1
    rw [j0]; show (32 * (i 0 : Nat) + 31) / 32 * 1 ≤ (i 0 : Nat) ∧ (i 0 : Nat) < (32 * (i 0 : Nat) + 31) / 32 * 1 + 1; omega
  | ⟨1, _⟩ =>
    show win0_6.index ⟨32 * (i 0 : Nat) + 31, hN⟩ 1 * 1 ≤ (i 1 : Nat) ∧ (i 1 : Nat) < win0_6.index ⟨32 * (i 0 : Nat) + 31, hN⟩ 1 * 1 + 1
    rw [j1]; omega
  | ⟨2, _⟩ =>
    show win0_6.index ⟨32 * (i 0 : Nat) + 31, hN⟩ 2 * 128 ≤ (i 2 : Nat) ∧ (i 2 : Nat) < win0_6.index ⟨32 * (i 0 : Nat) + 31, hN⟩ 2 * 128 + 128
    rw [j2]; omega

end Cert.KernelIdeal.KValue

end
-- ==== Proof.KTail.lean ====
/-
  The host tail and the kernel program's run.  The tail cuts lanes 0, 1, 2 out of the [2, 1, 128] array of the cores'
  partial results, adds the two cores' rows, divides each of the three sums by the batch size 16384 and combines them as
  var + ½ · max + f32(0.3) · cong: the scalar `kres`.  Every weakly fair execution of the kernel's program ends with
  that scalar in the result buffer and the six arguments as launched.
-/
import proofs.«409053_j76347338654269_3_alg».proof.Proof.KDefs
import proofs.«409053_j76347338654269_3_alg».proof.Proof.KFinal
import Idealize.ShloMosaic.Lib.StableHlo.Run

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The column sums of the leading three lanes: the [2, 1, 128] array cut to [2, 1, 3], read as [2, 3], and its two rows
    added from zero. -/
def tailSums (A : S2x1x128.Idx → EReal) : S3.Idx → EReal :=
  Host.reduceAdd (F := Ideal) (φ := .f32)
    (fun i => shapeCast S2x3 (extractStridedSlice S2x1x3 ![0, 0, 0] A slices_S2x1x128_S2x1x3_0_0_0) shapeCasts_S2x1x3_S2x3 i)
    (constant (F := Ideal) S_ .f32 0x00000000#32) reducesTo_S2x3_S3_d0 h_S_

/-- Entry (q, k) of the [2, 3] view is lane `k` of row `q` of the array. -/
theorem tailView_apply (A : S2x1x128.Idx → EReal) (q : Fin 2) (k : Fin 3) (l : Fin 128) (hl : l.val = k.val) :
    shapeCast S2x3 (extractStridedSlice S2x1x3 ![0, 0, 0] A slices_S2x1x128_S2x1x3_0_0_0) shapeCasts_S2x1x3_S2x3 (ix2 q k)
      = A (ix3 q 0 l) :=
  (shapeCast_apply _ shapeCasts_S2x1x3_S2x3 (ix2 q k) (ix3 q 0 k) (by
      rw [Shape.rowMajor_val_three, Shape.rowMajor_val_two]
      show (q.val * 1 + 0) * 3 + k.val = q.val * 3 + k.val
      omega)).trans
    (extractStridedSlice_apply _ A slices_S2x1x128_S2x1x3_0_0_0 (ix3 q 0 k) (ix3 q 0 l) fun a =>
      match a with
      | ⟨0, _⟩ => (Nat.zero_add _).symm
      | ⟨1, _⟩ => rfl
      | ⟨2, _⟩ => by show l.val = 0 + k.val; omega)

/-- Lane `k` of the column sums is the sum of lane `k` over the two rows. -/
theorem tailSums_apply (A : S2x1x128.Idx → EReal) (k : Fin 3) (l : Fin 128) (hl : l.val = k.val) :
    tailSums A (ix1 k) = A (ix3 0 0 l) + A (ix3 1 0 l) := by
  have hR : S2x3.Reduces [0] S3 := by decide
  have e0 : hR.lift (ix1 k) (0 : Fin 2) = ix2 0 k := funext fun a => match a with | ⟨0, _⟩ => Fin.ext rfl | ⟨1, _⟩ => Fin.ext rfl
  have e1 : hR.lift (ix1 k) (1 : Fin 2) = ix2 1 k := funext fun a => match a with | ⟨0, _⟩ => Fin.ext rfl | ⟨1, _⟩ => Fin.ext rfl
  unfold tailSums Host.reduceAdd
  rw [Ideal.hostReduceAdd_def, Ideal.hostReduceAdd_single reducesTo_S2x3_S3_d0 hR, constant_apply, Ideal.ofBits_zero_f32, zero_add]
  refine (Fin.sum_univ_two _).trans ?_
  rw [e0, e1, tailView_apply A 0 k l hl, tailView_apply A 1 k l hl]

/-- Lane `o` of the column sums, cut out as a [1] array and read as a scalar. -/
theorem tailLane_apply (A : S2x1x128.Idx → EReal) (o : ℕ) (hs : S3.Slices ![o] S1) (k : Fin 3) (hk : k.val = o)
    (l : Fin 128) (hl : l.val = k.val) (i : S_.Idx) :
    shapeCast S_ (extractStridedSlice S1 ![o] (tailSums A) hs) shapeCasts_S1_S_ i = A (ix3 0 0 l) + A (ix3 1 0 l) :=
  (shapeCast_apply _ shapeCasts_S1_S_ i (ix1 0) (by
      rw [Shape.rowMajor_val_one]
      show (0 : ℕ) = (Shape.rowMajorPi _ _).val
      rw [Shape.rowMajorPi_zero])).trans
    ((extractStridedSlice_apply _ (tailSums A) hs (ix1 0) (ix1 k) fun a =>
      match a with
      | ⟨0, _⟩ => by show k.val = o + 0; omega).trans (tailSums_apply A k l hl))

/-- The host tail as a function of the [2, 1, 128] array of partial results: the three lanes' column sums, each over
    the batch size, combined with the weights ½ and f32(0.3). -/
def tailOf (A : S2x1x128.Idx → EReal) : S_.Idx → EReal :=
  addf (F := Ideal)
    (addf (F := Ideal)
      (Host.divf (F := Ideal) (fun i => shapeCast S_ (extractStridedSlice S1 ![0] (tailSums A) slices_S3_S1_0) shapeCasts_S1_S_ i)
        (constant (F := Ideal) S_ .f32 0x46800000#32))
      (mulf (F := Ideal) (constant (F := Ideal) S_ .f32 0x3F000000#32)
        (Host.divf (F := Ideal) (fun i => shapeCast S_ (extractStridedSlice S1 ![1] (tailSums A) slices_S3_S1_1) shapeCasts_S1_S_ i)
          (constant (F := Ideal) S_ .f32 0x46800000#32))))
    (mulf (F := Ideal) (constant (F := Ideal) S_ .f32 0x3E99999A#32)
      (Host.divf (F := Ideal) (fun i => shapeCast S_ (extractStridedSlice S1 ![2] (tailSums A) slices_S3_S1_2) shapeCasts_S1_S_ i)
        (constant (F := Ideal) S_ .f32 0x46800000#32)))

/-- The tail's scalar: the combination of the three lanes' sums over the two rows. -/
theorem tail_eq (A : S2x1x128.Idx → EReal) :
    tailOf A = fun _ => Cert.Spec.combine (A (ix3 0 0 0) + A (ix3 1 0 0)) (A (ix3 0 0 1) + A (ix3 1 0 1))
      (A (ix3 0 0 2) + A (ix3 1 0 2)) := by
  funext i
  show Ideal.div (shapeCast S_ (extractStridedSlice S1 ![0] (tailSums A) slices_S3_S1_0) shapeCasts_S1_S_ i) Cert.Spec.cB
      + Cert.Spec.cHalf * Ideal.div (shapeCast S_ (extractStridedSlice S1 ![1] (tailSums A) slices_S3_S1_1) shapeCasts_S1_S_ i) Cert.Spec.cB
      + Cert.Spec.c03 * Ideal.div (shapeCast S_ (extractStridedSlice S1 ![2] (tailSums A) slices_S3_S1_2) shapeCasts_S1_S_ i) Cert.Spec.cB = _
  rw [tailLane_apply A 0 slices_S3_S1_0 0 rfl 0 rfl i, tailLane_apply A 1 slices_S3_S1_1 1 rfl 1 rfl i,
    tailLane_apply A 2 slices_S3_S1_2 2 rfl 2 rfl i]
  rfl

/-- After the host tail the result buffer holds `kres`: the tail's term over the array the region leaves, which is the
    array of the cores' totals, whose lanes 0, 1, 2 are the three totals of each core. -/
theorem tail_res (c : Dev nD) :
    Pipeline.afterTail₀ cfgs (dats m) 0 (V0 m) [hostOps1] c main_v31 = kres m c := by
  have hA : Pipeline.withArrays (cfgs 0).spec c (V0 m c) (fun w => (dats m 0 c).arrAt w (cfgs 0).N) (Proc.devRef .tc main_v15)
      = outArr m c := (Pipeline.withArrays_arr spec0 launch0.win.arr_inj c _ _ 6).trans (final6 m c)
  unfold Pipeline.afterTail₀
  show StableHlo.after hostOps1 _ (Proc.devRef .tc main_v31) = _
  after_results_simp
  show tailOf (Pipeline.withArrays (cfgs 0).spec c (V0 m c) (fun w => (dats m 0 c).arrAt w (cfgs 0).N) (Proc.devRef .tc main_v15)) = _
  rw [hA, tail_eq]
  rfl

/-- Every weakly fair execution of the kernel's program ends with the result at `kres` and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v31) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  -- the frame run's post, read at the result (a buffer the region bypasses, written by the tail), at the three staged
  -- arguments (input arrays: their entry contents) and at the three arguments the region bypasses
  (θ_run defs _ _).mono (fun _ h c =>
    ⟨((h c).2 main_v31 (Pipeline.mem_restRefs_of main_v31 (by decide) (by decide))).trans (tail_res m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.KBlocks.lean ====
/-
  The blocks a grid point stages, read at an index, in terms of the program's arguments. The three tiled inputs
  (split ratios, demands, neighbour loads): row p of tile t is row 256 t + p of the batch, every column kept. The three
  whole-array inputs are the same at every point: the capacities reshaped to one row; the selection matrix, which is 1
  at [d, u] exactly where tunnel u's destination word is d; the link one-hot, 1 at [u, l] exactly where tunnel u's
  link word is l (an iota along one axis compared with the index words along the other, read as 1 or 0).
-/
import proofs.«409053_j76347338654269_3_alg».proof.Proof.KDefs
import Idealize.ShloMosaic.Lib.Affine
import Idealize.ShloMosaic.Lib.IdealHost
import Idealize.ShloMosaic.Lib.StableHlo.Run
import Idealize.ShloMosaic.Lib.Tactic

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- Row p of tile t is row 256 t + p of the batch. -/
def tileRow (t : Fin cfg0.N) (p : Fin 256) : Fin 16384 :=
  ⟨t.val * 256 + p.val, by have : cfg0.N = 64 := N_0; have := t.isLt; have := p.isLt; omega⟩

/-- The three tiled windows' index maps at grid point t: block row t, block column 0. -/
theorem tile_index0 : ∀ t : Fin grid0.N, win0_0.index t 0 = t.val ∧ win0_0.index t 1 = 0 := by decide +kernel
theorem tile_index1 : ∀ t : Fin grid0.N, win0_1.index t 0 = t.val ∧ win0_1.index t 1 = 0 := by decide +kernel
theorem tile_index2 : ∀ t : Fin grid0.N, win0_2.index t 0 = t.val ∧ win0_2.index t 1 = 0 := by decide +kernel

theorem predBlk_apply (c : Dev nD) (t : Fin cfg0.N) (p : Fin 256) (u : Fin 4088) :
    predBlk m c t (ix2 p u) = m ((c.tc : Thread nD τ).loc main_arg0) (ix2 (tileRow t p) u) := by
  have hi := tile_index0 t
  show iblk m c 0 t (ix2 p u) = _
  unfold iblk
  rw [View.read_apply]
  show V m c main_arg0 _ = _
  rw [V_main_arg0]
  congr 1
  funext a
  apply Fin.ext
  match a with
  | ⟨0, _⟩ => show win0_0.index t 0 * 256 + 1 * p.val = t.val * 256 + p.val; rw [hi.1]; omega
  | ⟨1, _⟩ => show win0_0.index t 1 * 4088 + 1 * u.val = u.val; rw [hi.2]; omega
theorem demBlk_apply (c : Dev nD) (t : Fin cfg0.N) (p : Fin 256) (d : Fin 511) :
    demBlk m c t (ix2 p d) = m ((c.tc : Thread nD τ).loc main_arg1) (ix2 (tileRow t p) d) := by
  have hi := tile_index1 t
  show iblk m c 1 t (ix2 p d) = _
  unfold iblk
  rw [View.read_apply]
  show V m c main_arg1 _ = _
  rw [V_main_arg1]
  congr 1
  funext a
  apply Fin.ext
  match a with
  | ⟨0, _⟩ => show win0_1.index t 0 * 256 + 1 * p.val = t.val * 256 + p.val; rw [hi.1]; omega
  | ⟨1, _⟩ => show win0_1.index t 1 * 511 + 1 * d.val = d.val; rw [hi.2]; omega
theorem nlBlk_apply (c : Dev nD) (t : Fin cfg0.N) (p : Fin 256) (l : Fin 16) :
    nlBlk m c t (ix2 p l) = m ((c.tc : Thread nD τ).loc main_arg2) (ix2 (tileRow t p) l) := by
  have hi := tile_index2 t
  show iblk m c 2 t (ix2 p l) = _
  unfold iblk
  rw [View.read_apply]
  show V m c main_arg2 _ = _
  rw [V_main_arg2]
  congr 1
  funext a
  apply Fin.ext
  match a with
  | ⟨0, _⟩ => show win0_2.index t 0 * 256 + 1 * p.val = t.val * 256 + p.val; rw [hi.1]; omega
  | ⟨1, _⟩ => show win0_2.index t 1 * 16 + 1 * l.val = l.val; rw [hi.2]; omega
/-- The three whole-array windows' index maps: block [0, 0] at every grid point. -/
theorem whole_index3 : ∀ t : Fin grid0.N, win0_3.index t 0 = 0 ∧ win0_3.index t 1 = 0 := by decide +kernel
theorem whole_index4 : ∀ t : Fin grid0.N, win0_4.index t 0 = 0 ∧ win0_4.index t 1 = 0 := by decide +kernel
theorem whole_index5 : ∀ t : Fin grid0.N, win0_5.index t 0 = 0 ∧ win0_5.index t 1 = 0 := by decide +kernel

/-- An equality test of two 32-bit words, converted to a float, is 1 where they agree and 0 elsewhere. -/
theorem eqBit_toReal (φ : FTy) (x y : BitVec 32) :
    (FloatOps.uitofp (F := Ideal) φ (IntOp.cmpi .eq x y) : EReal) = if x = y then 1 else 0 := by
  by_cases h : x = y
  · rw [if_pos h, IntOp.cmpi_eq.mpr h]
    show (((1#1 : BitVec 1).toNat : ℝ) : EReal) = 1
    norm_num
  · rw [if_neg h, eq_zero_of_ne_one (mt IntOp.cmpi_eq.mp h)]
    show (((0#1 : BitVec 1).toNat : ℝ) : EReal) = 0
    norm_num

/-- The reshaped capacities at [0, l] are the capacities at l. -/
theorem capArr_apply (c : Dev nD) (l : Fin 16) :
    (V m c main_v14 : S1x16.Idx → EReal) (ix2 0 l) = m ((c.tc : Thread nD τ).loc main_arg3) (ix1 l) := by
  have e : (V m c main_v14 : S1x16.Idx → EReal)
      = shapeCast S1x16 (m ((c.tc : Thread nD τ).loc main_arg3)) shapeCasts_S16_S1x16 := by
    show StableHlo.after hostOps0 (fun b => m (c, b)) (Proc.devRef .tc main_v14) = _
    after_results
    rfl
  rw [e]
  refine shapeCast_apply _ _ (ix2 0 l) (ix1 l) ?_
  rw [Shape.rowMajor_val_one, Shape.rowMajor_val_two]
  show l.val = 0 * 16 + l.val
  omega

/-- The selection matrix at [d, u]: the row number d broadcast along the row, compared with the destination words
    broadcast down the columns. -/
theorem selArr_apply (c : Dev nD) (d : Fin 511) (u : Fin 4088) :
    (V m c main_v6 : S511x4088.Idx → EReal) (ix2 d u)
      = if BitVec.ofNat 32 d.val = m ((c.tc : Thread nD τ).loc main_arg5) (ix1 u) then (1 : EReal) else 0 := by
  have e : (V m c main_v6 : S511x4088.Idx → EReal)
      = uitofp (F := Ideal) .bf16 (cmpi .eq
          (broadcastInDim S511x4088 ![0, 1] bcast_S511x1_S511x4088_0_1
            (broadcastInDim S511x1 ![0] bcast_S511_S511x1_0 (iotaInDim S511 32 0)))
          (broadcastInDim S511x4088 ![0, 1] bcast_S1x4088_S511x4088_0_1
            (broadcastInDim S1x4088 ![1] bcast_S4088_S1x4088_1 (m ((c.tc : Thread nD τ).loc main_arg5))))) := by
    show StableHlo.after hostOps0 (fun b => m (c, b)) (Proc.devRef .tc main_v6) = _
    after_results
  have h1 : broadcastInDim S511x4088 ![0, 1] bcast_S511x1_S511x4088_0_1
      (broadcastInDim S511x1 ![0] bcast_S511_S511x1_0 (iotaInDim S511 32 0)) (ix2 d u) = BitVec.ofNat 32 d.val := by
    rw [broadcastInDim_apply _ _ _ (ix2 d u) (ix2 d (0 : Fin 1)) ?_,
      broadcastInDim_apply _ _ _ (ix2 d (0 : Fin 1)) (ix1 d) ?_]
    · rfl
    · intro a; match a with
      | ⟨0, _⟩ => rfl
    · intro a; match a with
      | ⟨0, _⟩ => rfl
      | ⟨1, _⟩ => rfl
  have h2 : broadcastInDim S511x4088 ![0, 1] bcast_S1x4088_S511x4088_0_1
      (broadcastInDim S1x4088 ![1] bcast_S4088_S1x4088_1 (m ((c.tc : Thread nD τ).loc main_arg5))) (ix2 d u)
        = m ((c.tc : Thread nD τ).loc main_arg5) (ix1 u) := by
    rw [broadcastInDim_apply _ _ _ (ix2 d u) (ix2 (0 : Fin 1) u) ?_,
      broadcastInDim_apply _ _ _ (ix2 (0 : Fin 1) u) (ix1 u) ?_]
    · intro a; match a with
      | ⟨0, _⟩ => rfl
    · intro a; match a with
      | ⟨0, _⟩ => rfl
      | ⟨1, _⟩ => rfl
  rw [e]
  show FloatOps.uitofp (F := Ideal) .bf16 (IntOp.cmpi .eq _ _) = _
  rw [eqBit_toReal, h1, h2]

/-- The link one-hot at [u, l]: the link words broadcast along the rows, compared with the column number l broadcast
    down the columns. -/
theorem hotArr_apply (c : Dev nD) (u : Fin 4088) (l : Fin 16) :
    (V m c main_v13 : S4088x16.Idx → EReal) (ix2 u l)
      = if BitVec.ofNat 32 l.val = m ((c.tc : Thread nD τ).loc main_arg4) (ix1 u) then (1 : EReal) else 0 := by
  have e : (V m c main_v13 : S4088x16.Idx → EReal)
      = uitofp (F := Ideal) .f32 (cmpi .eq
          (broadcastInDim S4088x16 ![0, 1] bcast_S1x16_S4088x16_0_1
            (broadcastInDim S1x16 ![1] bcast_S16_S1x16_1 (iotaInDim S16 32 0)))
          (broadcastInDim S4088x16 ![0, 1] bcast_S4088x1_S4088x16_0_1
            (broadcastInDim S4088x1 ![0] bcast_S4088_S4088x1_0 (m ((c.tc : Thread nD τ).loc main_arg4))))) := by
    show StableHlo.after hostOps0 (fun b => m (c, b)) (Proc.devRef .tc main_v13) = _
    after_results
  have h1 : broadcastInDim S4088x16 ![0, 1] bcast_S1x16_S4088x16_0_1
      (broadcastInDim S1x16 ![1] bcast_S16_S1x16_1 (iotaInDim S16 32 0)) (ix2 u l) = BitVec.ofNat 32 l.val := by
    rw [broadcastInDim_apply _ _ _ (ix2 u l) (ix2 (0 : Fin 1) l) ?_,
      broadcastInDim_apply _ _ _ (ix2 (0 : Fin 1) l) (ix1 l) ?_]
    · rfl
    · intro a; match a with
      | ⟨0, _⟩ => rfl
    · intro a; match a with
      | ⟨0, _⟩ => rfl
      | ⟨1, _⟩ => rfl
  have h2 : broadcastInDim S4088x16 ![0, 1] bcast_S4088x1_S4088x16_0_1
      (broadcastInDim S4088x1 ![0] bcast_S4088_S4088x1_0 (m ((c.tc : Thread nD τ).loc main_arg4))) (ix2 u l)
        = m ((c.tc : Thread nD τ).loc main_arg4) (ix1 u) := by
    rw [broadcastInDim_apply _ _ _ (ix2 u l) (ix2 u (0 : Fin 1)) ?_,
      broadcastInDim_apply _ _ _ (ix2 u (0 : Fin 1)) (ix1 u) ?_]
    · intro a; match a with
      | ⟨0, _⟩ => rfl
    · intro a; match a with
      | ⟨0, _⟩ => rfl
      | ⟨1, _⟩ => rfl
  rw [e]
  show FloatOps.uitofp (F := Ideal) .f32 (IntOp.cmpi .eq _ _) = _
  rw [eqBit_toReal, h1, h2]

/-- The capacities' [1, 16] reshape. -/
theorem capBlk_apply (c : Dev nD) (t : Fin cfg0.N) (l : Fin 16) :
    capBlk m c t (ix2 0 l) = m ((c.tc : Thread nD τ).loc main_arg3) (ix1 l) := by
  have hi := whole_index3 t
  show iblk m c 3 t (ix2 0 l) = _
  unfold iblk
  rw [View.read_apply]
  show V m c main_v14 _ = _
  rw [← capArr_apply m c l]
  congr 1
  funext a
  apply Fin.ext
  match a with
  | ⟨0, _⟩ => show win0_3.index t 0 * 1 + 1 * 0 = 0; rw [hi.1]
  | ⟨1, _⟩ => show win0_3.index t 1 * 16 + 1 * l.val = l.val; rw [hi.2]; omega
/-- The selection matrix: 1 where the tunnel's destination word is d, else 0. -/
theorem selBlk_apply (c : Dev nD) (t : Fin cfg0.N) (d : Fin 511) (u : Fin 4088) :
    selBlk m c t (ix2 d u) = if BitVec.ofNat 32 d.val = m ((c.tc : Thread nD τ).loc main_arg5) (ix1 u) then (1 : EReal) else 0 := by
  have hi := whole_index4 t
  show iblk m c 4 t (ix2 d u) = _
  unfold iblk
  rw [View.read_apply]
  show V m c main_v6 _ = _
  rw [← selArr_apply m c d u]
  congr 1
  funext a
  apply Fin.ext
  match a with
  | ⟨0, _⟩ => show win0_4.index t 0 * 511 + 1 * d.val = d.val; rw [hi.1]; omega
  | ⟨1, _⟩ => show win0_4.index t 1 * 4088 + 1 * u.val = u.val; rw [hi.2]; omega
/-- The link one-hot: 1 where the tunnel's link word is l, else 0. -/
theorem hotBlk_apply (c : Dev nD) (t : Fin cfg0.N) (u : Fin 4088) (l : Fin 16) :
    hotBlk m c t (ix2 u l) = if BitVec.ofNat 32 l.val = m ((c.tc : Thread nD τ).loc main_arg4) (ix1 u) then (1 : EReal) else 0 := by
  have hi := whole_index5 t
  show iblk m c 5 t (ix2 u l) = _
  unfold iblk
  rw [View.read_apply]
  show V m c main_v13 _ = _
  rw [← hotArr_apply m c u l]
  congr 1
  funext a
  apply Fin.ext
  match a with
  | ⟨0, _⟩ => show win0_5.index t 0 * 4088 + 1 * u.val = u.val; rw [hi.1]; omega
  | ⟨1, _⟩ => show win0_5.index t 1 * 16 + 1 * l.val = l.val; rw [hi.2]; omega

end Cert.KernelIdeal.KValue

end
-- ==== Proof.KBridge.lean ====
/-
  The kernel program's scalar is the common value. A tile row's traffic, read through the two one-hot operands with
  the index words in range, is the specification's traffic of the batch row 256 t + p (a sum against an indicator of one
  index is the term at that index); so a point's addends are the tile's row statistics, and the two cores' totals, 32
  points of 256 rows each, add up to the sum over the 16384 rows of the batch.
-/
import proofs.«409053_j76347338654269_3_alg».proof.Proof.KDefs
import proofs.«409053_j76347338654269_3_alg».proof.Proof.KBlocks
import proofs.«409053_j76347338654269_3_alg».proof.Proof.Spec

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- Words of two numbers below 2^32 are equal only if the numbers are. -/
theorem ofNat32_inj {a b : ℕ} (ha : a < 2 ^ 32) (hb : b < 2 ^ 32) (h : BitVec.ofNat 32 a = BitVec.ofNat 32 b) : a = b := by
  have h' := congrArg BitVec.toNat h
  rwa [BitVec.toNat_ofNat, BitVec.toNat_ofNat, Nat.mod_eq_of_lt ha, Nat.mod_eq_of_lt hb] at h'

/-- The batch as 64 tiles of 256 rows. -/
theorem sum_tiles {M : Type} [AddCommMonoid M] (g : Fin 16384 → M) :
    ∑ r : Fin 16384, g r
      = ∑ n : Fin 64, ∑ p : Fin 256, g ⟨n.val * 256 + p.val, by have := n.isLt; have := p.isLt; omega⟩ := by
  rw [← (finProdFinEquiv : Fin 64 × Fin 256 ≃ Fin (64 * 256)).sum_comp g, Fintype.sum_prod_type]
  refine Finset.sum_congr rfl fun n _ => Finset.sum_congr rfl fun p _ => ?_
  congr 1
  apply Fin.ext
  show p.val + 256 * n.val = n.val * 256 + p.val
  omega

/-- Two cores' totals over their 32 points each are the sum over the 64 points. -/
theorem sum_cores {M : Type} [AddCommMonoid M] (f : ℕ → M) :
    (∑ s ∈ Finset.range 32, f (32 * (0 : Fin 2).val + s)) + (∑ s ∈ Finset.range 32, f (32 * (1 : Fin 2).val + s))
      = ∑ n : Fin 64, f n.val := by
  rw [Fin.sum_univ_eq_sum_range f 64, show (64 : ℕ) = 32 + 32 from rfl, Finset.sum_range_add]
  congr 1
  all_goals exact Finset.sum_congr rfl fun s _ => by simp

section Traffic

variable (c : Dev nD) (dst : Fin 4088 → Fin 511) (lnk : Fin 4088 → Fin 16)
  (hdst : ∀ u : Fin 4088, m ((c.tc : Thread nD τ).loc main_arg5) (ix1 u) = BitVec.ofNat 32 (dst u).val)
  (hlnk : ∀ u : Fin 4088, m ((c.tc : Thread nD τ).loc main_arg4) (ix1 u) = BitVec.ofNat 32 (lnk u).val)

include hdst in
/-- The demands expanded through the selection matrix: the one destination the tunnel names. -/
theorem expand_eq (t : Fin cfg0.N) (p : Fin 256) (u : Fin 4088) :
    ∑ d : Fin 511, demBlk m c t (ix2 p d) * selBlk m c t (ix2 d u)
      = m ((c.tc : Thread nD τ).loc main_arg1) (ix2 (tileRow t p) (dst u)) := by
  rw [Finset.sum_eq_single (dst u)]
  · rw [demBlk_apply, selBlk_apply, hdst, if_pos rfl, mul_one]
  · intro d _ hd
    rw [selBlk_apply, hdst, if_neg, mul_zero]
    intro h
    exact hd (Fin.ext (ofNat32_inj (by have := d.isLt; omega) (by have := (dst u).isLt; omega) h))
  · intro h; exact absurd (Finset.mem_univ _) h

include hdst hlnk in
/-- A tile row's traffic is the batch row's. -/
theorem ltK_eq (t : Fin cfg0.N) (p : Fin 256) :
    ltK (predBlk m c t) (demBlk m c t) (selBlk m c t) (hotBlk m c t) p
      = Cert.Spec.traffic (m ((c.tc : Thread nD τ).loc main_arg0)) (m ((c.tc : Thread nD τ).loc main_arg1)) dst lnk (tileRow t p) := by
  funext l
  unfold ltK Cert.Spec.traffic
  refine Finset.sum_congr rfl fun u _ => ?_
  rw [expand_eq m c dst hdst t p u, predBlk_apply, hotBlk_apply, hlnk]
  by_cases h : lnk u = l
  · rw [if_pos h, if_pos (by rw [h]), mul_one]
  · rw [if_neg h, if_neg, mul_zero]
    intro h'
    exact h (Fin.ext (ofNat32_inj (by have := l.isLt; omega) (by have := (lnk u).isLt; omega) h').symm)

theorem capK_eq (t : Fin cfg0.N) : capK (capBlk m c t) = Cert.Spec.capRow (m ((c.tc : Thread nD τ).loc main_arg3)) := by
  funext l
  exact capBlk_apply m c t l

theorem nlK_eq (t : Fin cfg0.N) (p : Fin 256) :
    nlK (nlBlk m c t) p = Cert.Spec.nlRow (m ((c.tc : Thread nD τ).loc main_arg2)) (tileRow t p) := by
  funext l
  exact nlBlk_apply m c t p l

end Traffic

/-- With the index words in range the kernel program's scalar is `Spec.G` of its arguments. -/
theorem kres_eq (c : Dev nD) (dst : Fin 4088 → Fin 511) (lnk : Fin 4088 → Fin 16)
    (hdst : ∀ u : Fin 4088, m ((c.tc : Thread nD τ).loc main_arg5) (ix1 u) = BitVec.ofNat 32 (dst u).val)
    (hlnk : ∀ u : Fin 4088, m ((c.tc : Thread nD τ).loc main_arg4) (ix1 u) = BitVec.ofNat 32 (lnk u).val) :
    kres m c = fun _ => Cert.Spec.G (m ((c.tc : Thread nD τ).loc main_arg0)) (m ((c.tc : Thread nD τ).loc main_arg1))
      (m ((c.tc : Thread nD τ).loc main_arg2)) (m ((c.tc : Thread nD τ).loc main_arg3)) dst lnk := by
  have hN : cfg0.N = 64 := N_0
  -- a point's three addends are its tile's row statistics
  have hv : ∀ n : Fin 64, addVar m c n.val = ∑ p : Fin 256, Cert.Spec.varAt (m ((c.tc : Thread nD τ).loc main_arg0))
      (m ((c.tc : Thread nD τ).loc main_arg1)) (m ((c.tc : Thread nD τ).loc main_arg3)) dst lnk
      ⟨n.val * 256 + p.val, by have := n.isLt; have := p.isLt; omega⟩ := fun n => by
    have hn : n.val < cfg0.N := by rw [hN]; exact n.isLt
    unfold addVar addVarB
    rw [dif_pos hn]
    refine Finset.sum_congr rfl fun p _ => ?_
    rw [ltK_eq m c dst lnk hdst hlnk ⟨n.val, hn⟩ p, capK_eq m c ⟨n.val, hn⟩]
    rfl
  have hm : ∀ n : Fin 64, addMax m c n.val = ∑ p : Fin 256, Cert.Spec.maxAt (m ((c.tc : Thread nD τ).loc main_arg0))
      (m ((c.tc : Thread nD τ).loc main_arg1)) (m ((c.tc : Thread nD τ).loc main_arg3)) dst lnk
      ⟨n.val * 256 + p.val, by have := n.isLt; have := p.isLt; omega⟩ := fun n => by
    have hn : n.val < cfg0.N := by rw [hN]; exact n.isLt
    unfold addMax addMaxB
    rw [dif_pos hn]
    refine Finset.sum_congr rfl fun p _ => ?_
    rw [ltK_eq m c dst lnk hdst hlnk ⟨n.val, hn⟩ p, capK_eq m c ⟨n.val, hn⟩]
    rfl
  have hc : ∀ n : Fin 64, addCong m c n.val = ∑ p : Fin 256, Cert.Spec.congAt (m ((c.tc : Thread nD τ).loc main_arg0))
      (m ((c.tc : Thread nD τ).loc main_arg1)) (m ((c.tc : Thread nD τ).loc main_arg2)) dst lnk
      ⟨n.val * 256 + p.val, by have := n.isLt; have := p.isLt; omega⟩ := fun n => by
    have hn : n.val < cfg0.N := by rw [hN]; exact n.isLt
    unfold addCong addCongB
    rw [dif_pos hn]
    refine Finset.sum_congr rfl fun p _ => ?_
    rw [ltK_eq m c dst lnk hdst hlnk ⟨n.val, hn⟩ p, nlK_eq m c ⟨n.val, hn⟩ p]
    rfl
  funext _
  show Cert.Spec.combine (totVar m c 0 + totVar m c 1) (totMax m c 0 + totMax m c 1) (totCong m c 0 + totCong m c 1) = _
  unfold Cert.Spec.G totVar totMax totCong
  rw [sum_cores (addVar m c), sum_cores (addMax m c), sum_cores (addCong m c), sum_tiles, sum_tiles, sum_tiles]
  rw [Finset.sum_congr rfl fun n _ => hv n, Finset.sum_congr rfl fun n _ => hm n, Finset.sum_congr rfl fun n _ => hc n]

end Cert.KernelIdeal.KValue

end
-- ==== Proof.RLine.lean ====
import proofs.«409053_j76347338654269_3_alg».proof.Proof.Gen.ReferenceIdeal
import Idealize.ShloMosaic.Lib.StableHlo.Run

noncomputable section

namespace Cert.ReferenceIdeal.RValue.Line

open Idealize.ShloMosaic Idealize.ShloMosaic.TcCoe Idealize.SL.Sem Idealize.ShloMosaic.StableHlo
open Cert.ReferenceIdeal Cert.ReferenceIdeal.Gen

variable {F : FTy → Type} [FloatOps F]

/-- The first stretch, 27 operations: the two index vectors wrapped, the gather of the demands, the product with the split ratios, the scatter-add into the link buckets, the utilisation. -/
abbrev opsA : List (HloOp τ sig (Elt F)) :=
  [ StableHlo.nullary main_c (constantI S_ 32 0#32),
    StableHlo.unary main_c main_v0 (broadcastInDim S4088 ![] bcast_S_S4088 : (⟨S_, .i32⟩ : BufTy).Contents (Elt F) → (⟨S4088, .i32⟩ : BufTy).Contents (Elt F)),
    StableHlo.binary main_arg5 main_v0 main_v1 (cmpi .slt : (⟨S4088, .i32⟩ : BufTy).Contents (Elt F) → (⟨S4088, .i32⟩ : BufTy).Contents (Elt F) → (⟨S4088, .i1⟩ : BufTy).Contents (Elt F)),
    StableHlo.nullary main_c_0 (constantI S_ 32 511#32),
    StableHlo.unary main_c_0 main_v2 (broadcastInDim S4088 ![] bcast_S_S4088 : (⟨S_, .i32⟩ : BufTy).Contents (Elt F) → (⟨S4088, .i32⟩ : BufTy).Contents (Elt F)),
    StableHlo.binary main_arg5 main_v2 main_v3 (addi : (⟨S4088, .i32⟩ : BufTy).Contents (Elt F) → (⟨S4088, .i32⟩ : BufTy).Contents (Elt F) → (⟨S4088, .i32⟩ : BufTy).Contents (Elt F)),
    StableHlo.ternary main_v1 main_v3 main_arg5 main_v4 (select : (⟨S4088, .i1⟩ : BufTy).Contents (Elt F) → (⟨S4088, .i32⟩ : BufTy).Contents (Elt F) → (⟨S4088, .i32⟩ : BufTy).Contents (Elt F) → (⟨S4088, .i32⟩ : BufTy).Contents (Elt F)),
    StableHlo.unary main_v4 main_v5 (broadcastInDim S4088x1 ![0] bcast_S4088_S4088x1_0 : (⟨S4088, .i32⟩ : BufTy).Contents (Elt F) → (⟨S4088x1, .i32⟩ : BufTy).Contents (Elt F)),
    StableHlo.binary main_arg1 main_v5 main_v6 ((fun x i => Host.gather gather_S16384x511_S4088x1_S16384x4088_0_1_n_n_1_1_163841 x i) : (⟨S16384x511, .f32⟩ : BufTy).Contents (Elt F) → (⟨S4088x1, .i32⟩ : BufTy).Contents (Elt F) → (⟨S16384x4088, .f32⟩ : BufTy).Contents (Elt F)),
    StableHlo.binary main_arg0 main_v6 main_v7 (mulf : (⟨S16384x4088, .f32⟩ : BufTy).Contents (Elt F) → (⟨S16384x4088, .f32⟩ : BufTy).Contents (Elt F) → (⟨S16384x4088, .f32⟩ : BufTy).Contents (Elt F)),
    StableHlo.nullary main_cst (constant S_ .f32 0x00000000#32),
    StableHlo.unary main_cst main_v8 (broadcastInDim S16384x16 ![] bcast_S_S16384x16 : (⟨S_, .f32⟩ : BufTy).Contents (Elt F) → (⟨S16384x16, .f32⟩ : BufTy).Contents (Elt F)),
    StableHlo.nullary main_c_1 (constantI S_ 32 0#32),
    StableHlo.unary main_c_1 main_v9 (broadcastInDim S4088 ![] bcast_S_S4088 : (⟨S_, .i32⟩ : BufTy).Contents (Elt F) → (⟨S4088, .i32⟩ : BufTy).Contents (Elt F)),
    StableHlo.binary main_arg4 main_v9 main_v10 (cmpi .slt : (⟨S4088, .i32⟩ : BufTy).Contents (Elt F) → (⟨S4088, .i32⟩ : BufTy).Contents (Elt F) → (⟨S4088, .i1⟩ : BufTy).Contents (Elt F)),
    StableHlo.nullary main_c_2 (constantI S_ 32 16#32),
    StableHlo.unary main_c_2 main_v11 (broadcastInDim S4088 ![] bcast_S_S4088 : (⟨S_, .i32⟩ : BufTy).Contents (Elt F) → (⟨S4088, .i32⟩ : BufTy).Contents (Elt F)),
    StableHlo.binary main_arg4 main_v11 main_v12 (addi : (⟨S4088, .i32⟩ : BufTy).Contents (Elt F) → (⟨S4088, .i32⟩ : BufTy).Contents (Elt F) → (⟨S4088, .i32⟩ : BufTy).Contents (Elt F)),
    StableHlo.ternary main_v10 main_v12 main_arg4 main_v13 (select : (⟨S4088, .i1⟩ : BufTy).Contents (Elt F) → (⟨S4088, .i32⟩ : BufTy).Contents (Elt F) → (⟨S4088, .i32⟩ : BufTy).Contents (Elt F) → (⟨S4088, .i32⟩ : BufTy).Contents (Elt F)),
    StableHlo.unary main_v13 main_v14 (broadcastInDim S4088x1 ![0] bcast_S4088_S4088x1_0 : (⟨S4088, .i32⟩ : BufTy).Contents (Elt F) → (⟨S4088x1, .i32⟩ : BufTy).Contents (Elt F)),
    StableHlo.ternary main_v8 main_v14 main_v7 main_v15 ((fun x i u => Host.scatterAdd scatter_S16384x16_S4088x1_S16384x4088_0_1_1_1 x i u) : (⟨S16384x16, .f32⟩ : BufTy).Contents (Elt F) → (⟨S4088x1, .i32⟩ : BufTy).Contents (Elt F) → (⟨S16384x4088, .f32⟩ : BufTy).Contents (Elt F) → (⟨S16384x16, .f32⟩ : BufTy).Contents (Elt F)),
    StableHlo.unary main_arg3 main_v16 (broadcastInDim S1x16 ![1] bcast_S16_S1x16_1 : (⟨S16, .f32⟩ : BufTy).Contents (Elt F) → (⟨S1x16, .f32⟩ : BufTy).Contents (Elt F)),
    StableHlo.nullary main_cst_3 (constant S_ .f32 0x322BCC77#32),
    StableHlo.unary main_cst_3 main_v17 (broadcastInDim S1x16 ![] bcast_S_S1x16 : (⟨S_, .f32⟩ : BufTy).Contents (Elt F) → (⟨S1x16, .f32⟩ : BufTy).Contents (Elt F)),
    StableHlo.binary main_v16 main_v17 main_v18 (addf : (⟨S1x16, .f32⟩ : BufTy).Contents (Elt F) → (⟨S1x16, .f32⟩ : BufTy).Contents (Elt F) → (⟨S1x16, .f32⟩ : BufTy).Contents (Elt F)),
    StableHlo.unary main_v18 main_v19 (broadcastInDim S16384x16 ![0, 1] bcast_S1x16_S16384x16_0_1 : (⟨S1x16, .f32⟩ : BufTy).Contents (Elt F) → (⟨S16384x16, .f32⟩ : BufTy).Contents (Elt F)),
    StableHlo.binary main_v15 main_v19 main_v20 (Host.divf : (⟨S16384x16, .f32⟩ : BufTy).Contents (Elt F) → (⟨S16384x16, .f32⟩ : BufTy).Contents (Elt F) → (⟨S16384x16, .f32⟩ : BufTy).Contents (Elt F)) ]

/-- The second stretch, 23 operations: the integer one, then the unbiased variance along the links (the outlined helper's nineteen operations and its `where`'s three, over the call's own buffers). -/
abbrev opsB : List (HloOp τ sig (Elt F)) :=
  [ StableHlo.nullary main_c_4 (constantI S_ 32 1#32),
    StableHlo.TRef.nullary main_call0.cst (constant S_ .f32 0x00000000#32),
    StableHlo.TRef.binary (.of main_v20 : StableHlo.TRef sig ⟨S16384x16, .f32⟩) main_call0.cst main_call0.v0 (fun x v => Host.reduceAdd x v reducesTo_S16384x16_S16384_d1 h_S_),
    StableHlo.TRef.unary main_call0.v0 main_call0.v1 (broadcastInDim S16384x1 ![0] bcast_S16384_S16384x1_0),
    StableHlo.TRef.nullary main_call0.cst_0 (constant S_ .f32 0x41800000#32),
    StableHlo.TRef.unary main_call0.cst_0 main_call0.v2 (broadcastInDim S16384x1 ![] bcast_S_S16384x1),
    StableHlo.TRef.binary main_call0.v1 main_call0.v2 main_call0.v3 Host.divf,
    StableHlo.TRef.unary main_call0.v3 main_call0.v4 (broadcastInDim S16384x16 ![0, 1] bcast_S16384x1_S16384x16_0_1),
    StableHlo.TRef.binary (.of main_v20 : StableHlo.TRef sig ⟨S16384x16, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x41800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16384x16_S16384_d1 h_S_),
    StableHlo.TRef.unary main_call0.v8 main_call0.v10 (broadcastInDim S16384 ![] bcast_S_S16384),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16384 ![] bcast_S_S16384),
    StableHlo.TRef.ternary main_call0.v12 main_call0.v11 main_call0.call0.v1 main_call0.call0.v2 (fun p a b => select (broadcastInDim S16384 ![] bcast_S_S16384 p) a b) ]

/-- The third stretch, 31 operations: the batch mean of the variances, the row maxima and their batch mean, the two row normalisations, their product's row sums and the batch sum of those. -/
abbrev opsC : List (HloOp τ sig (Elt F)) :=
  [ StableHlo.nullary main_cst_5 (constant S_ .f32 0x00000000#32),
    StableHlo.binary main_v21 main_cst_5 main_v22 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_6 (constant S_ .f32 0x46800000#32),
    StableHlo.binary main_v22 main_cst_6 main_v23 (Host.divf : (⟨S_, .f32⟩ : BufTy).Contents (Elt F) → (⟨S_, .f32⟩ : BufTy).Contents (Elt F) → (⟨S_, .f32⟩ : BufTy).Contents (Elt F)),
    StableHlo.nullary main_cst_7 (constant S_ .f32 0xFF800000#32),
    StableHlo.binary main_v20 main_cst_7 main_v24 ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)),
    StableHlo.nullary main_cst_8 (constant S_ .f32 0x00000000#32),
    StableHlo.binary main_v24 main_cst_8 main_v25 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_9 (constant S_ .f32 0x46800000#32),
    StableHlo.binary main_v25 main_cst_9 main_v26 (Host.divf : (⟨S_, .f32⟩ : BufTy).Contents (Elt F) → (⟨S_, .f32⟩ : BufTy).Contents (Elt F) → (⟨S_, .f32⟩ : BufTy).Contents (Elt F)),
    StableHlo.nullary main_cst_10 (constant S_ .f32 0x00000000#32),
    StableHlo.binary main_arg2 main_cst_10 main_v27 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    StableHlo.unary main_v27 main_v28 (broadcastInDim S16384x1 ![0] bcast_S16384_S16384x1_0 : (⟨S16384, .f32⟩ : BufTy).Contents (Elt F) → (⟨S16384x1, .f32⟩ : BufTy).Contents (Elt F)),
    StableHlo.nullary main_cst_11 (constant S_ .f32 0x322BCC77#32),
    StableHlo.unary main_cst_11 main_v29 (broadcastInDim S16384x1 ![] bcast_S_S16384x1 : (⟨S_, .f32⟩ : BufTy).Contents (Elt F) → (⟨S16384x1, .f32⟩ : BufTy).Contents (Elt F)),
    StableHlo.binary main_v28 main_v29 main_v30 (addf : (⟨S16384x1, .f32⟩ : BufTy).Contents (Elt F) → (⟨S16384x1, .f32⟩ : BufTy).Contents (Elt F) → (⟨S16384x1, .f32⟩ : BufTy).Contents (Elt F)),
    StableHlo.unary main_v30 main_v31 (broadcastInDim S16384x16 ![0, 1] bcast_S16384x1_S16384x16_0_1 : (⟨S16384x1, .f32⟩ : BufTy).Contents (Elt F) → (⟨S16384x16, .f32⟩ : BufTy).Contents (Elt F)),
    StableHlo.binary main_arg2 main_v31 main_v32 (Host.divf : (⟨S16384x16, .f32⟩ : BufTy).Contents (Elt F) → (⟨S16384x16, .f32⟩ : BufTy).Contents (Elt F) → (⟨S16384x16, .f32⟩ : BufTy).Contents (Elt F)),
    StableHlo.nullary main_cst_12 (constant S_ .f32 0x00000000#32),
    StableHlo.binary main_v15 main_cst_12 main_v33 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    StableHlo.unary main_v33 main_v34 (broadcastInDim S16384x1 ![0] bcast_S16384_S16384x1_0 : (⟨S16384, .f32⟩ : BufTy).Contents (Elt F) → (⟨S16384x1, .f32⟩ : BufTy).Contents (Elt F)),
    StableHlo.nullary main_cst_13 (constant S_ .f32 0x322BCC77#32),
    StableHlo.unary main_cst_13 main_v35 (broadcastInDim S16384x1 ![] bcast_S_S16384x1 : (⟨S_, .f32⟩ : BufTy).Contents (Elt F) → (⟨S16384x1, .f32⟩ : BufTy).Contents (Elt F)),
    StableHlo.binary main_v34 main_v35 main_v36 (addf : (⟨S16384x1, .f32⟩ : BufTy).Contents (Elt F) → (⟨S16384x1, .f32⟩ : BufTy).Contents (Elt F) → (⟨S16384x1, .f32⟩ : BufTy).Contents (Elt F)),
    StableHlo.unary main_v36 main_v37 (broadcastInDim S16384x16 ![0, 1] bcast_S16384x1_S16384x16_0_1 : (⟨S16384x1, .f32⟩ : BufTy).Contents (Elt F) → (⟨S16384x16, .f32⟩ : BufTy).Contents (Elt F)),
    StableHlo.binary main_v15 main_v37 main_v38 (Host.divf : (⟨S16384x16, .f32⟩ : BufTy).Contents (Elt F) → (⟨S16384x16, .f32⟩ : BufTy).Contents (Elt F) → (⟨S16384x16, .f32⟩ : BufTy).Contents (Elt F)),
    StableHlo.binary main_v38 main_v32 main_v39 (mulf : (⟨S16384x16, .f32⟩ : BufTy).Contents (Elt F) → (⟨S16384x16, .f32⟩ : BufTy).Contents (Elt F) → (⟨S16384x16, .f32⟩ : BufTy).Contents (Elt F)),
    StableHlo.nullary main_cst_14 (constant S_ .f32 0x00000000#32),
    StableHlo.binary main_v39 main_cst_14 main_v40 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    StableHlo.nullary main_cst_15 (constant S_ .f32 0x00000000#32),
    StableHlo.binary main_v40 main_cst_15 main_v41 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)) ]

/-- The last stretch, 8 operations: the third mean and the weighted sum of the three. -/
abbrev opsD : List (HloOp τ sig (Elt F)) :=
  [ StableHlo.nullary main_cst_16 (constant S_ .f32 0x46800000#32),
    StableHlo.binary main_v41 main_cst_16 main_v42 (Host.divf : (⟨S_, .f32⟩ : BufTy).Contents (Elt F) → (⟨S_, .f32⟩ : BufTy).Contents (Elt F) → (⟨S_, .f32⟩ : BufTy).Contents (Elt F)),
    StableHlo.nullary main_cst_17 (constant S_ .f32 0x3F000000#32),
    StableHlo.binary main_cst_17 main_v26 main_v43 (mulf : (⟨S_, .f32⟩ : BufTy).Contents (Elt F) → (⟨S_, .f32⟩ : BufTy).Contents (Elt F) → (⟨S_, .f32⟩ : BufTy).Contents (Elt F)),
    StableHlo.binary main_v23 main_v43 main_v44 (addf : (⟨S_, .f32⟩ : BufTy).Contents (Elt F) → (⟨S_, .f32⟩ : BufTy).Contents (Elt F) → (⟨S_, .f32⟩ : BufTy).Contents (Elt F)),
    StableHlo.nullary main_cst_18 (constant S_ .f32 0x3E99999A#32),
    StableHlo.binary main_cst_18 main_v42 main_v45 (mulf : (⟨S_, .f32⟩ : BufTy).Contents (Elt F) → (⟨S_, .f32⟩ : BufTy).Contents (Elt F) → (⟨S_, .f32⟩ : BufTy).Contents (Elt F)),
    StableHlo.binary main_v44 main_v45 main_v46 (addf : (⟨S_, .f32⟩ : BufTy).Contents (Elt F) → (⟨S_, .f32⟩ : BufTy).Contents (Elt F) → (⟨S_, .f32⟩ : BufTy).Contents (Elt F)) ]

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., nullary_bufs_sub .., unary_bufs_sub .., binary_bufs_sub .., unary_bufs_sub .., binary_bufs_sub ..⟩
/-- The buffers the stretch writes. -/
abbrev opsA_W : List (Ref sig .tc) := [main_c, main_v0, main_v1, main_c_0, main_v2, main_v3, main_v4, main_v5, main_v6, main_v7, main_cst, main_v8, main_c_1, main_v9, main_v10, main_c_2, main_v11, main_v12, main_v13, main_v14, main_v15, main_v16, main_cst_3, main_v17, main_v18, main_v19, main_v20]
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

theorem opsB_sub : (opsB : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
/-- The buffers the stretch writes. -/
abbrev opsB_W : List (Ref sig .tc) := [main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v21]
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

theorem opsC_sub : (opsC : List (HloOp τ sig (Elt F))).Forall fun op => op.bufs ⊆ tcRefs τ sig :=
  ⟨nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., nullary_bufs_sub .., binary_bufs_sub ..⟩
/-- The buffers the stretch writes. -/
abbrev opsC_W : List (Ref sig .tc) := [main_cst_5, main_v22, main_cst_6, main_v23, main_cst_7, main_v24, main_cst_8, main_v25, main_cst_9, main_v26, main_cst_10, main_v27, main_v28, main_cst_11, main_v29, main_v30, main_v31, main_v32, main_cst_12, main_v33, main_v34, main_cst_13, main_v35, main_v36, main_v37, main_v38, main_v39, main_cst_14, main_v40, main_cst_15, main_v41]
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

theorem opsD_sub : (opsD : List (HloOp τ sig (Elt F))).Forall fun op => op.bufs ⊆ tcRefs τ sig :=
  ⟨nullary_bufs_sub .., binary_bufs_sub .., nullary_bufs_sub .., binary_bufs_sub .., binary_bufs_sub .., nullary_bufs_sub .., binary_bufs_sub .., binary_bufs_sub ..⟩
/-- The buffers the stretch writes. -/
abbrev opsD_W : List (Ref sig .tc) := [main_cst_16, main_v42, main_cst_17, main_v43, main_v44, main_cst_18, main_v45, main_v46]
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

end Cert.ReferenceIdeal.RValue.Line

end
-- ==== Proof.RDefs.lean ====
/-
  The reference's result as one pure term of its six arguments: the operations of its straight line, composed
  in order (the two outlined helpers, the unbiased variance and its `where`, opened at their call sites).
-/
import proofs.«409053_j76347338654269_3_alg».proof.ReferenceIdeal
import Idealize.ShloMosaic.PureOps.Ideal

noncomputable section

namespace Cert.ReferenceIdeal.RValue

open Idealize.ShloMosaic Idealize.SL.Sem
open Cert.ReferenceIdeal Cert.ReferenceIdeal.Facts₀ Cert.ReferenceIdeal.Facts

variable {F : FTy → Type} [FloatOps F] [Cert.ReferenceIdeal.Facts]

/-- A signed index vector with its negative entries wrapped by the axis length `n`. -/
def wrapIdx (n : BitVec 32) (a : IVec S4088 32) : IVec S4088 32 :=
  select (cmpi .slt a (broadcastInDim S4088 ![] bcast_S_S4088 (constantI S_ 32 0#32)))
    (addi a (broadcastInDim S4088 ![] bcast_S_S4088 (constantI S_ 32 n))) a

/-- Tunnel traffic scattered into link buckets: the gather of the demands, the product, the scatter-add into zeros. -/
def linkTraffic (a0 : FVec F S16384x4088 .f32) (a1 : FVec F S16384x511 .f32) (a4 a5 : IVec S4088 32) : FVec F S16384x16 .f32 :=
  Host.scatterAdd scatter_S16384x16_S4088x1_S16384x4088_0_1_1_1
    (broadcastInDim S16384x16 ![] bcast_S_S16384x16 (constant S_ .f32 0x00000000#32))
    (broadcastInDim S4088x1 ![0] bcast_S4088_S4088x1_0 (wrapIdx 16#32 a4))
    (mulf a0 (Host.gather gather_S16384x511_S4088x1_S16384x4088_0_1_n_n_1_1_163841 a1
      (broadcastInDim S4088x1 ![0] bcast_S4088_S4088x1_0 (wrapIdx 511#32 a5))))

/-- Link utilisation: traffic over capacity plus ε. -/
def linkUtil (t : FVec F S16384x16 .f32) (a3 : FVec F S16 .f32) : FVec F S16384x16 .f32 :=
  Host.divf t (broadcastInDim S16384x16 ![0, 1] bcast_S1x16_S16384x16_0_1
    (addf (broadcastInDim S1x16 ![1] bcast_S16_S1x16_1 a3)
      (broadcastInDim S1x16 ![] bcast_S_S1x16 (constant S_ .f32 0x322BCC77#32))))

/-- The unbiased variance along the links, as jnp.var(ddof=1) lowers: the helper and its `where`. -/
def varRows (u : FVec F S16384x16 .f32) : FVec F S16384 .f32 :=
  let z : FVec F S_ .f32 := constant S_ .f32 0x00000000#32
  let mean : FVec F S16384x1 .f32 := Host.divf (broadcastInDim S16384x1 ![0] bcast_S16384_S16384x1_0
      (Host.reduceAdd u z reducesTo_S16384x16_S16384_d1 h_S_))
    (broadcastInDim S16384x1 ![] bcast_S_S16384x1 (constant S_ .f32 0x41800000#32))
  let dv : FVec F S16384x16 .f32 := subf u (broadcastInDim S16384x16 ![0, 1] bcast_S16384x1_S16384x16_0_1 mean)
  let dof : FVec F S_ .f32 := subf (constant S_ .f32 0x41800000#32) (sitofp .f32 (constantI S_ 32 1#32))
  let q : FVec F S16384 .f32 := Host.divf (Host.reduceAdd (mulf dv dv) z reducesTo_S16384x16_S16384_d1 h_S_)
    (broadcastInDim S16384 ![] bcast_S_S16384 dof)
  select (broadcastInDim S16384 ![] bcast_S_S16384 (cmpf .ogt dof z)) q
    (broadcastInDim S16384 ![] bcast_S_S16384 (id (constant S_ .f32 0x7FC00000#32)))

/-- A batch mean: the sum over the 16384 rows from zero, over 16384. -/
def batchMean (x : FVec F S16384 .f32) : FVec F S_ .f32 :=
  Host.divf (Host.reduceAdd x (constant S_ .f32 0x00000000#32) reducesTo_S16384_S_d0 h_S_) (constant S_ .f32 0x46800000#32)

/-- The rows' maxima along the links, from −∞. -/
def maxRows (u : FVec F S16384x16 .f32) : FVec F S16384 .f32 :=
  Host.reduce FloatOps.maximumf u (constant S_ .f32 0xFF800000#32) reducesTo_S16384x16_S16384_d1 h_S_

/-- A [B, 16] array normalised by its row sums plus ε. -/
def rowNorm (x : FVec F S16384x16 .f32) : FVec F S16384x16 .f32 :=
  Host.divf x (broadcastInDim S16384x16 ![0, 1] bcast_S16384x1_S16384x16_0_1
    (addf (broadcastInDim S16384x1 ![0] bcast_S16384_S16384x1_0
        (Host.reduceAdd x (constant S_ .f32 0x00000000#32) reducesTo_S16384x16_S16384_d1 h_S_))
      (broadcastInDim S16384x1 ![] bcast_S_S16384x1 (constant S_ .f32 0x322BCC77#32))))

/-- The rows' congestion overlaps. -/
def congRows (t a2 : FVec F S16384x16 .f32) : FVec F S16384 .f32 :=
  Host.reduceAdd (mulf (rowNorm t) (rowNorm a2)) (constant S_ .f32 0x00000000#32) reducesTo_S16384x16_S16384_d1 h_S_

/-- The reference's result. -/
def rterm (a0 : FVec F S16384x4088 .f32) (a1 : FVec F S16384x511 .f32) (a2 : FVec F S16384x16 .f32) (a3 : FVec F S16 .f32)
    (a4 a5 : IVec S4088 32) : FVec F S_ .f32 :=
  addf (addf (batchMean (varRows (linkUtil (linkTraffic a0 a1 a4 a5) a3)))
      (mulf (constant S_ .f32 0x3F000000#32) (batchMean (maxRows (linkUtil (linkTraffic a0 a1 a4 a5) a3)))))
    (mulf (constant S_ .f32 0x3E99999A#32) (batchMean (congRows (linkTraffic a0 a1 a4 a5) a2)))

end Cert.ReferenceIdeal.RValue

end
-- ==== Proof.RRun.lean ====
/-
  The reference program's run. Its @main, with the two outlined helpers opened at their call sites, is one straight
  line of 89 host operations, cut into four stretches (the lists of the module imported first): the link traffic and
  utilisation, the unbiased variance, the three batch reductions, the final combination. Every weakly fair execution
  ends with the result buffer at the composed term `rterm` of the six arguments, and the arguments unchanged.
-/
import proofs.«409053_j76347338654269_3_alg».proof.Proof.RLine
import proofs.«409053_j76347338654269_3_alg».proof.Proof.RDefs
import proofs.«409053_j76347338654269_3_alg».proof.Proof.Gen.ReferenceIdeal
import Idealize.ShloMosaic.Lib.StableHlo.Run
import Idealize.ShloMosaic.Lib.ValueIdx

noncomputable section

namespace Cert.ReferenceIdeal.RValue

open Idealize.ShloMosaic Idealize.ShloMosaic.TcCoe Idealize.SL.Sem Idealize.ShloMosaic.ValueIdx
open Cert.ReferenceIdeal Cert.ReferenceIdeal.Gen

variable {F : FTy → Type} [FloatOps F]

namespace Line

open Idealize.ShloMosaic.StableHlo

/-- @main's 89 operations, in order: the four stretches one after the other. -/
abbrev ops : List (HloOp τ sig (Elt F)) := opsA ++ (opsB ++ (opsC ++ opsD))

/-! Each stretch determines its results, and leaves alone every buffer it does not write. -/

theorem opsA_fresh : ∀ op ∈ (opsA : List (HloOp τ sig (Elt F))), op.fresh = ∅ := by
  intro _ h; (repeat (cases h with | head => rfl | tail _ h => ?_)); exact nomatch h
/-- A buffer the stretch does not write keeps its contents through it. -/
theorem opsA_keep (V : Valuation τ sig (Elt F)) (r : Ref sig .tc) (h : r ∉ opsA_W) :
    after opsA V (Proc.devRef .tc r) = V (Proc.devRef .tc r) :=
  after_of_writes_sub opsA V opsA_writes h

theorem opsB_fresh : ∀ op ∈ (opsB : List (HloOp τ sig (Elt F))), op.fresh = ∅ := by
  intro _ h; (repeat (cases h with | head => rfl | tail _ h => ?_)); exact nomatch h
/-- A buffer the stretch does not write keeps its contents through it. -/
theorem opsB_keep (V : Valuation τ sig (Elt F)) (r : Ref sig .tc) (h : r ∉ opsB_W) :
    after opsB V (Proc.devRef .tc r) = V (Proc.devRef .tc r) :=
  after_of_writes_sub opsB V opsB_writes h

theorem opsC_fresh : ∀ op ∈ (opsC : List (HloOp τ sig (Elt F))), op.fresh = ∅ := by
  intro _ h; (repeat (cases h with | head => rfl | tail _ h => ?_)); exact nomatch h
/-- A buffer the stretch does not write keeps its contents through it. -/
theorem opsC_keep (V : Valuation τ sig (Elt F)) (r : Ref sig .tc) (h : r ∉ opsC_W) :
    after opsC V (Proc.devRef .tc r) = V (Proc.devRef .tc r) :=
  after_of_writes_sub opsC V opsC_writes h

theorem opsD_fresh : ∀ op ∈ (opsD : List (HloOp τ sig (Elt F))), op.fresh = ∅ := by
  intro _ h; (repeat (cases h with | head => rfl | tail _ h => ?_)); exact nomatch h
/-- A buffer the stretch does not write keeps its contents through it. -/
theorem opsD_keep (V : Valuation τ sig (Elt F)) (r : Ref sig .tc) (h : r ∉ opsD_W) :
    after opsD V (Proc.devRef .tc r) = V (Proc.devRef .tc r) :=
  after_of_writes_sub opsD V opsD_writes h

-- eighty-nine sequenced steps to re-associate, one level of recursion each
set_option maxRecDepth 8192 in
set_option maxHeartbeats 4000000 in
/-- @main is that straight line: the helpers' definitions unfolded at their calls and the call records at their fields,
    both sides are one chain of host steps once sequencing is re-associated. -/
theorem main_eq (c : Dev nD) : main (F := F) c = seq ops := by
  simp only [main, main_part0, main_part1, fn_var.body, fn_where.body, ops, opsA, opsB, opsC, opsD, seq_append, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp opsA_sub op h, List.forall_iff_forall_mem.mp opsB_sub op h,
      List.forall_iff_forall_mem.mp opsC_sub op h, List.forall_iff_forall_mem.mp opsD_sub op h]

theorem ops_fresh : ∀ op ∈ (ops : List (HloOp τ sig (Elt F))), op.fresh = ∅ := by
  intro op h
  simp only [ops, List.mem_append] at h
  rcases h with h | h | h | h
  exacts [opsA_fresh op h, opsB_fresh op h, opsC_fresh op h, opsD_fresh op h]

/-- The contents after two stretches run one after the other. -/
theorem after_app (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

attribute [local irreducible] Host.gather Host.scatterAdd Host.reduce Host.reduceAdd

/-- After the first stretch the scatter's result is the link traffic of the arguments. -/
theorem A_v15 (V : Valuation τ sig (Elt F)) :
    after opsA V (Proc.devRef .tc main_v15)
      = linkTraffic (V (Proc.devRef .tc main_arg0)) (V (Proc.devRef .tc main_arg1)) (V (Proc.devRef .tc main_arg4)) (V (Proc.devRef .tc main_arg5)) := by
  after_results_simp
  rfl

/-- After the first stretch the quotient is the utilisation of that traffic. -/
theorem A_v20 (V : Valuation τ sig (Elt F)) :
    after opsA V (Proc.devRef .tc main_v20)
      = linkUtil (linkTraffic (V (Proc.devRef .tc main_arg0)) (V (Proc.devRef .tc main_arg1)) (V (Proc.devRef .tc main_arg4)) (V (Proc.devRef .tc main_arg5)))
          (V (Proc.devRef .tc main_arg3)) := by
  after_results_simp
  rfl

/-- The second stretch leaves the rows' unbiased variances of what it found as the utilisation. -/
theorem B_v21 (W : Valuation τ sig (Elt F)) :
    after opsB W (Proc.devRef .tc main_v21) = varRows (W (Proc.devRef .tc main_v20)) := by
  after_results_simp
  all_goals (try simp only [TRef.ofBuf, TRef.toBuf, cast_eq])
  all_goals rfl

/-- The third stretch: the batch mean of the variances it found. -/
theorem C_v23 (X : Valuation τ sig (Elt F)) :
    after opsC X (Proc.devRef .tc main_v23) = batchMean (X (Proc.devRef .tc main_v21)) := by
  after_results_simp
  rfl

/-- The third stretch: the batch mean of the row maxima of the utilisation it found. -/
theorem C_v26 (X : Valuation τ sig (Elt F)) :
    after opsC X (Proc.devRef .tc main_v26) = batchMean (maxRows (X (Proc.devRef .tc main_v20))) := by
  after_results_simp
  rfl

/-- The third stretch: the batch sum of the congestion overlaps of the traffic it found with the neighbours' loads. -/
theorem C_v41 (X : Valuation τ sig (Elt F)) :
    after opsC X (Proc.devRef .tc main_v41)
      = Host.reduceAdd (congRows (X (Proc.devRef .tc main_v15)) (X (Proc.devRef .tc main_arg2))) (constant S_ .f32 0x00000000#32)
          reducesTo_S16384_S_d0 h_S_ := by
  after_results_simp
  rfl

/-- The last stretch: the third mean and the weighted sum. -/
theorem D_v46 (Y : Valuation τ sig (Elt F)) :
    after opsD Y (Proc.devRef .tc main_v46)
      = addf (addf (Y (Proc.devRef .tc main_v23)) (mulf (constant S_ .f32 0x3F000000#32) (Y (Proc.devRef .tc main_v26))))
          (mulf (constant S_ .f32 0x3E99999A#32) (Host.divf (Y (Proc.devRef .tc main_v41)) (constant S_ .f32 0x46800000#32))) := by
  after_results_simp

/-- The whole line leaves the result buffer at the composed term of the six arguments. -/
theorem ops_v46 (V : Valuation τ sig (Elt F)) :
    after ops V (Proc.devRef .tc main_v46)
      = rterm (V (Proc.devRef .tc main_arg0)) (V (Proc.devRef .tc main_arg1)) (V (Proc.devRef .tc main_arg2)) (V (Proc.devRef .tc main_arg3))
          (V (Proc.devRef .tc main_arg4)) (V (Proc.devRef .tc main_arg5)) := by
  simp only [ops, after_app]
  rw [D_v46, C_v23, C_v26, C_v41, B_v21, opsB_keep _ main_v20 (by decide), opsB_keep _ main_v15 (by decide),
    opsB_keep _ main_arg2 (by decide), A_v20, A_v15, opsA_keep _ main_arg2 (by decide)]
  rfl

/-- No operation of the line writes an argument. -/
theorem ops_keep (V : Valuation τ sig (Elt F)) (r : Ref sig .tc)
    (hA : r ∉ opsA_W) (hB : r ∉ opsB_W) (hC : r ∉ opsC_W) (hD : r ∉ opsD_W) :
    after ops V (Proc.devRef .tc r) = V (Proc.devRef .tc r) := by
  simp only [ops, after_app]
  rw [opsD_keep _ r hD, opsC_keep _ r hC, opsB_keep _ r hB, opsA_keep _ r hA]

end Line

/-- Every weakly fair execution of the reference ends with the result at `rterm` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
        = rterm (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  exact (θ_run defs _ _).mono (fun _ h c => ⟨(h c main_v46).trans (Line.ops_v46 _),
      (h c main_arg0).trans (Line.ops_keep _ main_arg0 (by decide) (by decide) (by decide) (by decide)),
      (h c main_arg1).trans (Line.ops_keep _ main_arg1 (by decide) (by decide) (by decide) (by decide)),
      (h c main_arg2).trans (Line.ops_keep _ main_arg2 (by decide) (by decide) (by decide) (by decide)),
      (h c main_arg3).trans (Line.ops_keep _ main_arg3 (by decide) (by decide) (by decide) (by decide)),
      (h c main_arg4).trans (Line.ops_keep _ main_arg4 (by decide) (by decide) (by decide) (by decide)),
      (h c main_arg5).trans (Line.ops_keep _ main_arg5 (by decide) (by decide) (by decide) (by decide))⟩)
    (StableHlo.run_seq Line.scopedRefs_eq Line.scopedSems_eq defs main (fun _ => Line.ops) Line.main_eq (fun _ => Line.ops_sub) m ρ
      (fun _ => Line.ops_fresh))

end Cert.ReferenceIdeal.RValue

end
-- ==== Proof.RStats.lean ====
/-
  The reference's row stages read at an index, over the extended reals: the utilisation at (r, l) is the traffic over
  the capacity plus ε; the variance stage at row r is the sum of squared deviations from the row mean over 16 − 1 = 15
  (the guard 15 > 0 holds, so the quotient is what is returned); the maximum stage is the fold of max from −∞ over the
  16 links; the congestion stage is the sum of products of the two row-normalised entries; and a batch mean is the
  plain sum over the 16384 rows divided by 16384.
-/
import proofs.«409053_j76347338654269_3_alg».proof.Proof.RDefs
import proofs.«409053_j76347338654269_3_alg».proof.Proof.Gen.ReferenceIdeal
import proofs.«409053_j76347338654269_3_alg».proof.Proof.Spec
import Idealize.ShloMosaic.PureOps.Ideal.Laws
import Idealize.ShloMosaic.Lib.ValueIdx
import Idealize.ShloMosaic.Lib.Pipeline.Value
import Idealize.ShloMosaic.Lib.IdealHost
import Idealize.ShloMosaic.Lib.ValueIdxRank1

noncomputable section

namespace Cert.ReferenceIdeal.RValue

open Idealize.ShloMosaic Idealize.ShloMosaic.TcCoe Idealize.SL.Sem Idealize.ShloMosaic.ValueIdx
open Cert.ReferenceIdeal Cert.ReferenceIdeal.Gen

/-- The word 0x41800000 denotes 16. -/
theorem ofBits_16 : Ideal.ofBits .f32 0x41800000#32 = ((16 : ℝ) : EReal) := by
  simp [Ideal.ofBits, Ideal.ieee, -EReal.coe_mul]; norm_num

/-- The word 0x41700000 denotes 15. -/
theorem ofBits_15 : Ideal.ofBits .f32 0x41700000#32 = ((15 : ℝ) : EReal) := by
  simp [Ideal.ofBits, Ideal.ieee, -EReal.coe_mul]; norm_num

/-- The degrees of freedom: 16 minus the integer 1 read as a real is 15. -/
theorem dof_eq : (subf (constant S_ .f32 0x41800000#32) (sitofp .f32 (constantI S_ 32 1#32)) : FVec Ideal S_ .f32) ix0
    = Ideal.ofBits .f32 0x41700000#32 := by
  rw [subf_apply, constant_apply, sitofp_apply]
  show Ideal.ofBits .f32 0x41800000#32 - (((1#32 : BitVec 32).toInt : ℝ) : EReal) = _
  have h1 : (1#32 : BitVec 32).toInt = 1 := by decide
  rw [ofBits_16, ofBits_15, h1, Int.cast_one, ← EReal.coe_sub]
  norm_num

/-- 15 is above zero, so the comparison of the degrees of freedom with zero holds. -/
theorem dof_pos : FloatOps.cmpf .ogt (Ideal.ofBits .f32 0x41700000#32 : Ideal .f32)
    ((constant S_ .f32 0x00000000#32 : FVec Ideal S_ .f32) ix0) = 1#1 := by
  have h : (0 : EReal) < Ideal.ofBits .f32 0x41700000#32 := by
    rw [ofBits_15]; exact EReal.coe_pos.mpr (by norm_num)
  rw [constant_apply, Ideal.ofBits_zero_f32, Ideal.cmpf_def]
  show BitVec.ofBool (decide ((0 : EReal) < Ideal.ofBits .f32 0x41700000#32)) = 1#1
  rw [decide_eq_true h]; rfl

/-- A host sum along the links from zero, read at row r: the plain sum over the 16 links. -/
theorem rowSum_apply (x : FVec Ideal S16384x16 .f32) (h' : S16384x16.ReducesTo [1] S16384) (hu : 0 < S_.numel) (r : Fin 16384) :
    Host.reduceAdd x (constant S_ .f32 0x00000000#32) h' hu (ix1 r) = ∑ l : Fin 16, x (ix2 r l) := by
  rw [hostReduceAdd_apply, Ideal.hostReduceAdd_single h' (by decide : S16384x16.Reduces [1] S16384), constant_apply,
    Ideal.ofBits_zero_f32, zero_add]
  refine Finset.sum_congr rfl fun k _ => congrArg x ?_
  funext a; match a with | ⟨0, _⟩ => rfl | ⟨1, _⟩ => rfl

/-- A per-row scalar spread along the links reads the row's entry: the [B] vector as a [B, 1] column, then as [B, 16]. -/
theorem colSpread_apply (c : FVec Ideal S16384x1 .f32) (r : Fin 16384) (l : Fin 16) :
    broadcastInDim S16384x16 ![0, 1] bcast_S16384x1_S16384x16_0_1 c (ix2 r l) = c (ix2 r (0 : Fin 1)) :=
  broadcastInDim_apply _ _ _ (ix2 r l) (ix2 r (0 : Fin 1)) (fun a => match a with | ⟨0, _⟩ => rfl | ⟨1, _⟩ => rfl)

theorem col_apply (v : FVec Ideal S16384 .f32) (r : Fin 16384) :
    broadcastInDim S16384x1 ![0] bcast_S16384_S16384x1_0 v (ix2 r (0 : Fin 1)) = v (ix1 r) :=
  broadcastInDim_apply _ _ _ (ix2 r (0 : Fin 1)) (ix1 r) (fun a => match a with | ⟨0, _⟩ => rfl)

/-- Utilisation at (r, l): the traffic over the capacity plus ε. -/
theorem linkUtil_apply (t : FVec Ideal S16384x16 .f32) (a3 : FVec Ideal S16 .f32) (r : Fin 16384) (l : Fin 16) :
    linkUtil (F := Ideal) t a3 (ix2 r l) = Cert.Spec.util (fun k => t (ix2 r k)) (Cert.Spec.capRow a3) l := by
  unfold linkUtil Cert.Spec.util Cert.Spec.capRow
  rw [hostDivf_apply]
  rw [broadcastInDim_apply _ _ _ (ix2 r l) (ix2 (0 : Fin 1) l)
    (fun a => match a with | ⟨0, _⟩ => rfl | ⟨1, _⟩ => rfl)]
  rw [addf_apply]
  rw [broadcastInDim_apply _ _ _ (ix2 (0 : Fin 1) l) (ix1 l) (fun a => match a with | ⟨0, _⟩ => rfl)]
  rw [broadcastInDim_scalar_apply, constant_apply]

/-- The variance stage at row r. -/
theorem varRows_apply (u : FVec Ideal S16384x16 .f32) (r : Fin 16384) :
    varRows (F := Ideal) u (ix1 r) = Cert.Spec.rowVar (fun l => u (ix2 r l)) := by
  unfold varRows Cert.Spec.rowVar
  dsimp only
  rw [select_apply, broadcastInDim_scalar_apply, cmpf_apply, dof_eq, dof_pos, select_one]
  rw [hostDivf_apply, broadcastInDim_scalar_apply, dof_eq, rowSum_apply]
  refine congrArg (fun s => Ideal.div s _) ?_
  refine Finset.sum_congr rfl fun l _ => ?_
  rw [mulf_apply, subf_apply, colSpread_apply, hostDivf_apply, col_apply, rowSum_apply, broadcastInDim_scalar_apply,
    constant_apply]

/-- The maximum stage at row r. -/
theorem maxRows_apply (u : FVec Ideal S16384x16 .f32) (r : Fin 16384) :
    maxRows (F := Ideal) u (ix1 r) = Cert.Spec.rowMax (fun l => u (ix2 r l)) := by
  unfold maxRows Cert.Spec.rowMax
  rw [Host.reduce_eq_fold_single FloatOps.maximumf u _ _ (by decide : S16384x16.Reduces [1] S16384) _ (ix1 r)]
  have hf : (u ∘ (by decide : S16384x16.Reduces [1] S16384).lift (ix1 r)) = fun l : Fin 16 => u (ix2 r l) :=
    funext fun k => congrArg u (funext fun a => match a with | ⟨0, _⟩ => rfl | ⟨1, _⟩ => rfl)
  rw [hf]
  rfl

/-- The normalised array at (r, l): the entry over the row's sum plus ε. -/
theorem rowNorm_apply (x : FVec Ideal S16384x16 .f32) (r : Fin 16384) (l : Fin 16) :
    rowNorm (F := Ideal) x (ix2 r l) = Ideal.div (x (ix2 r l)) ((∑ k : Fin 16, x (ix2 r k)) + Cert.Spec.eps) := by
  unfold rowNorm
  rw [hostDivf_apply, colSpread_apply, addf_apply, col_apply, rowSum_apply, broadcastInDim_scalar_apply, constant_apply]

/-- The congestion stage at row r. -/
theorem congRows_apply (t a2 : FVec Ideal S16384x16 .f32) (r : Fin 16384) :
    congRows (F := Ideal) t a2 (ix1 r) = Cert.Spec.rowCong (fun l => t (ix2 r l)) (fun l => a2 (ix2 r l)) := by
  unfold congRows Cert.Spec.rowCong
  rw [rowSum_apply]
  refine Finset.sum_congr rfl fun l _ => ?_
  rw [mulf_apply, rowNorm_apply, rowNorm_apply]

/-- A sum over the indices of a rank-1 array is the sum over its coordinate range. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A batch mean: the plain sum over the rows, over 16384. -/
theorem batchMean_apply (x : FVec Ideal S16384 .f32) :
    batchMean (F := Ideal) x ix0 = Ideal.div (∑ r : Fin 16384, x (ix1 r)) Cert.Spec.cB := by
  unfold batchMean
  rw [hostDivf_apply, hostReduceAdd_apply, Ideal.hostReduceAdd_total _ (fun b => b.elim0), constant_apply,
    constant_apply, Ideal.ofBits_zero_f32, zero_add]
  rw [sum_idx1]

end Cert.ReferenceIdeal.RValue

end
-- ==== Proof.RVal.lean ====
/-
  The reference's composed term, at the ideal instance: when every destination word is the word of a destination
  below 511 and every link word the word of a link below 16, wrapping the index vectors changes nothing, the gather
  reads each tunnel's demand at its destination, and the scatter-add into zeros sums, per row and link, the products
  of the tunnels routed onto that link; with the row stages read at an index the term is the common value `Spec.G`.
-/
import proofs.«409053_j76347338654269_3_alg».proof.Proof.RDefs
import proofs.«409053_j76347338654269_3_alg».proof.Proof.Gen.ReferenceIdeal
import proofs.«409053_j76347338654269_3_alg».proof.Proof.Spec
import proofs.«409053_j76347338654269_3_alg».proof.Proof.RStats
import Idealize.ShloMosaic.PureOps.Ideal.Laws
import Idealize.ShloMosaic.Lib.ValueIdx
import Idealize.ShloMosaic.Lib.Pipeline.Value
import Idealize.ShloMosaic.Lib.Affine

noncomputable section

namespace Cert.ReferenceIdeal.RValue

open Idealize.ShloMosaic Idealize.ShloMosaic.TcCoe Idealize.SL.Sem Idealize.ShloMosaic.ValueIdx
open Cert.ReferenceIdeal Cert.ReferenceIdeal.Gen

/-- A word below 2^31 reads signed as itself. -/
theorem toInt_word {k : Nat} (hk : k < 2147483648) : (BitVec.ofNat 32 k).toInt = (k : Int) := by
  have h1 : (BitVec.ofNat 32 k).toNat = k := by rw [BitVec.toNat_ofNat]; exact Nat.mod_eq_of_lt (by omega)
  rw [BitVec.toInt_eq_toNat_of_lt (by rw [h1]; omega), h1]

/-- An index vector without negative entries is left as it is by the wrap. -/
theorem wrapIdx_eq (n : BitVec 32) (a : IVec S4088 32) (f : Fin 4088 → Nat) (hf : ∀ u, f u < 2147483648)
    (ha : ∀ u : Fin 4088, a (ix1 u) = BitVec.ofNat 32 (f u)) : wrapIdx n a = a := by
  funext i
  obtain ⟨u, rfl⟩ : ∃ u, i = ix1 u := ⟨i 0, eq_ix1 i⟩
  unfold wrapIdx
  rw [select_apply]
  have hc : cmpi .slt a (broadcastInDim S4088 ![] bcast_S_S4088 (constantI S_ 32 0#32)) (ix1 u) = 0#1 := by
    apply eq_zero_of_ne_one
    intro h
    have h' : IntOp.cmpi .slt (a (ix1 u)) 0#32 = 1#1 := h
    rw [IntOp.cmpi_slt, ha, toInt_word (hf u)] at h'
    have h0 : (0#32 : BitVec 32).toInt = 0 := by decide
    rw [h0] at h'
    omega
  rw [hc, select_zero]

/-- The gather of the demands at (r, τ) reads the demand of τ's destination. -/
theorem gather_apply (a1 : FVec Ideal S16384x511 .f32) (a5 : IVec S4088 32) (dst : Fin 4088 → Fin 511)
    (hdst : ∀ u : Fin 4088, a5 (ix1 u) = BitVec.ofNat 32 (dst u).val) (r : Fin 16384) (u : Fin 4088) :
    Host.gather gather_S16384x511_S4088x1_S16384x4088_0_1_n_n_1_1_163841 a1
      (broadcastInDim S4088x1 ![0] bcast_S4088_S4088x1_0 (wrapIdx 511#32 a5)) (ix2 r u) = a1 (ix2 r (dst u)) := by
  rw [wrapIdx_eq 511#32 a5 (fun u => (dst u).val) (fun u => by have := (dst u).isLt; omega) hdst]
  unfold Host.gather
  congr 1
  funext a
  refine Fin.ext ?_
  match a with
  | ⟨0, _⟩ =>
    show gather_S16384x511_S4088x1_S16384x4088_0_1_n_n_1_1_163841.start (ix2 r u) _ 0
      + gather_S16384x511_S4088x1_S16384x4088_0_1_n_n_1_1_163841.batchCoord (ix2 r u) 0
      + gather_S16384x511_S4088x1_S16384x4088_0_1_n_n_1_1_163841.offCoord (ix2 r u) 0 = r.val
    rw [GatherDims.batchCoord_eq_zero _ _ _ List.not_mem_nil]
    unfold GatherDims.start GatherDims.offCoord
    rw [dif_neg (by decide), dif_pos (by decide)]
    simp only [Nat.zero_add, Nat.add_zero]
    rfl
  | ⟨1, _⟩ =>
    show gather_S16384x511_S4088x1_S16384x4088_0_1_n_n_1_1_163841.start (ix2 r u) _ 1
      + gather_S16384x511_S4088x1_S16384x4088_0_1_n_n_1_1_163841.batchCoord (ix2 r u) 1
      + gather_S16384x511_S4088x1_S16384x4088_0_1_n_n_1_1_163841.offCoord (ix2 r u) 1 = (dst u).val
    rw [GatherDims.batchCoord_eq_zero _ _ _ List.not_mem_nil]
    unfold GatherDims.start GatherDims.offCoord
    rw [dif_pos (by decide), dif_neg (by decide)]
    simp only [Nat.add_zero]
    have hb : broadcastInDim S4088x1 ![0] bcast_S4088_S4088x1_0 a5
        (gather_S16384x511_S4088x1_S16384x4088_0_1_n_n_1_1_163841.siIdx (ix2 r u)
          ⟨List.idxOf 1 gather_S16384x511_S4088x1_S16384x4088_0_1_n_n_1_1_163841.startIndexMap,
            List.idxOf_lt_length_iff.2 (by decide)⟩) = a5 (ix1 u) := by
      refine broadcastInDim_apply _ _ _ _ (ix1 u) ?_
      intro b
      match b with
      | ⟨0, _⟩ => rfl
    rw [hb, hdst, toInt_word (by have := (dst u).isLt; omega), Int.toNat_natCast]
    have h510 : (![16384, 511] (1 : Fin 2) - gather_S16384x511_S4088x1_S16384x4088_0_1_n_n_1_1_163841.sliceSizes 1) = 510 := rfl
    rw [h510]
    have := (dst u).isLt
    omega

/-- The update at (r, τ) lands on row r's element for τ's link. -/
theorem resultIdx_eq (a4 : IVec S4088 32) (lnk : Fin 4088 → Fin 16)
    (hlnk : ∀ u : Fin 4088, a4 (ix1 u) = BitVec.ofNat 32 (lnk u).val) (r : Fin 16384) (u : Fin 4088) :
    scatter_S16384x16_S4088x1_S16384x4088_0_1_1_1.resultIdx? (ix2 r u)
      (broadcastInDim S4088x1 ![0] bcast_S4088_S4088x1_0 a4) = some (ix2 r (lnk u)) := by
  have hsw : ∀ a, scatter_S16384x16_S4088x1_S16384x4088_0_1_1_1.start (ix2 r u)
        (broadcastInDim S4088x1 ![0] bcast_S4088_S4088x1_0 a4) a
      + (scatter_S16384x16_S4088x1_S16384x4088_0_1_1_1.window (ix2 r u) a : Int) = ((ix2 r (lnk u) a).val : Int) := by
    intro a
    match a with
    | ⟨0, _⟩ =>
      show scatter_S16384x16_S4088x1_S16384x4088_0_1_1_1.start (ix2 r u) _ 0
        + (scatter_S16384x16_S4088x1_S16384x4088_0_1_1_1.window (ix2 r u) 0 : Int) = (r.val : Int)
      unfold ScatterDims.start ScatterDims.window
      rw [dif_neg (by decide), dif_pos (by decide)]
      simp only [Int.zero_add]
      rfl
    | ⟨1, _⟩ =>
      show scatter_S16384x16_S4088x1_S16384x4088_0_1_1_1.start (ix2 r u) _ 1
        + (scatter_S16384x16_S4088x1_S16384x4088_0_1_1_1.window (ix2 r u) 1 : Int) = ((lnk u).val : Int)
      unfold ScatterDims.start ScatterDims.window
      rw [dif_pos (by decide), dif_neg (by decide)]
      have hb : broadcastInDim S4088x1 ![0] bcast_S4088_S4088x1_0 a4
          (scatter_S16384x16_S4088x1_S16384x4088_0_1_1_1.siIdx (ix2 r u)
            ⟨List.idxOf 1 scatter_S16384x16_S4088x1_S16384x4088_0_1_1_1.scatterDimsToOperandDims,
              List.idxOf_lt_length_iff.2 (by decide)⟩) = a4 (ix1 u) := by
        refine broadcastInDim_apply _ _ _ _ (ix1 u) ?_
        intro b
        match b with
        | ⟨0, _⟩ => rfl
      rw [hb, hlnk, toInt_word (by have := (lnk u).isLt; omega)]
      simp
  unfold ScatterDims.resultIdx?
  rw [dif_pos (fun a => by
    rw [hsw a]
    exact ⟨by omega, by exact_mod_cast (ix2 r (lnk u) a).isLt⟩)]
  congr 1
  funext a
  apply Fin.ext
  simp only [hsw a, Int.toNat_natCast]

/-- The scatter-add into zeros read at (r, l): row r's traffic on link l. -/
theorem linkTraffic_apply (a0 : FVec Ideal S16384x4088 .f32) (a1 : FVec Ideal S16384x511 .f32) (a4 a5 : IVec S4088 32)
    (dst : Fin 4088 → Fin 511) (lnk : Fin 4088 → Fin 16)
    (hdst : ∀ u : Fin 4088, a5 (ix1 u) = BitVec.ofNat 32 (dst u).val)
    (hlnk : ∀ u : Fin 4088, a4 (ix1 u) = BitVec.ofNat 32 (lnk u).val) (r : Fin 16384) (l : Fin 16) :
    linkTraffic (F := Ideal) a0 a1 a4 a5 (ix2 r l) = Cert.Spec.traffic a0 a1 dst lnk r l := by
  unfold linkTraffic
  rw [wrapIdx_eq 16#32 a4 (fun u => (lnk u).val) (fun u => by have := (lnk u).isLt; omega) hlnk]
  unfold Host.scatterAdd
  rw [Ideal.hostScatterAdd_def]
  unfold Ideal.hostScatterAdd
  have hz : broadcastInDim S16384x16 ![] bcast_S_S16384x16 (constant (F := Ideal) S_ .f32 0x00000000#32) (ix2 r l) = 0 :=
    Ideal.ofBits_zero_f32
  rw [hz, zero_add, Finset.sum_filter, sum_idx2, Finset.sum_eq_single r]
  · unfold Cert.Spec.traffic
    refine Finset.sum_congr rfl fun u _ => ?_
    rw [resultIdx_eq a4 lnk hlnk]
    by_cases h : lnk u = l
    · rw [if_pos (by rw [h]), if_pos h, mulf_apply, gather_apply a1 a5 dst hdst]
    · rw [if_neg (fun e => h (congrFun (Option.some.inj e) 1)), if_neg h]
  · intro r' _ hr'
    refine Finset.sum_eq_zero fun u _ => ?_
    rw [resultIdx_eq a4 lnk hlnk, if_neg (fun e => hr' (congrFun (Option.some.inj e) 0))]
  · intro h
    exact absurd (Finset.mem_univ _) h

/-- With the index words in range (each the word of a destination below 511, of a link below 16) the reference's term is `Spec.G`. -/
theorem rterm_eq (a0 : FVec Ideal S16384x4088 .f32) (a1 : FVec Ideal S16384x511 .f32) (a2 : FVec Ideal S16384x16 .f32)
    (a3 : FVec Ideal S16 .f32) (a4 a5 : IVec S4088 32) (dst : Fin 4088 → Fin 511) (lnk : Fin 4088 → Fin 16)
    (hdst : ∀ u : Fin 4088, a5 (ix1 u) = BitVec.ofNat 32 (dst u).val)
    (hlnk : ∀ u : Fin 4088, a4 (ix1 u) = BitVec.ofNat 32 (lnk u).val) :
    rterm (F := Ideal) a0 a1 a2 a3 a4 a5 = fun _ => Cert.Spec.G a0 a1 a2 a3 dst lnk := by
  funext i
  rw [eq_ix0 i]
  have ht : ∀ r, (fun l => linkTraffic (F := Ideal) a0 a1 a4 a5 (ix2 r l)) = Cert.Spec.traffic a0 a1 dst lnk r :=
    fun r => funext fun l => linkTraffic_apply a0 a1 a4 a5 dst lnk hdst hlnk r l
  have hu : ∀ r, (fun l => linkUtil (F := Ideal) (linkTraffic a0 a1 a4 a5) a3 (ix2 r l))
      = Cert.Spec.util (Cert.Spec.traffic a0 a1 dst lnk r) (Cert.Spec.capRow a3) := by
    intro r
    funext l
    rw [linkUtil_apply, ht r]
  have hV : ∑ r : Fin 16384, varRows (F := Ideal) (linkUtil (linkTraffic a0 a1 a4 a5) a3) (ix1 r)
      = ∑ r : Fin 16384, Cert.Spec.varAt a0 a1 a3 dst lnk r :=
    Finset.sum_congr rfl fun r _ => by rw [varRows_apply, hu r]; rfl
  have hM : ∑ r : Fin 16384, maxRows (F := Ideal) (linkUtil (linkTraffic a0 a1 a4 a5) a3) (ix1 r)
      = ∑ r : Fin 16384, Cert.Spec.maxAt a0 a1 a3 dst lnk r :=
    Finset.sum_congr rfl fun r _ => by rw [maxRows_apply, hu r]; rfl
  have hC : ∑ r : Fin 16384, congRows (F := Ideal) (linkTraffic a0 a1 a4 a5) a2 (ix1 r)
      = ∑ r : Fin 16384, Cert.Spec.congAt a0 a1 a2 dst lnk r :=
    Finset.sum_congr rfl fun r _ => by rw [congRows_apply, ht r]; rfl
  unfold rterm
  rw [addf_apply, addf_apply, mulf_apply, mulf_apply, constant_apply, constant_apply, batchMean_apply, batchMean_apply,
    batchMean_apply, hV, hM, hC]
  rfl

end Cert.ReferenceIdeal.RValue

end
-- ==== Proof.PreDecode.lean ====
/-
  What the precondition says of the two index inputs. The precondition is a conjunction whose last two conjuncts say,
  of every destination word, 0 ≤ w < 511 read signed, and of every link word, 0 ≤ w < 16 read signed. A 32-bit word whose
  signed reading lies in [0, n) is the word of that natural number; so both tables are tables of numbers in range.
-/
import proofs.«409053_j76347338654269_3_alg».proof.Pre_finite_inputs
import proofs.«409053_j76347338654269_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs.Decode

open Idealize.ShloMosaic Idealize.ShloMosaic.ValueIdx
open Cert.Pre_finite_inputs

/-- A 32-bit word whose signed reading is nonnegative and below `n` is the word of a natural number below `n`. -/
theorem word_of_range (a : BitVec 32) (n : Nat) (h0 : 0 ≤ a.toInt) (h1 : a.toInt < (n : Int)) :
    a = BitVec.ofNat 32 a.toInt.toNat ∧ a.toInt.toNat < n := by
  have hlt : 2 * a.toNat < 2 ^ 32 := BitVec.toInt_pos_iff.1 h0
  have he : a.toInt = (a.toNat : Int) := BitVec.toInt_eq_toNat_of_lt hlt
  refine ⟨?_, by omega⟩
  apply BitVec.eq_of_toNat_eq
  rw [BitVec.toNat_ofNat, he, Int.toNat_natCast]
  have := a.isLt
  omega

instance : Subsingleton S_.Idx := ⟨fun a b => funext fun d => d.elim0⟩

/-- One conjunct `all ((t ≥ 0) ∧ (t < n))` of the precondition, read at an element: the reduction by `and` being one makes
    both comparisons one at every position; the signed comparisons against the constant tables say 0 ≤ t u < N. -/
theorem range_of_all [Cert.Pre_finite_inputs.Facts] (t : IVec S4088 32) (n : BitVec 32) (N : Nat) (hn : n.toInt = (N : Int))
    (e : Host.reduce IntOp.andi
        (andi (cmpi CmpIPredicate.sge t (broadcastInDim S4088 ![] Facts.bcast_S_S4088 (constantI S_ 32 0#32)))
          (cmpi CmpIPredicate.slt t (broadcastInDim S4088 ![] Facts.bcast_S_S4088 (constantI S_ 32 n))))
        (constantI S_ 1 1#1) Facts.reducesTo_S4088_S_d0 Facts.h_S_ ix0 = 1#1) (u : Fin 4088) :
    t (ix1 u) = BitVec.ofNat 32 (t (ix1 u)).toInt.toNat ∧ (t (ix1 u)).toInt.toNat < N := by
  have eu := Host.reduce_andi_all _ _ _ _ _ e (ix1 u)
  obtain ⟨e1, e2⟩ := IntOp.andi_eq_one.1 eu
  have g1 : (0#32 : BitVec 32).toInt ≤ (t (ix1 u)).toInt := IntOp.cmpi_sge.1 e1
  have g2 : (t (ix1 u)).toInt < n.toInt := IntOp.cmpi_slt.1 e2
  rw [show (0#32 : BitVec 32).toInt = 0 from by decide] at g1
  rw [hn] at g2
  exact word_of_range _ N g1 g2

/-- Where the precondition is all ones, every destination word is the word of a number below 511 and every link word
    the word of a number below 16. -/
theorem ranges_of_pre [Cert.Pre_finite_inputs.Facts] (a0 : FVec Ideal S16384x4088 .f32) (a1 : FVec Ideal S16384x511 .f32)
    (a2 : FVec Ideal S16384x16 .f32) (a3 : FVec Ideal S16 .f32) (a4 a5 : IVec S4088 32)
    (h : Cert.Pre_finite_inputs.fn (F := Ideal) a0 a1 a2 a3 a4 a5 = fun _ => 1#1) :
    ∃ (dst : Fin 4088 → Fin 511) (lnk : Fin 4088 → Fin 16),
      (∀ u : Fin 4088, a5 (ix1 u) = BitVec.ofNat 32 (dst u).val) ∧ (∀ u : Fin 4088, a4 (ix1 u) = BitVec.ofNat 32 (lnk u).val) := by
  have h0 := congrFun h ValueIdx.ix0
  dsimp only [fn, fn_part1] at h0
  -- the conjunction, from the outside in: (… ∧ all over the destinations) ∧ all over the links
  obtain ⟨h01, hlnk⟩ := IntOp.andi_eq_one.1 h0
  obtain ⟨-, hdst⟩ := IntOp.andi_eq_one.1 h01
  have Hd := range_of_all a5 511#32 511 (by decide) hdst
  have Hl := range_of_all a4 16#32 16 (by decide) hlnk
  exact ⟨fun u => ⟨(a5 (ix1 u)).toInt.toNat, (Hd u).2⟩, fun u => ⟨(a4 (ix1 u)).toInt.toNat, (Hl u).2⟩,
    fun u => (Hd u).1, fun u => (Hl u).1⟩

end Cert.Pre_finite_inputs.Decode

end
-- ==== Proof.lean ====
/-
  Link-load loss of a batch of traffic snapshots: the tiled kernel (two cores, 32 tiles of 256 rows each, the
  demands expanded and the traffic bucketed by two one-hot products, three running sums carried across a core's
  tiles) against the gather / scatter-add reference. Over the extended reals, with the two index inputs in range,
  both compute  mean var + ½ · mean max + f32(0.3) · mean cong  of the same per-row link traffic (Spec.lean).
-/
import proofs.«409053_j76347338654269_3_alg».proof.Defs
import proofs.«409053_j76347338654269_3_alg».proof.Proof.Gen.Kernel
import proofs.«409053_j76347338654269_3_alg».proof.Proof.Gen.Kernel.Frame
import proofs.«409053_j76347338654269_3_alg».proof.Proof.Gen.KernelIdeal
import proofs.«409053_j76347338654269_3_alg».proof.Proof.Gen.KernelIdeal.Frame
import proofs.«409053_j76347338654269_3_alg».proof.Proof.Gen.ReferenceIdeal
import proofs.«409053_j76347338654269_3_alg».proof.Proof.Gen.Pre_finite_inputs
import proofs.«409053_j76347338654269_3_alg».proof.Proof.KTail
import proofs.«409053_j76347338654269_3_alg».proof.Proof.KBridge
import proofs.«409053_j76347338654269_3_alg».proof.Proof.RRun
import proofs.«409053_j76347338654269_3_alg».proof.Proof.RVal
import proofs.«409053_j76347338654269_3_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RValue.run (F := Ideal) m ρ)

/-- Both programs end at `Spec.G` of arguments that agree, the precondition giving the index ranges. -/
theorem algebraic : Cert.algebraic_KernelIdeal_ReferenceIdeal := by
  intro m ρ m' ρ' hpre hagree
  refine ⟨fun c => Cert.KernelIdeal.KValue.kres m c, Cert.KernelIdeal.KValue.run m ρ, ?_⟩
  refine (θ_run Cert.ReferenceIdeal.defs _ _).mono (fun _ h c => ⟨?_, (h c).2⟩)
    (Cert.ReferenceIdeal.RValue.run (F := Ideal) m' ρ')
  obtain ⟨dst, lnk, hdst, hlnk⟩ := Cert.Pre_finite_inputs.Decode.ranges_of_pre _ _ _ _ _ _ (hpre c)
  rw [(h c).1, (hagree c).1, (hagree c).2.1, (hagree c).2.2.1, (hagree c).2.2.2.1, (hagree c).2.2.2.2.1, (hagree c).2.2.2.2.2]
  show _ = Cert.KernelIdeal.KValue.kres m c
  rw [Cert.KernelIdeal.KValue.kres_eq m c dst lnk hdst hlnk]
  exact Cert.ReferenceIdeal.RValue.rterm_eq _ _ _ _ _ _ dst lnk hdst hlnk

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
